-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000x1 : Shape := ⟨2, ![1250000, 1]⟩
abbrev S1250000 : Shape := ⟨1, ![1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000x1 : S_.BroadcastsInDim S1250000x1 (![] : Fin 0 → Fin S1250000x1.rank)
  reducesTo_S1250000x1_S_d0_1 : S1250000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1250000 : S_.BroadcastsInDim S1250000 (![] : Fin 0 → Fin S1250000.rank)
  reducesTo_S1250000_S_d0 : S1250000.ReducesTo [0] S_

variable [Facts]

def fn_part1 {F : FTy → Type} [FloatOps F] (main_arg2 : IVec S1250000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S1250000 32 := broadcastInDim S1250000 ![] bcast_S_S1250000 main_c_6
  let main_v20 : IVec S1250000 1 := cmpi .sge main_arg2 main_v19
  let main_c_7 : IVec S_ 32 := constantI S_ 32 100000#32
  let main_v21 : IVec S1250000 32 := broadcastInDim S1250000 ![] bcast_S_S1250000 main_c_7
  let main_v22 : IVec S1250000 1 := cmpi .slt main_arg2 main_v21
  let main_v23 : IVec S1250000 1 := andi main_v20 main_v22
  let main_c_8 : IVec S_ 1 := constantI S_ 1 1#1
  let main_v24 : IVec S_ 1 := (fun x v => Host.reduce IntOp.andi x v reducesTo_S1250000_S_d0 h_S_) main_v23 main_c_8
  let main_v25 : IVec S_ 1 := andi main_v18 main_v24
  main_v25

def fn {F : FTy → Type} [FloatOps F] (main_arg0 : FVec F S100000x64 .f32) (main_arg1 : FVec F S1250000x1 .f32) (main_arg2 : IVec S1250000 32) (main_arg3 : IVec S1250000 32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000x1 .f32 := Host.absf main_arg1
  let main_cst_0 : FVec F S_ .f32 := constant S_ .f32 0x7F800000#32
  let main_v5 : FVec F S1250000x1 .f32 := broadcastInDim S1250000x1 ![] bcast_S_S1250000x1 main_cst_0
  let main_v6 : IVec S1250000x1 1 := cmpf .olt main_v4 main_v5
  let main_c_1 : IVec S_ 1 := constantI S_ 1 1#1
  let main_v7 : IVec S_ 1 := (fun x v => Host.reduce IntOp.andi x v reducesTo_S1250000x1_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_v13 main_v16
-- ==== Kernel.lean ====
abbrev S100000x64 : Shape := ⟨2, ![100000, 64]⟩
abbrev S1250000x1 : Shape := ⟨2, ![1250000, 1]⟩
abbrev S1250000 : Shape := ⟨1, ![1250000]⟩
abbrev S64x64 : Shape := ⟨2, ![64, 64]⟩
abbrev S64 : Shape := ⟨1, ![64]⟩
abbrev S_ : Shape := ⟨0, ![]⟩
abbrev S102400x64 : Shape := ⟨2, ![102400, 64]⟩
abbrev S1x64 : Shape := ⟨2, ![1, 64]⟩
abbrev S1250000x64 : Shape := ⟨2, ![1250000, 64]⟩
abbrev S2000x1 : Shape := ⟨2, ![2000, 1]⟩
abbrev S4096x64 : Shape := ⟨2, ![4096, 64]⟩
abbrev S2000x64 : Shape := ⟨2, ![2000, 64]⟩
abbrev S1x4096 : Shape := ⟨2, ![1, 4096]⟩
abbrev S2000x4096 : Shape := ⟨2, ![2000, 4096]⟩

abbrev nBuf : Space → Nat
  | .hbm => 25
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1250000x1, .f32⟩
  | .hbm, ⟨2, _⟩ => ⟨S1250000, .i32⟩
  | .hbm, ⟨3, _⟩ => ⟨S1250000, .i32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S_, .f32⟩
  | .hbm, ⟨8, _⟩ => ⟨S102400x64, .f32⟩
  | .hbm, ⟨9, _⟩ => ⟨S102400x64, .bf16⟩
  | .hbm, ⟨10, _⟩ => ⟨S1250000x1, .i32⟩
  | .hbm, ⟨11, _⟩ => ⟨S_, .i32⟩
  | .hbm, ⟨12, _⟩ => ⟨S_, .i32⟩
  | .hbm, ⟨13, _⟩ => ⟨S1250000x1, .i32⟩
  | .hbm, ⟨14, _⟩ => ⟨S1250000x1, .i32⟩
  | .hbm, ⟨15, _⟩ => ⟨S_, .i32⟩
  | .hbm, ⟨16, _⟩ => ⟨S_, .i32⟩
  | .hbm, ⟨17, _⟩ => ⟨S1250000x1, .i32⟩
  | .hbm, ⟨18, _⟩ => ⟨S_, .i32⟩
  | .hbm, ⟨19, _⟩ => ⟨S_, .f32⟩
  | .hbm, ⟨20, _⟩ => ⟨S1250000x1, .f32⟩
  | .hbm, ⟨21, _⟩ => ⟨S1x64, .f32⟩
  | .hbm, ⟨22, _⟩ => ⟨S1250000x64, .bf16⟩
  | .hbm, ⟨23, _⟩ => ⟨S102400x64, .f32⟩
  | .hbm, ⟨24, _⟩ => ⟨S100000x64, .f32⟩
  | .local _ .vmem, ⟨0, _⟩ => ⟨S2000x1, .i32⟩
  | .local _ .vmem, ⟨1, _⟩ => ⟨S2000x1, .i32⟩
  | .local _ .vmem, ⟨2, _⟩ => ⟨S2000x1, .f32⟩
  | .local _ .vmem, ⟨3, _⟩ => ⟨S2000x1, .f32⟩
  | .local _ .vmem, ⟨4, _⟩ => ⟨S4096x64, .bf16⟩
  | .local _ .vmem, ⟨5, _⟩ => ⟨S4096x64, .bf16⟩
  | .local _ .vmem, ⟨6, _⟩ => ⟨S2000x64, .bf16⟩
  | .local _ .vmem, ⟨7, _⟩ => ⟨S2000x64, .bf16⟩
  | .local _ .vmem, ⟨8, _⟩ => ⟨S2000x64, .f32⟩
  | .local _ .vmem, ⟨9, _⟩ => ⟨S2000x1, .i32⟩
  | .local _ .vmem, ⟨10, _⟩ => ⟨S2000x1, .i32⟩
  | .local _ .vmem, ⟨11, _⟩ => ⟨S2000x64, .bf16⟩
  | .local _ .vmem, ⟨12, _⟩ => ⟨S2000x64, .bf16⟩
  | .local _ .vmem, ⟨13, _⟩ => ⟨S64x64, .f32⟩
  | .local _ .vmem, ⟨14, _⟩ => ⟨S1x64, .f32⟩
  | .local _ .vmem, ⟨15, _⟩ => ⟨S4096x64, .f32⟩
  | .local _ .vmem, ⟨16, _⟩ => ⟨S4096x64, .f32⟩
  | .local _ .vmem, ⟨17, _⟩ => ⟨S4096x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call2_v0 : Ref sig .tc := ⟨.hbm, 16, rfl⟩
abbrev main_v5 : Ref sig .tc := ⟨.hbm, 17, rfl⟩
abbrev main_c_2 : Ref sig .tc := ⟨.hbm, 18, rfl⟩
abbrev main_call3_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![625, 25], ![false, false]⟩

def k0_cond2 (i : grid0.Coords) : BitVec 1 :=
  let arg1 : BitVec 32 := BitVec.ofNat 32 (i 1).val
  let c24_i32 : BitVec 32 := 24#32
  let v23 : BitVec 1 := Scalar.cmpi .eq arg1 c24_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![25, 625], ![false, false]⟩

def k1_cond2 (i : grid1.Coords) : BitVec 1 :=
  let arg1 : BitVec 32 := BitVec.ofNat 32 (i 1).val
  let c624_i32 : BitVec 32 := 624#32
  let v23 : BitVec 1 := Scalar.cmpi .eq arg1 c624_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S4096x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  pads_S100000x64_S102400x64_024000_000 : S100000x64.Pads (![0, 0] : Fin 2 → Nat) ![2400, 0] ![0, 0] S102400x64
  h_S_ : 0 < S_.numel
  bitsLt_bf16_f32 : FTy.bits .bf16 < FTy.bits .f32
  shapeCasts_S1250000_S1250000x1 : S1250000.ShapeCasts S1250000x1
  pads_S1250000x1_S1250000x1_000_000 : S1250000x1.Pads (![0, 0] : Fin 2 → Nat) ![0, 0] ![0, 0] S1250000x1
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x4096_d1_w32 : S1x4096.Iotas .tc 32 [1]
  broadcasts_S2000x1_S2000x4096 : S2000x1.Broadcasts S2000x4096
  broadcasts_S1x4096_S2000x4096 : S1x4096.Broadcasts S2000x4096
  natLt_1_32 : 1 < 32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  broadcasts_S2000x1_S2000x64 : S2000x1.Broadcasts S2000x64
  packedbf16_S2000x64_S2000x64_0_0 : (Rect.unit (s := S2000x64) ![0, 0] S2000x64.size inb_S2000x64_S2000x64_0_0).PackedRows (EltTy.packing .bf16)
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  slices_S102400x64_S100000x64_0_0 : S102400x64.Slices ![0, 0] S100000x64
  dot_S2000x4096_S4096x64_S2000x64_1_0_0_1_n_n_wf : DotDims.WF S2000x4096 S4096x64 S2000x64 [1] [0] [0] [1] [] []
  dot_S2000x4096_S2000x64_S4096x64_0_0_1_1_n_n_wf : DotDims.WF S2000x4096 S2000x64 S4096x64 [0] [0] [1] [1] [] []
  dot_S4096x64_S64x64_S4096x64_1_1_0_0_n_n_wf : DotDims.WF S4096x64 S64x64 S4096x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S1250000x1.size a
  hwx0_0 : ∀ i : grid0.Coords, EltTy.bits .i32 = 32 ∨ (Rect.block (s := S1250000x1) S2000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S1250000x1.size a
  hwx0_1 : ∀ i : grid0.Coords, EltTy.bits .f32 = 32 ∨ (Rect.block (s := S1250000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S102400x64.size a
  hwx0_2 : ∀ i : grid0.Coords, EltTy.bits .bf16 = 32 ∨ (Rect.block (s := S102400x64) S4096x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S1250000x64.size a
  hwx0_3 : ∀ i : grid0.Coords, EltTy.bits .bf16 = 32 ∨ (Rect.block (s := S1250000x64) S2000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S1250000x1.size a
  hwx1_0 : ∀ i : grid1.Coords, EltTy.bits .i32 = 32 ∨ (Rect.block (s := S1250000x1) S2000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S1250000x64.size a
  hwx1_1 : ∀ i : grid1.Coords, EltTy.bits .bf16 = 32 ∨ (Rect.block (s := S1250000x64) S2000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x64.size a ≤ S102400x64.size a
  hwx1_4 : ∀ i : grid1.Coords, EltTy.bits .f32 = 32 ∨ (Rect.block (s := S102400x64) S4096x64.size (cc1_transform_4 i) (hinb1_4 i)).WholeWords (EltTy.packing .f32)

variable [Facts₀]

def dot_S2000x4096_S4096x64_S2000x64_1_0_0_1_n_n : DotDims S2000x4096 S4096x64 S2000x64 where
  lhsContracting := [1]
  rhsContracting := [0]
  lhsNonContracting := [0]
  rhsNonContracting := [1]
  lhsBatch := []
  rhsBatch := []
  wf := dot_S2000x4096_S4096x64_S2000x64_1_0_0_1_n_n_wf
def dot_S2000x4096_S2000x64_S4096x64_0_0_1_1_n_n : DotDims S2000x4096 S2000x64 S4096x64 where
  lhsContracting := [0]
  rhsContracting := [0]
  lhsNonContracting := [1]
  rhsNonContracting := [1]
  lhsBatch := []
  rhsBatch := []
  wf := dot_S2000x4096_S2000x64_S4096x64_0_0_1_1_n_n_wf
def dot_S4096x64_S64x64_S4096x64_1_1_0_0_n_n : DotDims S4096x64 S64x64 S4096x64 where
  lhsContracting := [1]
  rhsContracting := [1]
  lhsNonContracting := [0]
  rhsNonContracting := [0]
  lhsBatch := []
  rhsBatch := []
  wf := dot_S4096x64_S64x64_S4096x64_1_1_0_0_n_n_wf

abbrev win0_0 : Pipeline.Window sig grid0 :=
  Pipeline.Window.ofSpec (Memref.whole main_v3) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v5) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S4096x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S1250000x1 : Shape := ⟨2, ![1250000, 1]⟩
abbrev S1250000 : Shape := ⟨1, ![1250000]⟩
abbrev S64x64 : Shape := ⟨2, ![64, 64]⟩
abbrev S64 : Shape := ⟨1, ![64]⟩
abbrev S_ : Shape := ⟨0, ![]⟩
abbrev S1250000x64 : Shape := ⟨2, ![1250000, 64]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000x1, .f32⟩
  | .hbm, ⟨2, _⟩ => ⟨S1250000, .i32⟩
  | .hbm, ⟨3, _⟩ => ⟨S1250000, .i32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S1250000, .i32⟩
  | .hbm, ⟨8, _⟩ => ⟨S1250000, .i1⟩
  | .hbm, ⟨9, _⟩ => ⟨S_, .i32⟩
  | .hbm, ⟨10, _⟩ => ⟨S1250000, .i32⟩
  | .hbm, ⟨11, _⟩ => ⟨S1250000, .i32⟩
  | .hbm, ⟨12, _⟩ => ⟨S1250000, .i32⟩
  | .hbm, ⟨13, _⟩ => ⟨S1250000x1, .i32⟩
  | .hbm, ⟨14, _⟩ => ⟨S1250000x64, .f32⟩
  | .hbm, ⟨15, _⟩ => ⟨S1250000x64, .f32⟩
  | .hbm, ⟨16, _⟩ => ⟨S1250000x64, .f32⟩
  | .hbm, ⟨17, _⟩ => ⟨S_, .f32⟩
  | .hbm, ⟨18, _⟩ => ⟨S100000x64, .f32⟩
  | .hbm, ⟨19, _⟩ => ⟨S1250000x1, .i32⟩
  | .hbm, ⟨20, _⟩ => ⟨S100000x64, .f32⟩
  | .hbm, ⟨21, _⟩ => ⟨S64x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.R0Base.lean ====
/-
  Region 0 (the gather-and-scale call) of the kernel, the part its three control cases share.
  The grid is 625 edge blocks by 25 node blocks, the node block (the reduction coordinate) innermost: point t is edge block t / 25 and node block t % 25.
  The body resets its accumulator when that coordinate is 0 and stores into the output block when it is 24; both
  conditions are decided over the grid here, in closed form.  The output window is idle (nothing stored, nothing
  written back) except at coordinate 24.
-/
import proofs.«406658_j68066641707589_1_alg».proof.Proof.Gen.Kernel.Launch
import proofs.«406658_j68066641707589_1_alg».proof.Proof.Gen.Kernel.Skeleton
import proofs.«406658_j68066641707589_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid -/

/-- "the reduction coordinate is 0": the reset's condition, as the body computes it from the coordinates. -/
abbrev first0 (i : grid0.Coords) : Prop := (Scalar.cmpi .ne (Scalar.extui (Scalar.cmpi .eq (BitVec.ofNat 32 (i 1).val) 0#32)) 0#32) = 1#1
/-- It holds exactly at the points t with t % 25 = 0. -/
theorem first0_iff : ∀ t : Fin cfg0.N, first0 (grid0.coords t) ↔ t.val % 25 = 0 :=
  (by decide +kernel : ∀ t : Fin grid0.N, first0 (grid0.coords t) ↔ t.val % 25 = 0)

/-- "the reduction coordinate is the last": the condition of the store into the output block. -/
abbrev last0 (i : grid0.Coords) : Prop := k0_cond2 i = 1#1
/-- It holds exactly at the points t with t % 25 = 24. -/
theorem last0_iff : ∀ t : Fin cfg0.N, last0 (grid0.coords t) ↔ t.val % 25 = 24 :=
  (by decide +kernel : ∀ t : Fin grid0.N, last0 (grid0.coords t) ↔ t.val % 25 = 24)

/-! ## Where the windows are idle -/

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
/-- Away from the last reduction coordinate the output window is idle and is not written back. -/
theorem idle0_3 : ∀ t : Fin cfg0.N, ¬last0 (grid0.coords t) → cfg0.idle 3 (grid0.coords t) = true := fun t h => by
  show (!(k0_cond2 (grid0.coords t) == 1#1)) = true
  simp only [Bool.not_eq_true', beq_eq_false_iff_ne, ne_eq]; exact h
theorem noFlush0_3 : ∀ t : Fin cfg0.N, ¬last0 (grid0.coords t) → (cfg0.win 3).flush t = false := fun t h => by
  rw [Bool.eq_false_iff]; exact fun hf => h ((last0_iff t).mpr ((flush0_3 t).mp hf))
/-- At the last one it is live. -/
theorem live0_3 : ∀ t : Fin cfg0.N, last0 (grid0.coords t) → cfg0.idle 3 (grid0.coords t) = false := fun t h => by
  show (!(k0_cond2 (grid0.coords t) == 1#1)) = false
  simp only [Bool.not_eq_false', beq_iff_eq]; exact h

/-! ## The memrefs the body is called with -/

abbrev ms0_0 (t : Fin cfg0.N) : Memref sig .tc .vmem S2000x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x64 .bf16 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev acc0 : Memref sig .tc .vmem S2000x64 .f32 := Memref.whole cc0_scratch0
abbrev accV0 : View sig .tc .vmem S2000x64 .f32 := acc0.view
/-- One staging buffer of the output window, through which its contents are stated. -/
abbrev outV0 : View sig .tc .vmem S2000x64 .bf16 := (Memref.whole cc0_stg3_0 : Memref sig .tc .vmem S2000x64 .bf16).view

/-- The scoped buffers the call does not stage, each whole at some contents, with the accumulator's place held by
    an assertion `A` of the caller's choosing (they are listed in the order the launch lists them). -/
def rest0 (c : Dev nD) (A : sProp 𝕄) : sProp 𝕄 :=
  iprop(A ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the accumulator singled out of the scoped rest. -/
theorem PhiA0_eq (c : Dev nD) :
    (Pipeline.ΦA spec0 c : sProp 𝕄)
      = iprop(rest0 c (iprop(∃ d, owns (c : Thread nD τ) acc0 fullShare d)) ∗ (∃ r, prngReg c r)) := by
  unfold Pipeline.ΦA rest0; rw [scopedRest0_eq]; simp only [acc0, owns_whole]; try rfl

end Cert.Kernel.Hand

end
-- ==== Proof.K.R0RunA.lean ====
/-
  Region 0, where the reduction coordinate is 0 (the accumulator is reset, then added to; nothing is stored into the output block): the body run once on whole staging memrefs.  The run itself finds what the body's stores leave
  in each buffer it writes, as a list of pieces (last store first); that list is the first components of the result.
-/
import proofs.«406658_j68066641707589_1_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the reduction coordinate is 0: the inputs' buffers at their contents, the output block's at contents
    handed back untouched, the accumulator at anything; afterwards the accumulator holds the pieces the run found. -/
noncomputable def runFirst0 (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : first0 i) (hc1 : ¬last0 i)
    (x0 : Vec F S2000x1 .i32) (x1 : Vec F S2000x1 .f32) (x2 : Vec F S4096x64 .bf16) :
    Σ' (L3 : List (View.Piece (Elt F) S2000x64 .bf16)), { LS : List (View.Piece (Elt F) S2000x64 .f32) //
      ∀ (xi3 : Vec F S2000x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__gather_scale_kernel i arg2 harg2 arg3 harg3 arg4 harg4 arg5 harg5 arg6 harg6) K } := by
  refine ⟨[], ?_, fun xi3 E K => ?run⟩
  case run =>
    simp only [cc0__gather_scale_kernel_eq_skeleton]; unfold cc0__gather_scale_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.K.R0RunB.lean ====
/-
  Region 0, where the reduction coordinate is neither 0 nor the last (the accumulator is added to; nothing is stored into the output block): the body run once on whole staging memrefs.  The run itself finds what the body's stores leave
  in each buffer it writes, as a list of pieces (last store first); that list is the first components of the result.
-/
import proofs.«406658_j68066641707589_1_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle reduction coordinate: the accumulator enters at what the point before left (`xs`). -/
noncomputable def runMid0 (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : ¬last0 i)
    (x0 : Vec F S2000x1 .i32) (x1 : Vec F S2000x1 .f32) (x2 : Vec F S4096x64 .bf16) (xs : Vec F S2000x64 .f32) :
    Σ' (L3 : List (View.Piece (Elt F) S2000x64 .bf16)), { LS : List (View.Piece (Elt F) S2000x64 .f32) //
      ∀ (xi3 : Vec F S2000x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__gather_scale_kernel i arg2 harg2 arg3 harg3 arg4 harg4 arg5 harg5 arg6 harg6) K } := by
  refine ⟨[], ?_, fun xi3 E K => ?run⟩
  case run =>
    simp only [cc0__gather_scale_kernel_eq_skeleton]; unfold cc0__gather_scale_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.K.R0RunC.lean ====
/-
  Region 0, where the reduction coordinate is the last (the accumulator is added to, then the result is stored into the output block): the body run once on whole staging memrefs.  The run itself finds what the body's stores leave
  in each buffer it writes, as a list of pieces (last store first); that list is the first components of the result.
-/
import proofs.«406658_j68066641707589_1_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last reduction coordinate: the output block's buffer enters at anything and leaves with the found pieces. -/
noncomputable def runLast0 (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : last0 i)
    (x0 : Vec F S2000x1 .i32) (x1 : Vec F S2000x1 .f32) (x2 : Vec F S4096x64 .bf16) (xs : Vec F S2000x64 .f32) :
    Σ' (L3 : List (View.Piece (Elt F) S2000x64 .bf16)), { LS : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__gather_scale_kernel i arg2 harg2 arg3 harg3 arg4 harg4 arg5 harg5 arg6 harg6) K } := by
  refine ⟨?_, ?_, fun E K => ?run⟩
  case run =>
    simp only [cc0__gather_scale_kernel_eq_skeleton]; unfold cc0__gather_scale_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.K.R0Frame.lean ====
/-
  Region 0 (the gather-and-scale call): what its buffers hold point by point, and the proof data, stated at a parameter `V`, the
  contents of the core's buffers when the region is entered.

  After the body at point t the accumulator holds: where the reduction coordinate is 0 what the reset-and-add leaves,
  at every later coordinate what the add leaves over the point before's contents (`outsAt0`, by recursion on the
  point).  The output block's staging buffer is written only at the last reduction coordinate.  The region's invariant
  before point t is the class's before the first point and afterwards the accumulator at the point before's contents
  beside the other scoped buffers and the generator register, untouched.
-/
import proofs.«406658_j68066641707589_1_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The accumulator after the body where the reduction coordinate is 0: the run's pieces read back (they tile it). -/
def accFirst0 (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : first0 i) (hc1 : ¬last0 i)
    (x0 : Vec F S2000x1 .i32) (x1 : Vec F S2000x1 .f32) (x2 : Vec F S4096x64 .bf16) : Vec F S2000x64 .f32 :=
  accV0.read (Elt F) (accV0.writes (Elt F) accV0.junk (runFirst0 c i arg2 harg2 arg3 harg3 arg4 harg4 arg5 harg5 arg6 harg6 hc0 hc1 x0 x1 x2).2.1)
theorem accFirst0_cover (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : first0 i) (hc1 : ¬last0 i)
    (x0 : Vec F S2000x1 .i32) (x1 : Vec F S2000x1 .f32) (x2 : Vec F S4096x64 .bf16) (y : S2000x64.Idx) :
    ∃ pc ∈ (runFirst0 c i arg2 harg2 arg3 harg3 arg4 harg4 arg5 harg5 arg6 harg6 hc0 hc1 x0 x1 x2).2.1, y ∈ pc.1.set :=
  View.cover_of_tiledL (runFirst0 c i arg2 harg2 arg3 harg3 arg4 harg4 arg5 harg5 arg6 harg6 hc0 hc1 x0 x1 x2).2.1 S2000x64.size (by sl_kernel_rfl) y

/-- The accumulator after the body at a middle reduction coordinate, over what it held (`xs`). -/
def accMid0 (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : ¬last0 i)
    (x0 : Vec F S2000x1 .i32) (x1 : Vec F S2000x1 .f32) (x2 : Vec F S4096x64 .bf16) (xs : Vec F S2000x64 .f32) : Vec F S2000x64 .f32 :=
  accV0.read (Elt F) (accV0.writes (Elt F) accV0.junk (runMid0 c i arg2 harg2 arg3 harg3 arg4 harg4 arg5 harg5 arg6 harg6 hc0 hc1 x0 x1 x2 xs).2.1)
theorem accMid0_cover (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : ¬last0 i)
    (x0 : Vec F S2000x1 .i32) (x1 : Vec F S2000x1 .f32) (x2 : Vec F S4096x64 .bf16) (xs : Vec F S2000x64 .f32) (y : S2000x64.Idx) :
    ∃ pc ∈ (runMid0 c i arg2 harg2 arg3 harg3 arg4 harg4 arg5 harg5 arg6 harg6 hc0 hc1 x0 x1 x2 xs).2.1, y ∈ pc.1.set :=
  View.cover_of_tiledL (runMid0 c i arg2 harg2 arg3 harg3 arg4 harg4 arg5 harg5 arg6 harg6 hc0 hc1 x0 x1 x2 xs).2.1 S2000x64.size (by sl_kernel_rfl) y

/-- The accumulator after the body at the last reduction coordinate. -/
def accLast0 (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : last0 i)
    (x0 : Vec F S2000x1 .i32) (x1 : Vec F S2000x1 .f32) (x2 : Vec F S4096x64 .bf16) (xs : Vec F S2000x64 .f32) : Vec F S2000x64 .f32 :=
  accV0.read (Elt F) (accV0.writes (Elt F) accV0.junk (runLast0 c i arg2 harg2 arg3 harg3 arg4 harg4 arg5 harg5 arg6 harg6 hc0 hc1 x0 x1 x2 xs).2.1)
theorem accLast0_cover (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : last0 i)
    (x0 : Vec F S2000x1 .i32) (x1 : Vec F S2000x1 .f32) (x2 : Vec F S4096x64 .bf16) (xs : Vec F S2000x64 .f32) (y : S2000x64.Idx) :
    ∃ pc ∈ (runLast0 c i arg2 harg2 arg3 harg3 arg4 harg4 arg5 harg5 arg6 harg6 hc0 hc1 x0 x1 x2 xs).2.1, y ∈ pc.1.set :=
  View.cover_of_tiledL (runLast0 c i arg2 harg2 arg3 harg3 arg4 harg4 arg5 harg5 arg6 harg6 hc0 hc1 x0 x1 x2 xs).2.1 S2000x64.size (by sl_kernel_rfl) y

/-- The output block's staging buffer after the body at the last reduction coordinate. -/
def outLast0 (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : last0 i)
    (x0 : Vec F S2000x1 .i32) (x1 : Vec F S2000x1 .f32) (x2 : Vec F S4096x64 .bf16) (xs : Vec F S2000x64 .f32) : Vec F S2000x64 .bf16 :=
  outV0.read (Elt F) (outV0.writes (Elt F) outV0.junk (runLast0 c i arg2 harg2 arg3 harg3 arg4 harg4 arg5 harg5 arg6 harg6 hc0 hc1 x0 x1 x2 xs).1)
theorem outLast0_cover (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : last0 i)
    (x0 : Vec F S2000x1 .i32) (x1 : Vec F S2000x1 .f32) (x2 : Vec F S4096x64 .bf16) (xs : Vec F S2000x64 .f32) (y : S2000x64.Idx) :
    ∃ pc ∈ (runLast0 c i arg2 harg2 arg3 harg3 arg4 harg4 arg5 harg5 arg6 harg6 hc0 hc1 x0 x1 x2 xs).1, y ∈ pc.1.set :=
  View.cover_of_tiledL (runLast0 c i arg2 harg2 arg3 harg3 arg4 harg4 arg5 harg5 arg6 harg6 hc0 hc1 x0 x1 x2 xs).1 S2000x64.size (by sl_kernel_rfl) y

/-! ## Point by point -/

/-- What the output block's staging buffer and the accumulator hold after the body at position `n`.  (The first
    component is consulted at the last reduction coordinate only; elsewhere the window is idle and a placeholder
    stands there.) -/
def outsAt0 (c : Dev nD) : (n : ℕ) → n < cfg0.N → Vec F S2000x64 .bf16 × Vec F S2000x64 .f32
  | 0, hn => (outV0.read (Elt F) outV0.junk,
      accFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) acc0 (Memref.isWhole_whole _) ((first0_iff ⟨0, hn⟩).mpr (Nat.zero_mod _)) (fun h => (fun h => by (try dsimp only at h); omega) ((last0_iff ⟨0, hn⟩).mp h)) (iblk0 V c 0 ⟨0, hn⟩) (iblk0 V c 1 ⟨0, hn⟩) (iblk0 V c 2 ⟨0, hn⟩))
  | n + 1, hn =>
    if h0 : (n + 1) % 25 = 0 then
      if h1 : (n + 1) % 25 = 24 then
        False.elim (by omega)
      else
        (outV0.read (Elt F) outV0.junk,
          accFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) acc0 (Memref.isWhole_whole _) ((first0_iff ⟨n + 1, hn⟩).mpr h0) (fun h => h1 ((last0_iff ⟨n + 1, hn⟩).mp h)) (iblk0 V c 0 ⟨n + 1, hn⟩) (iblk0 V c 1 ⟨n + 1, hn⟩) (iblk0 V c 2 ⟨n + 1, hn⟩))
    else
      if h1 : (n + 1) % 25 = 24 then
        (outLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) acc0 (Memref.isWhole_whole _) (fun h => h0 ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
          accLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) acc0 (Memref.isWhole_whole _) (fun h => h0 ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (outV0.read (Elt F) outV0.junk,
          accMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) acc0 (Memref.isWhole_whole _) (fun h => h0 ((first0_iff ⟨n + 1, hn⟩).mp h)) (fun h => h1 ((last0_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` where the reduction coordinate is 0. -/
theorem outsAt0_first (c : Dev nD) (t : Fin cfg0.N) (h0 : t.val % 25 = 0) (h1 : ¬t.val % 25 = 24) :
    outsAt0 V c t.val t.isLt = (outV0.read (Elt F) outV0.junk,
      accFirst0 c (grid0.coords t) (ms0_0 t) (hs0_0 t) (ms0_1 t) (hs0_1 t) (ms0_2 t) (hs0_2 t) (ms0_3 t) (hs0_3 t) acc0 (Memref.isWhole_whole _) ((first0_iff t).mpr h0) (fun h => h1 ((last0_iff t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a middle reduction coordinate, over what the point before left. -/
theorem outsAt0_mid (c : Dev nD) (t : Fin cfg0.N) (h0 : ¬t.val % 25 = 0) (h1 : ¬t.val % 25 = 24) :
    outsAt0 V c t.val t.isLt = (outV0.read (Elt F) outV0.junk,
      accMid0 c (grid0.coords t) (ms0_0 t) (hs0_0 t) (ms0_1 t) (hs0_1 t) (ms0_2 t) (hs0_2 t) (ms0_3 t) (hs0_3 t) acc0 (Memref.isWhole_whole _) (fun h => h0 ((first0_iff t).mp h)) (fun h => h1 ((last0_iff t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last reduction coordinate, over what the point before left. -/
theorem outsAt0_last (c : Dev nD) (t : Fin cfg0.N) (h0 : ¬t.val % 25 = 0) (h1 : t.val % 25 = 24) :
    outsAt0 V c t.val t.isLt = (outLast0 c (grid0.coords t) (ms0_0 t) (hs0_0 t) (ms0_1 t) (hs0_1 t) (ms0_2 t) (hs0_2 t) (ms0_3 t) (hs0_3 t) acc0 (Memref.isWhole_whole _) (fun h => h0 ((first0_iff t).mp h)) ((last0_iff t).mpr h1) (iblk0 V c 0 t) (iblk0 V c 1 t) (iblk0 V c 2 t) (outsAt0 V c (t.val - 1) (Nat.lt_of_le_of_lt (Nat.sub_le _ _) t.isLt)).2,
      accLast0 c (grid0.coords t) (ms0_0 t) (hs0_0 t) (ms0_1 t) (hs0_1 t) (ms0_2 t) (hs0_2 t) (ms0_3 t) (hs0_3 t) acc0 (Memref.isWhole_whole _) (fun h => h0 ((first0_iff t).mp h)) ((last0_iff t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: the class's invariant before the first point; afterwards the accumulator at what the point
    before left, the other scoped buffers at some contents, the generator register at some state. -/
def PhiS0 (c : Dev nD) : (n : ℕ) → n ≤ cfg0.N → sProp 𝕄
  | 0, _ => Pipeline.ΦA spec0 c
  | n + 1, hn => iprop(rest0 c (owns (c : Thread nD τ) acc0 fullShare ((outsAt0 V c n hn).2)) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(rest0 c (owns (c : Thread nD τ) acc0 fullShare ((outsAt0 V c n hn).2)) ∗ (∃ r, prngReg c r)) := rfl

theorem PhiS0_pos (c : Dev nD) (n : ℕ) (h : n ≤ cfg0.N) (hz : n ≠ 0) :
    PhiS0 V c n h = iprop(rest0 c (owns (c : Thread nD τ) acc0 fullShare ((outsAt0 V c (n - 1) (by omega)).2)) ∗ (∃ r, prngReg c r)) := by
  cases n with
  | zero => exact absurd rfl hz
  | succ n => rfl

/-! ## The proof data -/

/-- The arrays as the region finds them; after the body each input's buffer at its block and the output's at
    `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Hand

end
-- ==== Proof.K.R0Body.lean ====
/-
  Region 0: the body obligation.  At every point the inputs' staging buffers hold their blocks; which of the three
  control cases the point is in follows from its reduction coordinate (t % 25); the invariant hands the body the
  accumulator at what the point before left (at anything, before the first point) and takes it back at this point's
  contents.
-/
import proofs.«406658_j68066641707589_1_alg».proof.Proof.K.R0Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 15625 := lt_of_lt_of_eq t.isLt (show cfg0.N = 15625 from N_0)
  by_cases h0 : t.val % 25 = 0
  ·
    have h1 : ¬t.val % 25 = 24 := by omega
    rw [show (dat0 V c).leavesExact 0 t = owns (c : Thread nD τ) (ms0_0 t) fullShare ((dat0 V c).after 0 t) from by
      unfold Dat.leavesExact; rw [live0_0 t], after0_0]
    rw [show (dat0 V c).leavesExact 1 t = owns (c : Thread nD τ) (ms0_1 t) fullShare ((dat0 V c).after 1 t) from by
      unfold Dat.leavesExact; rw [live0_1 t], after0_1]
    rw [show (dat0 V c).leavesExact 2 t = owns (c : Thread nD τ) (ms0_2 t) fullShare ((dat0 V c).after 2 t) from by
      unfold Dat.leavesExact; rw [live0_2 t], after0_2]
    rw [Dat.leavesExact_idle (dat0 V c) 3 t (idle0_3 t (fun h => h1 ((last0_iff t).mp h))) (noFlush0_3 t (fun h => h1 ((last0_iff t).mp h)))]
    rw [outsAt0_first V c t h0 h1]
    unfold accFirst0; (try dsimp only)
    by_cases hz : t.val = 0
    ·
      rw [PhiS0_castSucc V c t, PhiS0_zero V c _ _ hz, PhiA0_eq]
      unfold rest0
      iintro ⟨⟨⟨HS, Rb0, Rb1, Rb2, Rb3, Rb4, Rb5, Rb6, Rb7, Rb8⟩, Hg⟩, Ho, ⟨%d0, H0⟩, ⟨%d1, H1⟩, ⟨%d2, H2⟩, ⟨%d3, H3⟩⟩
      iapply ((runFirst0 c (grid0.coords t) _ _ _ _ _ _ _ _ _ _ ((first0_iff t).mpr h0) (fun h => h1 ((last0_iff t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Rb0 Rb1 Rb2 Rb3 Rb4 Rb5 Rb6 Rb7 Rb8 Hg]
      · isplitl [HS Rb0 Rb1 Rb2 Rb3 Rb4 Rb5 Rb6 Rb7 Rb8]
        · isplitl [HS]
          · unfold owns; iexists _; isplitr
            swap; · iexact HS
            ipureintro; exact View.read_writes_of_cover _ _ _ _ _ (accFirst0_cover c _ _ _ _ _ _ _ _ _ _ _ _ _ _ _ _)
          isplitl [Rb0]
          · iexact Rb0
          isplitl [Rb1]
          · iexact Rb1
          isplitl [Rb2]
          · iexact Rb2
          isplitl [Rb3]
          · iexact Rb3
          isplitl [Rb4]
          · iexact Rb4
          isplitl [Rb5]
          · iexact Rb5
          isplitl [Rb6]
          · iexact Rb6
          isplitl [Rb7]
          · iexact Rb7
          iexact Rb8
        iexact Hg
      isplitl [Ho]; · iexact Ho
      isplitl [H0]; · iexact H0
      isplitl [H1]; · iexact H1
      isplitl [H2]; · iexact H2
      iexists _; iexact H3
    ·
      rw [PhiS0_castSucc V c t, PhiS0_pos V c _ _ hz]
      unfold rest0
      iintro ⟨⟨⟨HS, Rb0, Rb1, Rb2, Rb3, Rb4, Rb5, Rb6, Rb7, Rb8⟩, Hg⟩, Ho, ⟨%d0, H0⟩, ⟨%d1, H1⟩, ⟨%d2, H2⟩, ⟨%d3, H3⟩⟩
      iapply ((runFirst0 c (grid0.coords t) _ _ _ _ _ _ _ _ _ _ ((first0_iff t).mpr h0) (fun h => h1 ((last0_iff t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Rb0 Rb1 Rb2 Rb3 Rb4 Rb5 Rb6 Rb7 Rb8 Hg]
      · isplitl [HS Rb0 Rb1 Rb2 Rb3 Rb4 Rb5 Rb6 Rb7 Rb8]
        · isplitl [HS]
          · unfold owns; iexists _; isplitr
            swap; · iexact HS
            ipureintro; exact View.read_writes_of_cover _ _ _ _ _ (accFirst0_cover c _ _ _ _ _ _ _ _ _ _ _ _ _ _ _ _)
          isplitl [Rb0]
          · iexact Rb0
          isplitl [Rb1]
          · iexact Rb1
          isplitl [Rb2]
          · iexact Rb2
          isplitl [Rb3]
          · iexact Rb3
          isplitl [Rb4]
          · iexact Rb4
          isplitl [Rb5]
          · iexact Rb5
          isplitl [Rb6]
          · iexact Rb6
          isplitl [Rb7]
          · iexact Rb7
          iexact Rb8
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 25 = 24
    ·
      rw [show (dat0 V c).leavesExact 0 t = owns (c : Thread nD τ) (ms0_0 t) fullShare ((dat0 V c).after 0 t) from by
        unfold Dat.leavesExact; rw [live0_0 t], after0_0]
      rw [show (dat0 V c).leavesExact 1 t = owns (c : Thread nD τ) (ms0_1 t) fullShare ((dat0 V c).after 1 t) from by
        unfold Dat.leavesExact; rw [live0_1 t], after0_1]
      rw [show (dat0 V c).leavesExact 2 t = owns (c : Thread nD τ) (ms0_2 t) fullShare ((dat0 V c).after 2 t) from by
        unfold Dat.leavesExact; rw [live0_2 t], after0_2]
      rw [show (dat0 V c).leavesExact 3 t = owns (c : Thread nD τ) (ms0_3 t) fullShare ((dat0 V c).after 3 t) from by
        unfold Dat.leavesExact; rw [live0_3 t ((last0_iff t).mpr h1)], after0_3]
      rw [outsAt0_last V c t h0 h1]
      unfold outLast0 accLast0; (try dsimp only)
      rw [PhiS0_castSucc V c t, PhiS0_pos V c _ _ hz]
      unfold rest0
      iintro ⟨⟨⟨HS, Rb0, Rb1, Rb2, Rb3, Rb4, Rb5, Rb6, Rb7, Rb8⟩, Hg⟩, Ho, ⟨%d0, H0⟩, ⟨%d1, H1⟩, ⟨%d2, H2⟩, ⟨%d3, H3⟩⟩
      iapply ((runLast0 c (grid0.coords t) _ _ _ _ _ _ _ _ _ _ (fun h => h0 ((first0_iff t).mp h)) ((last0_iff t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Rb0 Rb1 Rb2 Rb3 Rb4 Rb5 Rb6 Rb7 Rb8 Hg]
      · isplitl [HS Rb0 Rb1 Rb2 Rb3 Rb4 Rb5 Rb6 Rb7 Rb8]
        · isplitl [HS]
          · unfold owns; iexists _; isplitr
            swap; · iexact HS
            ipureintro; exact View.read_writes_of_cover _ _ _ _ _ (accLast0_cover c _ _ _ _ _ _ _ _ _ _ _ _ _ _ _ _ _)
          isplitl [Rb0]
          · iexact Rb0
          isplitl [Rb1]
          · iexact Rb1
          isplitl [Rb2]
          · iexact Rb2
          isplitl [Rb3]
          · iexact Rb3
          isplitl [Rb4]
          · iexact Rb4
          isplitl [Rb5]
          · iexact Rb5
          isplitl [Rb6]
          · iexact Rb6
          isplitl [Rb7]
          · iexact Rb7
          iexact Rb8
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast0_cover c _ _ _ _ _ _ _ _ _ _ _ _ _ _ _ _ _)
    ·
      rw [show (dat0 V c).leavesExact 0 t = owns (c : Thread nD τ) (ms0_0 t) fullShare ((dat0 V c).after 0 t) from by
        unfold Dat.leavesExact; rw [live0_0 t], after0_0]
      rw [show (dat0 V c).leavesExact 1 t = owns (c : Thread nD τ) (ms0_1 t) fullShare ((dat0 V c).after 1 t) from by
        unfold Dat.leavesExact; rw [live0_1 t], after0_1]
      rw [show (dat0 V c).leavesExact 2 t = owns (c : Thread nD τ) (ms0_2 t) fullShare ((dat0 V c).after 2 t) from by
        unfold Dat.leavesExact; rw [live0_2 t], after0_2]
      rw [Dat.leavesExact_idle (dat0 V c) 3 t (idle0_3 t (fun h => h1 ((last0_iff t).mp h))) (noFlush0_3 t (fun h => h1 ((last0_iff t).mp h)))]
      rw [outsAt0_mid V c t h0 h1]
      unfold accMid0; (try dsimp only)
      rw [PhiS0_castSucc V c t, PhiS0_pos V c _ _ hz]
      unfold rest0
      iintro ⟨⟨⟨HS, Rb0, Rb1, Rb2, Rb3, Rb4, Rb5, Rb6, Rb7, Rb8⟩, Hg⟩, Ho, ⟨%d0, H0⟩, ⟨%d1, H1⟩, ⟨%d2, H2⟩, ⟨%d3, H3⟩⟩
      iapply ((runMid0 c (grid0.coords t) _ _ _ _ _ _ _ _ _ _ (fun h => h0 ((first0_iff t).mp h)) (fun h => h1 ((last0_iff t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Rb0 Rb1 Rb2 Rb3 Rb4 Rb5 Rb6 Rb7 Rb8 Hg]
      · isplitl [HS Rb0 Rb1 Rb2 Rb3 Rb4 Rb5 Rb6 Rb7 Rb8]
        · isplitl [HS]
          · unfold owns; iexists _; isplitr
            swap; · iexact HS
            ipureintro; exact View.read_writes_of_cover _ _ _ _ _ (accMid0_cover c _ _ _ _ _ _ _ _ _ _ _ _ _ _ _ _ _)
          isplitl [Rb0]
          · iexact Rb0
          isplitl [Rb1]
          · iexact Rb1
          isplitl [Rb2]
          · iexact Rb2
          isplitl [Rb3]
          · iexact Rb3
          isplitl [Rb4]
          · iexact Rb4
          isplitl [Rb5]
          · iexact Rb5
          isplitl [Rb6]
          · iexact Rb6
          isplitl [Rb7]
          · iexact Rb7
          iexact Rb8
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: what the accumulator holds is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 15625 := N_0; omega), PhiA0_eq]
  unfold rest0
  iintro ⟨⟨HS, Rb0, Rb1, Rb2, Rb3, Rb4, Rb5, Rb6, Rb7, Rb8⟩, Hg⟩
  isplitl [HS Rb0 Rb1 Rb2 Rb3 Rb4 Rb5 Rb6 Rb7 Rb8]
  · isplitl [HS]; · iexists _; iexact HS
    isplitl [Rb0]; · iexact Rb0
    isplitl [Rb1]; · iexact Rb1
    isplitl [Rb2]; · iexact Rb2
    isplitl [Rb3]; · iexact Rb3
    isplitl [Rb4]; · iexact Rb4
    isplitl [Rb5]; · iexact Rb5
    isplitl [Rb6]; · iexact Rb6
    isplitl [Rb7]; · iexact Rb7
    iexact Rb8
  iexact Hg

end Cert.Kernel.Hand

end
-- ==== Proof.K.R1Base.lean ====
/-
  Region 1 (the scatter-sum-and-linear call) of the kernel, the part its three control cases share.
  The grid is 25 node blocks by 625 edge blocks, the edge block (the reduction coordinate) innermost: point t is node block t / 625 and edge block t % 625.
  The body resets its accumulator when that coordinate is 0 and stores into the output block when it is 624; both
  conditions are decided over the grid here, in closed form.  The output window is idle (nothing stored, nothing
  written back) except at coordinate 624.
-/
import proofs.«406658_j68066641707589_1_alg».proof.Proof.Gen.Kernel.Launch
import proofs.«406658_j68066641707589_1_alg».proof.Proof.Gen.Kernel.Skeleton
import proofs.«406658_j68066641707589_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid -/

/-- "the reduction coordinate is 0": the reset's condition, as the body computes it from the coordinates. -/
abbrev first1 (i : grid1.Coords) : Prop := (Scalar.cmpi .ne (Scalar.extui (Scalar.cmpi .eq (BitVec.ofNat 32 (i 1).val) 0#32)) 0#32) = 1#1
/-- It holds exactly at the points t with t % 625 = 0. -/
theorem first1_iff : ∀ t : Fin cfg1.N, first1 (grid1.coords t) ↔ t.val % 625 = 0 :=
  (by decide +kernel : ∀ t : Fin grid1.N, first1 (grid1.coords t) ↔ t.val % 625 = 0)

/-- "the reduction coordinate is the last": the condition of the store into the output block. -/
abbrev last1 (i : grid1.Coords) : Prop := k1_cond2 i = 1#1
/-- It holds exactly at the points t with t % 625 = 624. -/
theorem last1_iff : ∀ t : Fin cfg1.N, last1 (grid1.coords t) ↔ t.val % 625 = 624 :=
  (by decide +kernel : ∀ t : Fin grid1.N, last1 (grid1.coords t) ↔ t.val % 625 = 624)

/-! ## Where the windows are idle -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
/-- Away from the last reduction coordinate the output window is idle and is not written back. -/
theorem idle1_4 : ∀ t : Fin cfg1.N, ¬last1 (grid1.coords t) → cfg1.idle 4 (grid1.coords t) = true := fun t h => by
  show (!(k1_cond2 (grid1.coords t) == 1#1)) = true
  simp only [Bool.not_eq_true', beq_eq_false_iff_ne, ne_eq]; exact h
theorem noFlush1_4 : ∀ t : Fin cfg1.N, ¬last1 (grid1.coords t) → (cfg1.win 4).flush t = false := fun t h => by
  rw [Bool.eq_false_iff]; exact fun hf => h ((last1_iff t).mpr ((flush1_4 t).mp hf))
/-- At the last one it is live. -/
theorem live1_4 : ∀ t : Fin cfg1.N, last1 (grid1.coords t) → cfg1.idle 4 (grid1.coords t) = false := fun t h => by
  show (!(k1_cond2 (grid1.coords t) == 1#1)) = false
  simp only [Bool.not_eq_false', beq_iff_eq]; exact h

/-! ## The memrefs the body is called with -/

abbrev ms1_0 (t : Fin cfg1.N) : Memref sig .tc .vmem S2000x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x64 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from point to point. -/
abbrev acc1 : Memref sig .tc .vmem S4096x64 .f32 := Memref.whole cc1_scratch0
abbrev accV1 : View sig .tc .vmem S4096x64 .f32 := acc1.view
/-- One staging buffer of the output window, through which its contents are stated. -/
abbrev outV1 : View sig .tc .vmem S4096x64 .f32 := (Memref.whole cc1_stg4_0 : Memref sig .tc .vmem S4096x64 .f32).view

/-- The scoped buffers the call does not stage, each whole at some contents, with the accumulator's place held by
    an assertion `A` of the caller's choosing (they are listed in the order the launch lists them). -/
def rest1 (c : Dev nD) (A : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ A)

/-- The class invariant with the accumulator singled out of the scoped rest. -/
theorem PhiA1_eq (c : Dev nD) :
    (Pipeline.ΦA spec1 c : sProp 𝕄)
      = iprop(rest1 c (iprop(∃ d, owns (c : Thread nD τ) acc1 fullShare d)) ∗ (∃ r, prngReg c r)) := by
  unfold Pipeline.ΦA rest1; rw [scopedRest1_eq]; simp only [acc1, owns_whole]; try rfl

end Cert.Kernel.Hand

end
-- ==== Proof.K.R1RunA.lean ====
/-
  Region 1, where the reduction coordinate is 0 (the accumulator is reset, then added to; nothing is stored into the output block): the body run once on whole staging memrefs.  The run itself finds what the body's stores leave
  in each buffer it writes, as a list of pieces (last store first); that list is the first components of the result.
-/
import proofs.«406658_j68066641707589_1_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the reduction coordinate is 0: the inputs' buffers at their contents, the output block's at contents
    handed back untouched, the accumulator at anything; afterwards the accumulator holds the pieces the run found. -/
noncomputable def runFirst1 (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : first1 i) (hc1 : ¬last1 i)
    (x0 : Vec F S2000x1 .i32) (x1 : Vec F S2000x64 .bf16) (x2 : Vec F S64x64 .f32) (x3 : Vec F S1x64 .f32) :
    Σ' (L4 : List (View.Piece (Elt F) S4096x64 .f32)), { LS : List (View.Piece (Elt F) S4096x64 .f32) //
      ∀ (xi4 : Vec F S4096x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__scatter_sum_linear_kernel i arg2 harg2 arg3 harg3 arg4 harg4 arg5 harg5 arg6 harg6 arg7 harg7) K } := by
  refine ⟨[], ?_, fun xi4 E K => ?run⟩
  case run =>
    simp only [cc1__scatter_sum_linear_kernel_eq_skeleton]; unfold cc1__scatter_sum_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.K.R1RunB.lean ====
/-
  Region 1, where the reduction coordinate is neither 0 nor the last (the accumulator is added to; nothing is stored into the output block): the body run once on whole staging memrefs.  The run itself finds what the body's stores leave
  in each buffer it writes, as a list of pieces (last store first); that list is the first components of the result.
-/
import proofs.«406658_j68066641707589_1_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle reduction coordinate: the accumulator enters at what the point before left (`xs`). -/
noncomputable def runMid1 (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : ¬last1 i)
    (x0 : Vec F S2000x1 .i32) (x1 : Vec F S2000x64 .bf16) (x2 : Vec F S64x64 .f32) (x3 : Vec F S1x64 .f32) (xs : Vec F S4096x64 .f32) :
    Σ' (L4 : List (View.Piece (Elt F) S4096x64 .f32)), { LS : List (View.Piece (Elt F) S4096x64 .f32) //
      ∀ (xi4 : Vec F S4096x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__scatter_sum_linear_kernel i arg2 harg2 arg3 harg3 arg4 harg4 arg5 harg5 arg6 harg6 arg7 harg7) K } := by
  refine ⟨[], ?_, fun xi4 E K => ?run⟩
  case run =>
    simp only [cc1__scatter_sum_linear_kernel_eq_skeleton]; unfold cc1__scatter_sum_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.K.R1RunC.lean ====
/-
  Region 1, where the reduction coordinate is the last (the accumulator is added to, then the result is stored into the output block): the body run once on whole staging memrefs.  The run itself finds what the body's stores leave
  in each buffer it writes, as a list of pieces (last store first); that list is the first components of the result.
-/
import proofs.«406658_j68066641707589_1_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last reduction coordinate: the output block's buffer enters at anything and leaves with the found pieces. -/
noncomputable def runLast1 (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : last1 i)
    (x0 : Vec F S2000x1 .i32) (x1 : Vec F S2000x64 .bf16) (x2 : Vec F S64x64 .f32) (x3 : Vec F S1x64 .f32) (xs : Vec F S4096x64 .f32) :
    Σ' (L4 : List (View.Piece (Elt F) S4096x64 .f32)), { LS : List (View.Piece (Elt F) S4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__scatter_sum_linear_kernel i arg2 harg2 arg3 harg3 arg4 harg4 arg5 harg5 arg6 harg6 arg7 harg7) K } := by
  refine ⟨?_, ?_, fun E K => ?run⟩
  case run =>
    simp only [cc1__scatter_sum_linear_kernel_eq_skeleton]; unfold cc1__scatter_sum_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.K.R1Frame.lean ====
/-
  Region 1 (the scatter-sum-and-linear call): what its buffers hold point by point, and the proof data, stated at a parameter `V`, the
  contents of the core's buffers when the region is entered.

  After the body at point t the accumulator holds: where the reduction coordinate is 0 what the reset-and-add leaves,
  at every later coordinate what the add leaves over the point before's contents (`outsAt1`, by recursion on the
  point).  The output block's staging buffer is written only at the last reduction coordinate.  The region's invariant
  before point t is the class's before the first point and afterwards the accumulator at the point before's contents
  beside the other scoped buffers and the generator register, untouched.
-/
import proofs.«406658_j68066641707589_1_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The accumulator after the body where the reduction coordinate is 0: the run's pieces read back (they tile it). -/
def accFirst1 (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : first1 i) (hc1 : ¬last1 i)
    (x0 : Vec F S2000x1 .i32) (x1 : Vec F S2000x64 .bf16) (x2 : Vec F S64x64 .f32) (x3 : Vec F S1x64 .f32) : Vec F S4096x64 .f32 :=
  accV1.read (Elt F) (accV1.writes (Elt F) accV1.junk (runFirst1 c i arg2 harg2 arg3 harg3 arg4 harg4 arg5 harg5 arg6 harg6 arg7 harg7 hc0 hc1 x0 x1 x2 x3).2.1)
theorem accFirst1_cover (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : first1 i) (hc1 : ¬last1 i)
    (x0 : Vec F S2000x1 .i32) (x1 : Vec F S2000x64 .bf16) (x2 : Vec F S64x64 .f32) (x3 : Vec F S1x64 .f32) (y : S4096x64.Idx) :
    ∃ pc ∈ (runFirst1 c i arg2 harg2 arg3 harg3 arg4 harg4 arg5 harg5 arg6 harg6 arg7 harg7 hc0 hc1 x0 x1 x2 x3).2.1, y ∈ pc.1.set :=
  View.cover_of_tiledL (runFirst1 c i arg2 harg2 arg3 harg3 arg4 harg4 arg5 harg5 arg6 harg6 arg7 harg7 hc0 hc1 x0 x1 x2 x3).2.1 S4096x64.size (by sl_kernel_rfl) y

/-- The accumulator after the body at a middle reduction coordinate, over what it held (`xs`). -/
def accMid1 (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : ¬last1 i)
    (x0 : Vec F S2000x1 .i32) (x1 : Vec F S2000x64 .bf16) (x2 : Vec F S64x64 .f32) (x3 : Vec F S1x64 .f32) (xs : Vec F S4096x64 .f32) : Vec F S4096x64 .f32 :=
  accV1.read (Elt F) (accV1.writes (Elt F) accV1.junk (runMid1 c i arg2 harg2 arg3 harg3 arg4 harg4 arg5 harg5 arg6 harg6 arg7 harg7 hc0 hc1 x0 x1 x2 x3 xs).2.1)
theorem accMid1_cover (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : ¬last1 i)
    (x0 : Vec F S2000x1 .i32) (x1 : Vec F S2000x64 .bf16) (x2 : Vec F S64x64 .f32) (x3 : Vec F S1x64 .f32) (xs : Vec F S4096x64 .f32) (y : S4096x64.Idx) :
    ∃ pc ∈ (runMid1 c i arg2 harg2 arg3 harg3 arg4 harg4 arg5 harg5 arg6 harg6 arg7 harg7 hc0 hc1 x0 x1 x2 x3 xs).2.1, y ∈ pc.1.set :=
  View.cover_of_tiledL (runMid1 c i arg2 harg2 arg3 harg3 arg4 harg4 arg5 harg5 arg6 harg6 arg7 harg7 hc0 hc1 x0 x1 x2 x3 xs).2.1 S4096x64.size (by sl_kernel_rfl) y

/-- The accumulator after the body at the last reduction coordinate. -/
def accLast1 (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : last1 i)
    (x0 : Vec F S2000x1 .i32) (x1 : Vec F S2000x64 .bf16) (x2 : Vec F S64x64 .f32) (x3 : Vec F S1x64 .f32) (xs : Vec F S4096x64 .f32) : Vec F S4096x64 .f32 :=
  accV1.read (Elt F) (accV1.writes (Elt F) accV1.junk (runLast1 c i arg2 harg2 arg3 harg3 arg4 harg4 arg5 harg5 arg6 harg6 arg7 harg7 hc0 hc1 x0 x1 x2 x3 xs).2.1)
theorem accLast1_cover (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : last1 i)
    (x0 : Vec F S2000x1 .i32) (x1 : Vec F S2000x64 .bf16) (x2 : Vec F S64x64 .f32) (x3 : Vec F S1x64 .f32) (xs : Vec F S4096x64 .f32) (y : S4096x64.Idx) :
    ∃ pc ∈ (runLast1 c i arg2 harg2 arg3 harg3 arg4 harg4 arg5 harg5 arg6 harg6 arg7 harg7 hc0 hc1 x0 x1 x2 x3 xs).2.1, y ∈ pc.1.set :=
  View.cover_of_tiledL (runLast1 c i arg2 harg2 arg3 harg3 arg4 harg4 arg5 harg5 arg6 harg6 arg7 harg7 hc0 hc1 x0 x1 x2 x3 xs).2.1 S4096x64.size (by sl_kernel_rfl) y

/-- The output block's staging buffer after the body at the last reduction coordinate. -/
def outLast1 (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : last1 i)
    (x0 : Vec F S2000x1 .i32) (x1 : Vec F S2000x64 .bf16) (x2 : Vec F S64x64 .f32) (x3 : Vec F S1x64 .f32) (xs : Vec F S4096x64 .f32) : Vec F S4096x64 .f32 :=
  outV1.read (Elt F) (outV1.writes (Elt F) outV1.junk (runLast1 c i arg2 harg2 arg3 harg3 arg4 harg4 arg5 harg5 arg6 harg6 arg7 harg7 hc0 hc1 x0 x1 x2 x3 xs).1)
theorem outLast1_cover (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : last1 i)
    (x0 : Vec F S2000x1 .i32) (x1 : Vec F S2000x64 .bf16) (x2 : Vec F S64x64 .f32) (x3 : Vec F S1x64 .f32) (xs : Vec F S4096x64 .f32) (y : S4096x64.Idx) :
    ∃ pc ∈ (runLast1 c i arg2 harg2 arg3 harg3 arg4 harg4 arg5 harg5 arg6 harg6 arg7 harg7 hc0 hc1 x0 x1 x2 x3 xs).1, y ∈ pc.1.set :=
  View.cover_of_tiledL (runLast1 c i arg2 harg2 arg3 harg3 arg4 harg4 arg5 harg5 arg6 harg6 arg7 harg7 hc0 hc1 x0 x1 x2 x3 xs).1 S4096x64.size (by sl_kernel_rfl) y

/-! ## Point by point -/

/-- What the output block's staging buffer and the accumulator hold after the body at position `n`.  (The first
    component is consulted at the last reduction coordinate only; elsewhere the window is idle and a placeholder
    stands there.) -/
def outsAt1 (c : Dev nD) : (n : ℕ) → n < cfg1.N → Vec F S4096x64 .f32 × Vec F S4096x64 .f32
  | 0, hn => (outV1.read (Elt F) outV1.junk,
      accFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) acc1 (Memref.isWhole_whole _) ((first1_iff ⟨0, hn⟩).mpr (Nat.zero_mod _)) (fun h => (fun h => by (try dsimp only at h); omega) ((last1_iff ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 625 = 0 then
      if h1 : (n + 1) % 625 = 624 then
        False.elim (by omega)
      else
        (outV1.read (Elt F) outV1.junk,
          accFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) acc1 (Memref.isWhole_whole _) ((first1_iff ⟨n + 1, hn⟩).mpr h0) (fun h => h1 ((last1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 625 = 624 then
        (outLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) acc1 (Memref.isWhole_whole _) (fun h => h0 ((first1_iff ⟨n + 1, hn⟩).mp h)) ((last1_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
          accLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) acc1 (Memref.isWhole_whole _) (fun h => h0 ((first1_iff ⟨n + 1, hn⟩).mp h)) ((last1_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (outV1.read (Elt F) outV1.junk,
          accMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) acc1 (Memref.isWhole_whole _) (fun h => h0 ((first1_iff ⟨n + 1, hn⟩).mp h)) (fun h => h1 ((last1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` where the reduction coordinate is 0. -/
theorem outsAt1_first (c : Dev nD) (t : Fin cfg1.N) (h0 : t.val % 625 = 0) (h1 : ¬t.val % 625 = 624) :
    outsAt1 V c t.val t.isLt = (outV1.read (Elt F) outV1.junk,
      accFirst1 c (grid1.coords t) (ms1_0 t) (hs1_0 t) (ms1_1 t) (hs1_1 t) (ms1_2 t) (hs1_2 t) (ms1_3 t) (hs1_3 t) (ms1_4 t) (hs1_4 t) acc1 (Memref.isWhole_whole _) ((first1_iff t).mpr h0) (fun h => h1 ((last1_iff t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a middle reduction coordinate, over what the point before left. -/
theorem outsAt1_mid (c : Dev nD) (t : Fin cfg1.N) (h0 : ¬t.val % 625 = 0) (h1 : ¬t.val % 625 = 624) :
    outsAt1 V c t.val t.isLt = (outV1.read (Elt F) outV1.junk,
      accMid1 c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((first1_iff t).mp h)) (fun h => h1 ((last1_iff t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last reduction coordinate, over what the point before left. -/
theorem outsAt1_last (c : Dev nD) (t : Fin cfg1.N) (h0 : ¬t.val % 625 = 0) (h1 : t.val % 625 = 624) :
    outsAt1 V c t.val t.isLt = (outLast1 c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((first1_iff t).mp h)) ((last1_iff t).mpr h1) (iblk1 V c 0 t) (iblk1 V c 1 t) (iblk1 V c 2 t) (iblk1 V c 3 t) (outsAt1 V c (t.val - 1) (Nat.lt_of_le_of_lt (Nat.sub_le _ _) t.isLt)).2,
      accLast1 c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((first1_iff t).mp h)) ((last1_iff t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: the class's invariant before the first point; afterwards the accumulator at what the point
    before left, the other scoped buffers at some contents, the generator register at some state. -/
def PhiS1 (c : Dev nD) : (n : ℕ) → n ≤ cfg1.N → sProp 𝕄
  | 0, _ => Pipeline.ΦA spec1 c
  | n + 1, hn => iprop(rest1 c (owns (c : Thread nD τ) acc1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 c (owns (c : Thread nD τ) acc1 fullShare ((outsAt1 V c n hn).2)) ∗ (∃ r, prngReg c r)) := rfl

theorem PhiS1_pos (c : Dev nD) (n : ℕ) (h : n ≤ cfg1.N) (hz : n ≠ 0) :
    PhiS1 V c n h = iprop(rest1 c (owns (c : Thread nD τ) acc1 fullShare ((outsAt1 V c (n - 1) (by omega)).2)) ∗ (∃ r, prngReg c r)) := by
  cases n with
  | zero => exact absurd rfl hz
  | succ n => rfl

/-! ## The proof data -/

/-- The arrays as the region finds them; after the body each input's buffer at its block and the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.Kernel.Hand

end
-- ==== Proof.K.R1Body.lean ====
/-
  Region 1: the body obligation.  At every point the inputs' staging buffers hold their blocks; which of the three
  control cases the point is in follows from its reduction coordinate (t % 625); the invariant hands the body the
  accumulator at what the point before left (at anything, before the first point) and takes it back at this point's
  contents.
-/
import proofs.«406658_j68066641707589_1_alg».proof.Proof.K.R1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 15625 := lt_of_lt_of_eq t.isLt (show cfg1.N = 15625 from N_1)
  by_cases h0 : t.val % 625 = 0
  ·
    have h1 : ¬t.val % 625 = 624 := by omega
    rw [show (dat1 V c).leavesExact 0 t = owns (c : Thread nD τ) (ms1_0 t) fullShare ((dat1 V c).after 0 t) from by
      unfold Dat.leavesExact; rw [live1_0 t], after1_0]
    rw [show (dat1 V c).leavesExact 1 t = owns (c : Thread nD τ) (ms1_1 t) fullShare ((dat1 V c).after 1 t) from by
      unfold Dat.leavesExact; rw [live1_1 t], after1_1]
    rw [show (dat1 V c).leavesExact 2 t = owns (c : Thread nD τ) (ms1_2 t) fullShare ((dat1 V c).after 2 t) from by
      unfold Dat.leavesExact; rw [live1_2 t], after1_2]
    rw [show (dat1 V c).leavesExact 3 t = owns (c : Thread nD τ) (ms1_3 t) fullShare ((dat1 V c).after 3 t) from by
      unfold Dat.leavesExact; rw [live1_3 t], after1_3]
    rw [Dat.leavesExact_idle (dat1 V c) 4 t (idle1_4 t (fun h => h1 ((last1_iff t).mp h))) (noFlush1_4 t (fun h => h1 ((last1_iff t).mp h)))]
    rw [outsAt1_first V c t h0 h1]
    unfold accFirst1; (try dsimp only)
    by_cases hz : t.val = 0
    ·
      rw [PhiS1_castSucc V c t, PhiS1_zero V c _ _ hz, PhiA1_eq]
      unfold rest1
      iintro ⟨⟨⟨Ra0, Ra1, Ra2, Ra3, Ra4, Ra5, Ra6, Ra7, Ra8, HS⟩, Hg⟩, Ho, ⟨%d0, H0⟩, ⟨%d1, H1⟩, ⟨%d2, H2⟩, ⟨%d3, H3⟩, ⟨%d4, H4⟩⟩
      iapply ((runFirst1 c (grid1.coords t) _ _ _ _ _ _ _ _ _ _ _ _ ((first1_iff t).mpr h0) (fun h => h1 ((last1_iff t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Ra0 Ra1 Ra2 Ra3 Ra4 Ra5 Ra6 Ra7 Ra8 HS Hg]
      · isplitl [Ra0 Ra1 Ra2 Ra3 Ra4 Ra5 Ra6 Ra7 Ra8 HS]
        · isplitl [Ra0]
          · iexact Ra0
          isplitl [Ra1]
          · iexact Ra1
          isplitl [Ra2]
          · iexact Ra2
          isplitl [Ra3]
          · iexact Ra3
          isplitl [Ra4]
          · iexact Ra4
          isplitl [Ra5]
          · iexact Ra5
          isplitl [Ra6]
          · iexact Ra6
          isplitl [Ra7]
          · iexact Ra7
          isplitl [Ra8]
          · iexact Ra8
          unfold owns; iexists _; isplitr
          swap; · iexact HS
          ipureintro; exact View.read_writes_of_cover _ _ _ _ _ (accFirst1_cover c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    ·
      rw [PhiS1_castSucc V c t, PhiS1_pos V c _ _ hz]
      unfold rest1
      iintro ⟨⟨⟨Ra0, Ra1, Ra2, Ra3, Ra4, Ra5, Ra6, Ra7, Ra8, HS⟩, Hg⟩, Ho, ⟨%d0, H0⟩, ⟨%d1, H1⟩, ⟨%d2, H2⟩, ⟨%d3, H3⟩, ⟨%d4, H4⟩⟩
      iapply ((runFirst1 c (grid1.coords t) _ _ _ _ _ _ _ _ _ _ _ _ ((first1_iff t).mpr h0) (fun h => h1 ((last1_iff t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [Ra0 Ra1 Ra2 Ra3 Ra4 Ra5 Ra6 Ra7 Ra8 HS Hg]
      · isplitl [Ra0 Ra1 Ra2 Ra3 Ra4 Ra5 Ra6 Ra7 Ra8 HS]
        · isplitl [Ra0]
          · iexact Ra0
          isplitl [Ra1]
          · iexact Ra1
          isplitl [Ra2]
          · iexact Ra2
          isplitl [Ra3]
          · iexact Ra3
          isplitl [Ra4]
          · iexact Ra4
          isplitl [Ra5]
          · iexact Ra5
          isplitl [Ra6]
          · iexact Ra6
          isplitl [Ra7]
          · iexact Ra7
          isplitl [Ra8]
          · iexact Ra8
          unfold owns; iexists _; isplitr
          swap; · iexact HS
          ipureintro; exact View.read_writes_of_cover _ _ _ _ _ (accFirst1_cover c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 625 = 624
    ·
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t], after1_3]
      rw [show (dat1 V c).leavesExact 4 t = owns (c : Thread nD τ) (ms1_4 t) fullShare ((dat1 V c).after 4 t) from by
        unfold Dat.leavesExact; rw [live1_4 t ((last1_iff t).mpr h1)], after1_4]
      rw [outsAt1_last V c t h0 h1]
      unfold outLast1 accLast1; (try dsimp only)
      rw [PhiS1_castSucc V c t, PhiS1_pos V c _ _ hz]
      unfold rest1
      iintro ⟨⟨⟨Ra0, Ra1, Ra2, Ra3, Ra4, Ra5, Ra6, Ra7, Ra8, HS⟩, Hg⟩, Ho, ⟨%d0, H0⟩, ⟨%d1, H1⟩, ⟨%d2, H2⟩, ⟨%d3, H3⟩, ⟨%d4, H4⟩⟩
      iapply ((runLast1 c (grid1.coords t) _ _ _ _ _ _ _ _ _ _ _ _ (fun h => h0 ((first1_iff t).mp h)) ((last1_iff t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [Ra0 Ra1 Ra2 Ra3 Ra4 Ra5 Ra6 Ra7 Ra8 HS Hg]
      · isplitl [Ra0 Ra1 Ra2 Ra3 Ra4 Ra5 Ra6 Ra7 Ra8 HS]
        · isplitl [Ra0]
          · iexact Ra0
          isplitl [Ra1]
          · iexact Ra1
          isplitl [Ra2]
          · iexact Ra2
          isplitl [Ra3]
          · iexact Ra3
          isplitl [Ra4]
          · iexact Ra4
          isplitl [Ra5]
          · iexact Ra5
          isplitl [Ra6]
          · iexact Ra6
          isplitl [Ra7]
          · iexact Ra7
          isplitl [Ra8]
          · iexact Ra8
          unfold owns; iexists _; isplitr
          swap; · iexact HS
          ipureintro; exact View.read_writes_of_cover _ _ _ _ _ (accLast1_cover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast1_cover c _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t], after1_3]
      rw [Dat.leavesExact_idle (dat1 V c) 4 t (idle1_4 t (fun h => h1 ((last1_iff t).mp h))) (noFlush1_4 t (fun h => h1 ((last1_iff t).mp h)))]
      rw [outsAt1_mid V c t h0 h1]
      unfold accMid1; (try dsimp only)
      rw [PhiS1_castSucc V c t, PhiS1_pos V c _ _ hz]
      unfold rest1
      iintro ⟨⟨⟨Ra0, Ra1, Ra2, Ra3, Ra4, Ra5, Ra6, Ra7, Ra8, HS⟩, Hg⟩, Ho, ⟨%d0, H0⟩, ⟨%d1, H1⟩, ⟨%d2, H2⟩, ⟨%d3, H3⟩, ⟨%d4, H4⟩⟩
      iapply ((runMid1 c (grid1.coords t) _ _ _ _ _ _ _ _ _ _ _ _ (fun h => h0 ((first1_iff t).mp h)) (fun h => h1 ((last1_iff t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Ra0 Ra1 Ra2 Ra3 Ra4 Ra5 Ra6 Ra7 Ra8 HS Hg]
      · isplitl [Ra0 Ra1 Ra2 Ra3 Ra4 Ra5 Ra6 Ra7 Ra8 HS]
        · isplitl [Ra0]
          · iexact Ra0
          isplitl [Ra1]
          · iexact Ra1
          isplitl [Ra2]
          · iexact Ra2
          isplitl [Ra3]
          · iexact Ra3
          isplitl [Ra4]
          · iexact Ra4
          isplitl [Ra5]
          · iexact Ra5
          isplitl [Ra6]
          · iexact Ra6
          isplitl [Ra7]
          · iexact Ra7
          isplitl [Ra8]
          · iexact Ra8
          unfold owns; iexists _; isplitr
          swap; · iexact HS
          ipureintro; exact View.read_writes_of_cover _ _ _ _ _ (accMid1_cover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: what the accumulator holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 15625 := N_1; omega), PhiA1_eq]
  unfold rest1
  iintro ⟨⟨Ra0, Ra1, Ra2, Ra3, Ra4, Ra5, Ra6, Ra7, Ra8, HS⟩, Hg⟩
  isplitl [Ra0 Ra1 Ra2 Ra3 Ra4 Ra5 Ra6 Ra7 Ra8 HS]
  · isplitl [Ra0]; · iexact Ra0
    isplitl [Ra1]; · iexact Ra1
    isplitl [Ra2]; · iexact Ra2
    isplitl [Ra3]; · iexact Ra3
    isplitl [Ra4]; · iexact Ra4
    isplitl [Ra5]; · iexact Ra5
    isplitl [Ra6]; · iexact Ra6
    isplitl [Ra7]; · iexact Ra7
    isplitl [Ra8]; · iexact Ra8
    iexists _; iexact HS
  iexact Hg

end Cert.Kernel.Hand

end
-- ==== Proof.K.Run.lean ====
/-
  The whole program run: @main is nine stretches of host operations, the gather-and-scale call, the
  scatter-sum-and-linear call, and a last host operation (the slice back to 100000 rows).  Between two items the core
  holds every unscoped buffer at known contents: the launch memory, then each host stretch applied, then after a call
  the call's output array at what its write-backs leave (`Dat.arrAt … N`) and everything else as before.  Each call
  is entered from those contents and its proof data are stated at them.  The run ends with every unscoped buffer read
  back: the arguments as launched, the result at the slice of the second call's output array.
-/
import proofs.«406658_j68066641707589_1_alg».proof.Proof.K.R0Body
import proofs.«406658_j68066641707589_1_alg».proof.Proof.K.R1Body
import proofs.«406658_j68066641707589_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents the calls are entered from and what they leave -/

/-- The first call is entered from the buffers as the nine host stretches leave them. -/
abbrev E0 : (c : Dev nD) → (b : Ref sig .tc) → Buf (Elt F) ((c : Thread nD τ).loc b) := fun c b => V9 m c b

/-- What the first call leaves in its output array `main_v8` (the messages). -/
def left8 (c : Dev nD) : Buf (Elt F) ((c : Thread nD τ).loc main_v8) := (dat0 (E0 m) c).arrAt 3 cfg0.N

/-- The unknown "what the calls leave", with the first call's output filled in. -/
def outsA : Outs (F := F) := fun _ r c => if h : r = main_v8 then h ▸ left8 m c else V9 m c r

/-- The second call is entered from the first call's exit contents. -/
abbrev E1 : (c : Dev nD) → (b : Ref sig .tc) → Buf (Elt F) ((c : Thread nD τ).loc b) := fun c b => V10 m (outsA m) c b

/-- What the second call leaves in its output array `main_v9` (the padded result). -/
def left9 (c : Dev nD) : Buf (Elt F) ((c : Thread nD τ).loc main_v9) := (dat1 (E1 m) c).arrAt 4 cfg1.N

/-- Both calls' outputs filled in. -/
def outs : Outs (F := F) := fun _ r c =>
  if h : r = main_v8 then h ▸ left8 m c else if h9 : r = main_v9 then h9 ▸ left9 m c else V9 m c r

theorem outsA_v8 (J : ℕ) (c : Dev nD) : outsA m J main_v8 c = left8 m c := by
  unfold outsA; rw [dif_pos rfl]
theorem outs_v8 (J : ℕ) (c : Dev nD) : outs m J main_v8 c = left8 m c := by
  unfold outs; rw [dif_pos rfl]
theorem outs_v9 (J : ℕ) (c : Dev nD) : outs m J main_v9 c = left9 m c := by
  unfold outs; rw [dif_neg (by decide), dif_pos rfl]

/-- After the first call the contents do not depend on what is said of the second. -/
theorem V10_outs (c : Dev nD) : V10 m (outs m) c = V10 m (outsA m) c := by
  unfold V10; rw [outs_v8, outsA_v8]

/-- The first call's exit contents, the second call's. -/
abbrev X0 : (c : Dev nD) → (b : Ref sig .tc) → Buf (Elt F) ((c : Thread nD τ).loc b) := fun c b => V10 m (outsA m) c b
abbrev X1 : (c : Dev nD) → (b : Ref sig .tc) → Buf (Elt F) ((c : Thread nD τ).loc b) := fun c b => V11 m (outs m) c b

/-- At the first call's exit each of its arrays holds what the pipeline leaves and every other buffer what it held. -/
theorem hF0 (c : Dev nD) (w : Fin cfg0.W) : (dat0 (E0 m) c).arrAt w cfg0.N = X0 m c (Pipeline.arrRef spec0 w) := by
  match w with
  | ⟨0, _⟩ => exact ((dat0 (E0 m) c).arrAt_in 0 rfl _).trans ((A_eq0 (E0 m) c 0).trans (V10_of m (outsA m) c _ (by decide)).symm)
  | ⟨1, _⟩ => exact ((dat0 (E0 m) c).arrAt_in 1 rfl _).trans ((A_eq0 (E0 m) c 1).trans (V10_of m (outsA m) c _ (by decide)).symm)
  | ⟨2, _⟩ => exact ((dat0 (E0 m) c).arrAt_in 2 rfl _).trans ((A_eq0 (E0 m) c 2).trans (V10_of m (outsA m) c _ (by decide)).symm)
  | ⟨3, _⟩ =>
    show left8 m c = V10 m (outsA m) c main_v8
    unfold V10; rw [Function.update_self, outsA_v8]
theorem hrest0 (c : Dev nD) : ∀ b, b ∉ Finset.univ.image (Pipeline.arrRef spec0) → X0 m c b = E0 m c b :=
  fun b hb => V10_of m (outsA m) c b (fun h => hb (Finset.mem_image.mpr ⟨3, Finset.mem_univ _, (List.mem_singleton.mp h).symm⟩))

theorem hF1 (c : Dev nD) (w : Fin cfg1.W) : (dat1 (E1 m) c).arrAt w cfg1.N = X1 m c (Pipeline.arrRef spec1 w) := by
  match w with
  | ⟨0, _⟩ => exact ((dat1 (E1 m) c).arrAt_in 0 rfl _).trans ((A_eq1 (E1 m) c 0).trans (((V11_of m (outs m) c _ (by decide)).trans (congrFun (V10_outs m c) _)).symm))
  | ⟨1, _⟩ => exact ((dat1 (E1 m) c).arrAt_in 1 rfl _).trans ((A_eq1 (E1 m) c 1).trans (((V11_of m (outs m) c _ (by decide)).trans (congrFun (V10_outs m c) _)).symm))
  | ⟨2, _⟩ => exact ((dat1 (E1 m) c).arrAt_in 2 rfl _).trans ((A_eq1 (E1 m) c 2).trans (((V11_of m (outs m) c _ (by decide)).trans (congrFun (V10_outs m c) _)).symm))
  | ⟨3, _⟩ => exact ((dat1 (E1 m) c).arrAt_in 3 rfl _).trans ((A_eq1 (E1 m) c 3).trans (((V11_of m (outs m) c _ (by decide)).trans (congrFun (V10_outs m c) _)).symm))
  | ⟨4, _⟩ =>
    show left9 m c = V11 m (outs m) c main_v9
    unfold V11; rw [Function.update_self, outs_v9]
theorem hrest1 (c : Dev nD) : ∀ b, b ∉ Finset.univ.image (Pipeline.arrRef spec1) → X1 m c b = E1 m c b :=
  fun b hb => (V11_of m (outs m) c b (fun h => hb (Finset.mem_image.mpr ⟨4, Finset.mem_univ _, (List.mem_singleton.mp h).symm⟩))).trans (congrFun (V10_outs m c) _)

/-! ## The proof data family and the thread state -/

/-- Every pipeline's proof data, each at its call's entry contents (a literal match on the pipeline). -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The two calls as segments -/

-- unification of the library's lemmas, stated over the pinned configuration, with the printed one needs plain
-- definitions unfolded in a metavariable's type
set_option backward.isDefEq.respectTransparency.types false in
/-- Region 0 over the thread state: entered from every unscoped buffer at `V9 m`, left at `V10 m (outs m)`.  Its arrays are
    split out of the unscoped buffers and put back at the exit contents; the generator register goes into the
    invariant and comes out of it; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (V10 m (outsA m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (pdats m 0 c).Φ 0 := by
      have := hin0 (E0 m) c; unfold Pipeline.ΦA at this; exact this
    iintro ⟨Hp, -, Hr⟩
    iapply h
    isplitl [Hr]; · iexact Hr
    iexact Hp
  hout c := by
    rw [Pipeline.ownSems0_none]
    have h : (pdats m 0 c).Φ (Fin.last _) ⊢ (iprop(Pipeline.scopedRest spec0 c ∗ ∃ r, prngReg c r) : sProp 𝕄) := by
      have := hout0 (E0 m) c; unfold Pipeline.ΦA at this; exact this
    refine h.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's lemmas, stated over the pinned configuration, with the printed one needs plain
-- definitions unfolded in a metavariable's type
set_option backward.isDefEq.respectTransparency.types false in
/-- Region 1 over the thread state: entered from every unscoped buffer at `V10 m (outs m)`, left at `V11 m (outs m)`.  Its arrays are
    split out of the unscoped buffers and put back at the exit contents; the generator register goes into the
    invariant and comes out of it; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V10 m (outsA m) c) ∗ R c)
  post c := iprop(StableHlo.held (c : Thread nD τ) (Pipeline.ucRefs τ sig) (V11 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (pdats m 1 c).Φ 0 := by
      have := hin1 (E1 m) c; unfold Pipeline.ΦA at this; exact this
    iintro ⟨Hp, -, Hr⟩
    iapply h
    isplitl [Hr]; · iexact Hr
    iexact Hp
  hout c := by
    rw [Pipeline.ownSems0_none]
    have h : (pdats m 1 c).Φ (Fin.last _) ⊢ (iprop(Pipeline.scopedRest spec1 c ∗ ∃ r, prngReg c r) : sProp 𝕄) := by
      have := hout1 (E1 m) c; unfold Pipeline.ΦA at this; exact this
    refine h.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding
-- plain definitions in a metavariable's type
set_option backward.isDefEq.respectTransparency.types false in
/-- From any memory with zero counters every weakly fair execution of @main terminates, nothing faulting, and the final
    memory holds every unscoped buffer at the last item's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V12 m (outs m) c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m))
    (fun c Q => by
      rewrite [main_chain c, Seg.run_eq_chain,
        show (segs m (outs m) 𝒱₀ L lv (fun _ => R) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V12 m (outs m) c) ∗ ∃ r, prngReg c r))
    (hch := fun c => ⟨.rfl, .rfl, .rfl, .rfl, .rfl, .rfl, .rfl, .rfl, .rfl, .rfl, .rfl, .rfl, ?_⟩)
    (hinit := ?_)
    (QY := fun c s => ∀ b ∈ Pipeline.ucRefs τ sig, s.mem (((c : Thread nD τ)).1, b) = V12 m (outs m) c b)
    (hfin := fun c s' => ?_) (hQ := fun _ h => h)
  · -- the last item's state is the last thread state beside the core owing nothing
    show (iprop(StableHlo.held (c : Thread nD τ) (Pipeline.ucRefs τ sig) (V12 m (outs m) c) ∗ R c) : sProp 𝕄)
      ⊢ iprop((StableHlo.held (c : Thread nD τ) (Pipeline.ucRefs τ sig) (V12 m (outs m) c) ∗ ∃ r, prngReg c r) ∗ ∃ W, owes (c : Thread nD τ) (0 : CellTallies nD τ sig Unit) W)
    iintro ⟨Hh, Hp, HO⟩
    isplitl [Hh Hp]
    · isplitl [Hh]; · iexact Hh
      iexact Hp
    iexact HO
  · -- the launch
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last contents
    iintro ⟨⟨Hh, -⟩, HSI⟩
    unfold StableHlo.held
    imodintro
    iapply (pointsTo_read_all (Pipeline.ucRefs τ sig) (fun b => (((c : Thread nD τ)).1, b)) (V12 m (outs m) c) s')
    isplitl [Hh] <;> iassumption

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the run terminates, faults nowhere, and leaves the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (V12_main_arg0 m (outs m) c),
     (h c _ (mem_uc main_arg1 (by decide))).trans (V12_main_arg1 m (outs m) c),
     (h c _ (mem_uc main_arg2 (by decide))).trans (V12_main_arg2 m (outs m) c),
     (h c _ (mem_uc main_arg3 (by decide))).trans (V12_main_arg3 m (outs m) c),
     (h c _ (mem_uc main_arg4 (by decide))).trans (V12_main_arg4 m (outs m) c),
     (h c _ (mem_uc main_arg5 (by decide))).trans (V12_main_arg5 m (outs m) c)⟩) (run_all m ρ)

/-- The run with the result named: `main_v10` ends at the last item's contents there, the arguments as launched. -/
theorem run_result : θ_run defs (onTc (τ := τ) (main (F := F))) ⟨m, fun _ => 0, ρ⟩ (fun r => ∀ c : Dev nD,
      r.2.mem ((c.tc : Thread nD τ).loc main_v10) = V12 m (outs m) c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v10 (by decide)),
     (h c _ (mem_uc main_arg0 (by decide))).trans (V12_main_arg0 m (outs m) c),
     (h c _ (mem_uc main_arg1 (by decide))).trans (V12_main_arg1 m (outs m) c),
     (h c _ (mem_uc main_arg2 (by decide))).trans (V12_main_arg2 m (outs m) c),
     (h c _ (mem_uc main_arg3 (by decide))).trans (V12_main_arg3 m (outs m) c),
     (h c _ (mem_uc main_arg4 (by decide))).trans (V12_main_arg4 m (outs m) c),
     (h c _ (mem_uc main_arg5 (by decide))).trans (V12_main_arg5 m (outs m) c)⟩) (run_all m ρ)

end Cert.Kernel.Hand

end
-- ==== Proof.KI.R0Base.lean ====
/-
  Region 0 (the gather-and-scale call) of the kernel, the part its three control cases share.
  The grid is 625 edge blocks by 25 node blocks, the node block (the reduction coordinate) innermost: point t is edge block t / 25 and node block t % 25.
  The body resets its accumulator when that coordinate is 0 and stores into the output block when it is 24; both
  conditions are decided over the grid here, in closed form.  The output window is idle (nothing stored, nothing
  written back) except at coordinate 24.
-/
import proofs.«406658_j68066641707589_1_alg».proof.Proof.Gen.KernelIdeal.Launch
import proofs.«406658_j68066641707589_1_alg».proof.Proof.Gen.KernelIdeal.Skeleton
import proofs.«406658_j68066641707589_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid -/

/-- "the reduction coordinate is 0": the reset's condition, as the body computes it from the coordinates. -/
abbrev first0 (i : grid0.Coords) : Prop := (Scalar.cmpi .ne (Scalar.extui (Scalar.cmpi .eq (BitVec.ofNat 32 (i 1).val) 0#32)) 0#32) = 1#1
/-- It holds exactly at the points t with t % 25 = 0. -/
theorem first0_iff : ∀ t : Fin cfg0.N, first0 (grid0.coords t) ↔ t.val % 25 = 0 :=
  (by decide +kernel : ∀ t : Fin grid0.N, first0 (grid0.coords t) ↔ t.val % 25 = 0)

/-- "the reduction coordinate is the last": the condition of the store into the output block. -/
abbrev last0 (i : grid0.Coords) : Prop := k0_cond2 i = 1#1
/-- It holds exactly at the points t with t % 25 = 24. -/
theorem last0_iff : ∀ t : Fin cfg0.N, last0 (grid0.coords t) ↔ t.val % 25 = 24 :=
  (by decide +kernel : ∀ t : Fin grid0.N, last0 (grid0.coords t) ↔ t.val % 25 = 24)

/-! ## Where the windows are idle -/

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
/-- Away from the last reduction coordinate the output window is idle and is not written back. -/
theorem idle0_3 : ∀ t : Fin cfg0.N, ¬last0 (grid0.coords t) → cfg0.idle 3 (grid0.coords t) = true := fun t h => by
  show (!(k0_cond2 (grid0.coords t) == 1#1)) = true
  simp only [Bool.not_eq_true', beq_eq_false_iff_ne, ne_eq]; exact h
theorem noFlush0_3 : ∀ t : Fin cfg0.N, ¬last0 (grid0.coords t) → (cfg0.win 3).flush t = false := fun t h => by
  rw [Bool.eq_false_iff]; exact fun hf => h ((last0_iff t).mpr ((flush0_3 t).mp hf))
/-- At the last one it is live. -/
theorem live0_3 : ∀ t : Fin cfg0.N, last0 (grid0.coords t) → cfg0.idle 3 (grid0.coords t) = false := fun t h => by
  show (!(k0_cond2 (grid0.coords t) == 1#1)) = false
  simp only [Bool.not_eq_false', beq_iff_eq]; exact h

/-! ## The memrefs the body is called with -/

abbrev ms0_0 (t : Fin cfg0.N) : Memref sig .tc .vmem S2000x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x64 .bf16 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev acc0 : Memref sig .tc .vmem S2000x64 .f32 := Memref.whole cc0_scratch0
abbrev accV0 : View sig .tc .vmem S2000x64 .f32 := acc0.view
/-- One staging buffer of the output window, through which its contents are stated. -/
abbrev outV0 : View sig .tc .vmem S2000x64 .bf16 := (Memref.whole cc0_stg3_0 : Memref sig .tc .vmem S2000x64 .bf16).view

/-- The scoped buffers the call does not stage, each whole at some contents, with the accumulator's place held by
    an assertion `A` of the caller's choosing (they are listed in the order the launch lists them). -/
def rest0 (c : Dev nD) (A : sProp 𝕄) : sProp 𝕄 :=
  iprop(A ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the accumulator singled out of the scoped rest. -/
theorem PhiA0_eq (c : Dev nD) :
    (Pipeline.ΦA spec0 c : sProp 𝕄)
      = iprop(rest0 c (iprop(∃ d, owns (c : Thread nD τ) acc0 fullShare d)) ∗ (∃ r, prngReg c r)) := by
  unfold Pipeline.ΦA rest0; rw [scopedRest0_eq]; simp only [acc0, owns_whole]; try rfl

end Cert.KernelIdeal.Hand

end
-- ==== Proof.KI.R0RunA.lean ====
/-
  Region 0, where the reduction coordinate is 0 (the accumulator is reset, then added to; nothing is stored into the output block): the body run once on whole staging memrefs.  The run itself finds what the body's stores leave
  in each buffer it writes, as a list of pieces (last store first); that list is the first components of the result.
-/
import proofs.«406658_j68066641707589_1_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the reduction coordinate is 0: the inputs' buffers at their contents, the output block's at contents
    handed back untouched, the accumulator at anything; afterwards the accumulator holds the pieces the run found. -/
noncomputable def runFirst0 (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : first0 i) (hc1 : ¬last0 i)
    (x0 : Vec F S2000x1 .i32) (x1 : Vec F S2000x1 .f32) (x2 : Vec F S4096x64 .bf16) :
    Σ' (L3 : List (View.Piece (Elt F) S2000x64 .bf16)), { LS : List (View.Piece (Elt F) S2000x64 .f32) //
      ∀ (xi3 : Vec F S2000x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__gather_scale_kernel i arg2 harg2 arg3 harg3 arg4 harg4 arg5 harg5 arg6 harg6) K } := by
  refine ⟨[], ?_, fun xi3 E K => ?run⟩
  case run =>
    simp only [cc0__gather_scale_kernel_eq_skeleton]; unfold cc0__gather_scale_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KI.R0RunB.lean ====
/-
  Region 0, where the reduction coordinate is neither 0 nor the last (the accumulator is added to; nothing is stored into the output block): the body run once on whole staging memrefs.  The run itself finds what the body's stores leave
  in each buffer it writes, as a list of pieces (last store first); that list is the first components of the result.
-/
import proofs.«406658_j68066641707589_1_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle reduction coordinate: the accumulator enters at what the point before left (`xs`). -/
noncomputable def runMid0 (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : ¬last0 i)
    (x0 : Vec F S2000x1 .i32) (x1 : Vec F S2000x1 .f32) (x2 : Vec F S4096x64 .bf16) (xs : Vec F S2000x64 .f32) :
    Σ' (L3 : List (View.Piece (Elt F) S2000x64 .bf16)), { LS : List (View.Piece (Elt F) S2000x64 .f32) //
      ∀ (xi3 : Vec F S2000x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__gather_scale_kernel i arg2 harg2 arg3 harg3 arg4 harg4 arg5 harg5 arg6 harg6) K } := by
  refine ⟨[], ?_, fun xi3 E K => ?run⟩
  case run =>
    simp only [cc0__gather_scale_kernel_eq_skeleton]; unfold cc0__gather_scale_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KI.R0RunC.lean ====
/-
  Region 0, where the reduction coordinate is the last (the accumulator is added to, then the result is stored into the output block): the body run once on whole staging memrefs.  The run itself finds what the body's stores leave
  in each buffer it writes, as a list of pieces (last store first); that list is the first components of the result.
-/
import proofs.«406658_j68066641707589_1_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last reduction coordinate: the output block's buffer enters at anything and leaves with the found pieces. -/
noncomputable def runLast0 (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : last0 i)
    (x0 : Vec F S2000x1 .i32) (x1 : Vec F S2000x1 .f32) (x2 : Vec F S4096x64 .bf16) (xs : Vec F S2000x64 .f32) :
    Σ' (L3 : List (View.Piece (Elt F) S2000x64 .bf16)), { LS : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__gather_scale_kernel i arg2 harg2 arg3 harg3 arg4 harg4 arg5 harg5 arg6 harg6) K } := by
  refine ⟨?_, ?_, fun E K => ?run⟩
  case run =>
    simp only [cc0__gather_scale_kernel_eq_skeleton]; unfold cc0__gather_scale_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.KI.R0Frame.lean ====
/-
  Region 0 (the gather-and-scale call): what its buffers hold point by point, and the proof data, stated at a parameter `V`, the
  contents of the core's buffers when the region is entered.

  After the body at point t the accumulator holds: where the reduction coordinate is 0 what the reset-and-add leaves,
  at every later coordinate what the add leaves over the point before's contents (`outsAt0`, by recursion on the
  point).  The output block's staging buffer is written only at the last reduction coordinate.  The region's invariant
  before point t is the class's before the first point and afterwards the accumulator at the point before's contents
  beside the other scoped buffers and the generator register, untouched.
-/
import proofs.«406658_j68066641707589_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The accumulator after the body where the reduction coordinate is 0: the run's pieces read back (they tile it). -/
def accFirst0 (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : first0 i) (hc1 : ¬last0 i)
    (x0 : Vec F S2000x1 .i32) (x1 : Vec F S2000x1 .f32) (x2 : Vec F S4096x64 .bf16) : Vec F S2000x64 .f32 :=
  accV0.read (Elt F) (accV0.writes (Elt F) accV0.junk (runFirst0 c i arg2 harg2 arg3 harg3 arg4 harg4 arg5 harg5 arg6 harg6 hc0 hc1 x0 x1 x2).2.1)
theorem accFirst0_cover (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : first0 i) (hc1 : ¬last0 i)
    (x0 : Vec F S2000x1 .i32) (x1 : Vec F S2000x1 .f32) (x2 : Vec F S4096x64 .bf16) (y : S2000x64.Idx) :
    ∃ pc ∈ (runFirst0 c i arg2 harg2 arg3 harg3 arg4 harg4 arg5 harg5 arg6 harg6 hc0 hc1 x0 x1 x2).2.1, y ∈ pc.1.set :=
  View.cover_of_tiledL (runFirst0 c i arg2 harg2 arg3 harg3 arg4 harg4 arg5 harg5 arg6 harg6 hc0 hc1 x0 x1 x2).2.1 S2000x64.size (by sl_kernel_rfl) y

/-- The accumulator after the body at a middle reduction coordinate, over what it held (`xs`). -/
def accMid0 (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : ¬last0 i)
    (x0 : Vec F S2000x1 .i32) (x1 : Vec F S2000x1 .f32) (x2 : Vec F S4096x64 .bf16) (xs : Vec F S2000x64 .f32) : Vec F S2000x64 .f32 :=
  accV0.read (Elt F) (accV0.writes (Elt F) accV0.junk (runMid0 c i arg2 harg2 arg3 harg3 arg4 harg4 arg5 harg5 arg6 harg6 hc0 hc1 x0 x1 x2 xs).2.1)
theorem accMid0_cover (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : ¬last0 i)
    (x0 : Vec F S2000x1 .i32) (x1 : Vec F S2000x1 .f32) (x2 : Vec F S4096x64 .bf16) (xs : Vec F S2000x64 .f32) (y : S2000x64.Idx) :
    ∃ pc ∈ (runMid0 c i arg2 harg2 arg3 harg3 arg4 harg4 arg5 harg5 arg6 harg6 hc0 hc1 x0 x1 x2 xs).2.1, y ∈ pc.1.set :=
  View.cover_of_tiledL (runMid0 c i arg2 harg2 arg3 harg3 arg4 harg4 arg5 harg5 arg6 harg6 hc0 hc1 x0 x1 x2 xs).2.1 S2000x64.size (by sl_kernel_rfl) y

/-- The accumulator after the body at the last reduction coordinate. -/
def accLast0 (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : last0 i)
    (x0 : Vec F S2000x1 .i32) (x1 : Vec F S2000x1 .f32) (x2 : Vec F S4096x64 .bf16) (xs : Vec F S2000x64 .f32) : Vec F S2000x64 .f32 :=
  accV0.read (Elt F) (accV0.writes (Elt F) accV0.junk (runLast0 c i arg2 harg2 arg3 harg3 arg4 harg4 arg5 harg5 arg6 harg6 hc0 hc1 x0 x1 x2 xs).2.1)
theorem accLast0_cover (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : last0 i)
    (x0 : Vec F S2000x1 .i32) (x1 : Vec F S2000x1 .f32) (x2 : Vec F S4096x64 .bf16) (xs : Vec F S2000x64 .f32) (y : S2000x64.Idx) :
    ∃ pc ∈ (runLast0 c i arg2 harg2 arg3 harg3 arg4 harg4 arg5 harg5 arg6 harg6 hc0 hc1 x0 x1 x2 xs).2.1, y ∈ pc.1.set :=
  View.cover_of_tiledL (runLast0 c i arg2 harg2 arg3 harg3 arg4 harg4 arg5 harg5 arg6 harg6 hc0 hc1 x0 x1 x2 xs).2.1 S2000x64.size (by sl_kernel_rfl) y

/-- The output block's staging buffer after the body at the last reduction coordinate. -/
def outLast0 (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : last0 i)
    (x0 : Vec F S2000x1 .i32) (x1 : Vec F S2000x1 .f32) (x2 : Vec F S4096x64 .bf16) (xs : Vec F S2000x64 .f32) : Vec F S2000x64 .bf16 :=
  outV0.read (Elt F) (outV0.writes (Elt F) outV0.junk (runLast0 c i arg2 harg2 arg3 harg3 arg4 harg4 arg5 harg5 arg6 harg6 hc0 hc1 x0 x1 x2 xs).1)
theorem outLast0_cover (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : last0 i)
    (x0 : Vec F S2000x1 .i32) (x1 : Vec F S2000x1 .f32) (x2 : Vec F S4096x64 .bf16) (xs : Vec F S2000x64 .f32) (y : S2000x64.Idx) :
    ∃ pc ∈ (runLast0 c i arg2 harg2 arg3 harg3 arg4 harg4 arg5 harg5 arg6 harg6 hc0 hc1 x0 x1 x2 xs).1, y ∈ pc.1.set :=
  View.cover_of_tiledL (runLast0 c i arg2 harg2 arg3 harg3 arg4 harg4 arg5 harg5 arg6 harg6 hc0 hc1 x0 x1 x2 xs).1 S2000x64.size (by sl_kernel_rfl) y

/-! ## Point by point -/

/-- What the output block's staging buffer and the accumulator hold after the body at position `n`.  (The first
    component is consulted at the last reduction coordinate only; elsewhere the window is idle and a placeholder
    stands there.) -/
def outsAt0 (c : Dev nD) : (n : ℕ) → n < cfg0.N → Vec F S2000x64 .bf16 × Vec F S2000x64 .f32
  | 0, hn => (outV0.read (Elt F) outV0.junk,
      accFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) acc0 (Memref.isWhole_whole _) ((first0_iff ⟨0, hn⟩).mpr (Nat.zero_mod _)) (fun h => (fun h => by (try dsimp only at h); omega) ((last0_iff ⟨0, hn⟩).mp h)) (iblk0 V c 0 ⟨0, hn⟩) (iblk0 V c 1 ⟨0, hn⟩) (iblk0 V c 2 ⟨0, hn⟩))
  | n + 1, hn =>
    if h0 : (n + 1) % 25 = 0 then
      if h1 : (n + 1) % 25 = 24 then
        False.elim (by omega)
      else
        (outV0.read (Elt F) outV0.junk,
          accFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) acc0 (Memref.isWhole_whole _) ((first0_iff ⟨n + 1, hn⟩).mpr h0) (fun h => h1 ((last0_iff ⟨n + 1, hn⟩).mp h)) (iblk0 V c 0 ⟨n + 1, hn⟩) (iblk0 V c 1 ⟨n + 1, hn⟩) (iblk0 V c 2 ⟨n + 1, hn⟩))
    else
      if h1 : (n + 1) % 25 = 24 then
        (outLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) acc0 (Memref.isWhole_whole _) (fun h => h0 ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
          accLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) acc0 (Memref.isWhole_whole _) (fun h => h0 ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (outV0.read (Elt F) outV0.junk,
          accMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) acc0 (Memref.isWhole_whole _) (fun h => h0 ((first0_iff ⟨n + 1, hn⟩).mp h)) (fun h => h1 ((last0_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` where the reduction coordinate is 0. -/
theorem outsAt0_first (c : Dev nD) (t : Fin cfg0.N) (h0 : t.val % 25 = 0) (h1 : ¬t.val % 25 = 24) :
    outsAt0 V c t.val t.isLt = (outV0.read (Elt F) outV0.junk,
      accFirst0 c (grid0.coords t) (ms0_0 t) (hs0_0 t) (ms0_1 t) (hs0_1 t) (ms0_2 t) (hs0_2 t) (ms0_3 t) (hs0_3 t) acc0 (Memref.isWhole_whole _) ((first0_iff t).mpr h0) (fun h => h1 ((last0_iff t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a middle reduction coordinate, over what the point before left. -/
theorem outsAt0_mid (c : Dev nD) (t : Fin cfg0.N) (h0 : ¬t.val % 25 = 0) (h1 : ¬t.val % 25 = 24) :
    outsAt0 V c t.val t.isLt = (outV0.read (Elt F) outV0.junk,
      accMid0 c (grid0.coords t) (ms0_0 t) (hs0_0 t) (ms0_1 t) (hs0_1 t) (ms0_2 t) (hs0_2 t) (ms0_3 t) (hs0_3 t) acc0 (Memref.isWhole_whole _) (fun h => h0 ((first0_iff t).mp h)) (fun h => h1 ((last0_iff t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last reduction coordinate, over what the point before left. -/
theorem outsAt0_last (c : Dev nD) (t : Fin cfg0.N) (h0 : ¬t.val % 25 = 0) (h1 : t.val % 25 = 24) :
    outsAt0 V c t.val t.isLt = (outLast0 c (grid0.coords t) (ms0_0 t) (hs0_0 t) (ms0_1 t) (hs0_1 t) (ms0_2 t) (hs0_2 t) (ms0_3 t) (hs0_3 t) acc0 (Memref.isWhole_whole _) (fun h => h0 ((first0_iff t).mp h)) ((last0_iff t).mpr h1) (iblk0 V c 0 t) (iblk0 V c 1 t) (iblk0 V c 2 t) (outsAt0 V c (t.val - 1) (Nat.lt_of_le_of_lt (Nat.sub_le _ _) t.isLt)).2,
      accLast0 c (grid0.coords t) (ms0_0 t) (hs0_0 t) (ms0_1 t) (hs0_1 t) (ms0_2 t) (hs0_2 t) (ms0_3 t) (hs0_3 t) acc0 (Memref.isWhole_whole _) (fun h => h0 ((first0_iff t).mp h)) ((last0_iff t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: the class's invariant before the first point; afterwards the accumulator at what the point
    before left, the other scoped buffers at some contents, the generator register at some state. -/
def PhiS0 (c : Dev nD) : (n : ℕ) → n ≤ cfg0.N → sProp 𝕄
  | 0, _ => Pipeline.ΦA spec0 c
  | n + 1, hn => iprop(rest0 c (owns (c : Thread nD τ) acc0 fullShare ((outsAt0 V c n hn).2)) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(rest0 c (owns (c : Thread nD τ) acc0 fullShare ((outsAt0 V c n hn).2)) ∗ (∃ r, prngReg c r)) := rfl

theorem PhiS0_pos (c : Dev nD) (n : ℕ) (h : n ≤ cfg0.N) (hz : n ≠ 0) :
    PhiS0 V c n h = iprop(rest0 c (owns (c : Thread nD τ) acc0 fullShare ((outsAt0 V c (n - 1) (by omega)).2)) ∗ (∃ r, prngReg c r)) := by
  cases n with
  | zero => exact absurd rfl hz
  | succ n => rfl

/-! ## The proof data -/

/-- The arrays as the region finds them; after the body each input's buffer at its block and the output's at
    `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Hand

end
-- ==== Proof.KI.R0Body.lean ====
/-
  Region 0: the body obligation.  At every point the inputs' staging buffers hold their blocks; which of the three
  control cases the point is in follows from its reduction coordinate (t % 25); the invariant hands the body the
  accumulator at what the point before left (at anything, before the first point) and takes it back at this point's
  contents.
-/
import proofs.«406658_j68066641707589_1_alg».proof.Proof.KI.R0Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 15625 := lt_of_lt_of_eq t.isLt (show cfg0.N = 15625 from N_0)
  by_cases h0 : t.val % 25 = 0
  ·
    have h1 : ¬t.val % 25 = 24 := by omega
    rw [show (dat0 V c).leavesExact 0 t = owns (c : Thread nD τ) (ms0_0 t) fullShare ((dat0 V c).after 0 t) from by
      unfold Dat.leavesExact; rw [live0_0 t], after0_0]
    rw [show (dat0 V c).leavesExact 1 t = owns (c : Thread nD τ) (ms0_1 t) fullShare ((dat0 V c).after 1 t) from by
      unfold Dat.leavesExact; rw [live0_1 t], after0_1]
    rw [show (dat0 V c).leavesExact 2 t = owns (c : Thread nD τ) (ms0_2 t) fullShare ((dat0 V c).after 2 t) from by
      unfold Dat.leavesExact; rw [live0_2 t], after0_2]
    rw [Dat.leavesExact_idle (dat0 V c) 3 t (idle0_3 t (fun h => h1 ((last0_iff t).mp h))) (noFlush0_3 t (fun h => h1 ((last0_iff t).mp h)))]
    rw [outsAt0_first V c t h0 h1]
    unfold accFirst0; (try dsimp only)
    by_cases hz : t.val = 0
    ·
      rw [PhiS0_castSucc V c t, PhiS0_zero V c _ _ hz, PhiA0_eq]
      unfold rest0
      iintro ⟨⟨⟨HS, Rb0, Rb1, Rb2, Rb3, Rb4, Rb5, Rb6, Rb7, Rb8⟩, Hg⟩, Ho, ⟨%d0, H0⟩, ⟨%d1, H1⟩, ⟨%d2, H2⟩, ⟨%d3, H3⟩⟩
      iapply ((runFirst0 c (grid0.coords t) _ _ _ _ _ _ _ _ _ _ ((first0_iff t).mpr h0) (fun h => h1 ((last0_iff t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Rb0 Rb1 Rb2 Rb3 Rb4 Rb5 Rb6 Rb7 Rb8 Hg]
      · isplitl [HS Rb0 Rb1 Rb2 Rb3 Rb4 Rb5 Rb6 Rb7 Rb8]
        · isplitl [HS]
          · unfold owns; iexists _; isplitr
            swap; · iexact HS
            ipureintro; exact View.read_writes_of_cover _ _ _ _ _ (accFirst0_cover c _ _ _ _ _ _ _ _ _ _ _ _ _ _ _ _)
          isplitl [Rb0]
          · iexact Rb0
          isplitl [Rb1]
          · iexact Rb1
          isplitl [Rb2]
          · iexact Rb2
          isplitl [Rb3]
          · iexact Rb3
          isplitl [Rb4]
          · iexact Rb4
          isplitl [Rb5]
          · iexact Rb5
          isplitl [Rb6]
          · iexact Rb6
          isplitl [Rb7]
          · iexact Rb7
          iexact Rb8
        iexact Hg
      isplitl [Ho]; · iexact Ho
      isplitl [H0]; · iexact H0
      isplitl [H1]; · iexact H1
      isplitl [H2]; · iexact H2
      iexists _; iexact H3
    ·
      rw [PhiS0_castSucc V c t, PhiS0_pos V c _ _ hz]
      unfold rest0
      iintro ⟨⟨⟨HS, Rb0, Rb1, Rb2, Rb3, Rb4, Rb5, Rb6, Rb7, Rb8⟩, Hg⟩, Ho, ⟨%d0, H0⟩, ⟨%d1, H1⟩, ⟨%d2, H2⟩, ⟨%d3, H3⟩⟩
      iapply ((runFirst0 c (grid0.coords t) _ _ _ _ _ _ _ _ _ _ ((first0_iff t).mpr h0) (fun h => h1 ((last0_iff t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Rb0 Rb1 Rb2 Rb3 Rb4 Rb5 Rb6 Rb7 Rb8 Hg]
      · isplitl [HS Rb0 Rb1 Rb2 Rb3 Rb4 Rb5 Rb6 Rb7 Rb8]
        · isplitl [HS]
          · unfold owns; iexists _; isplitr
            swap; · iexact HS
            ipureintro; exact View.read_writes_of_cover _ _ _ _ _ (accFirst0_cover c _ _ _ _ _ _ _ _ _ _ _ _ _ _ _ _)
          isplitl [Rb0]
          · iexact Rb0
          isplitl [Rb1]
          · iexact Rb1
          isplitl [Rb2]
          · iexact Rb2
          isplitl [Rb3]
          · iexact Rb3
          isplitl [Rb4]
          · iexact Rb4
          isplitl [Rb5]
          · iexact Rb5
          isplitl [Rb6]
          · iexact Rb6
          isplitl [Rb7]
          · iexact Rb7
          iexact Rb8
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 25 = 24
    ·
      rw [show (dat0 V c).leavesExact 0 t = owns (c : Thread nD τ) (ms0_0 t) fullShare ((dat0 V c).after 0 t) from by
        unfold Dat.leavesExact; rw [live0_0 t], after0_0]
      rw [show (dat0 V c).leavesExact 1 t = owns (c : Thread nD τ) (ms0_1 t) fullShare ((dat0 V c).after 1 t) from by
        unfold Dat.leavesExact; rw [live0_1 t], after0_1]
      rw [show (dat0 V c).leavesExact 2 t = owns (c : Thread nD τ) (ms0_2 t) fullShare ((dat0 V c).after 2 t) from by
        unfold Dat.leavesExact; rw [live0_2 t], after0_2]
      rw [show (dat0 V c).leavesExact 3 t = owns (c : Thread nD τ) (ms0_3 t) fullShare ((dat0 V c).after 3 t) from by
        unfold Dat.leavesExact; rw [live0_3 t ((last0_iff t).mpr h1)], after0_3]
      rw [outsAt0_last V c t h0 h1]
      unfold outLast0 accLast0; (try dsimp only)
      rw [PhiS0_castSucc V c t, PhiS0_pos V c _ _ hz]
      unfold rest0
      iintro ⟨⟨⟨HS, Rb0, Rb1, Rb2, Rb3, Rb4, Rb5, Rb6, Rb7, Rb8⟩, Hg⟩, Ho, ⟨%d0, H0⟩, ⟨%d1, H1⟩, ⟨%d2, H2⟩, ⟨%d3, H3⟩⟩
      iapply ((runLast0 c (grid0.coords t) _ _ _ _ _ _ _ _ _ _ (fun h => h0 ((first0_iff t).mp h)) ((last0_iff t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Rb0 Rb1 Rb2 Rb3 Rb4 Rb5 Rb6 Rb7 Rb8 Hg]
      · isplitl [HS Rb0 Rb1 Rb2 Rb3 Rb4 Rb5 Rb6 Rb7 Rb8]
        · isplitl [HS]
          · unfold owns; iexists _; isplitr
            swap; · iexact HS
            ipureintro; exact View.read_writes_of_cover _ _ _ _ _ (accLast0_cover c _ _ _ _ _ _ _ _ _ _ _ _ _ _ _ _ _)
          isplitl [Rb0]
          · iexact Rb0
          isplitl [Rb1]
          · iexact Rb1
          isplitl [Rb2]
          · iexact Rb2
          isplitl [Rb3]
          · iexact Rb3
          isplitl [Rb4]
          · iexact Rb4
          isplitl [Rb5]
          · iexact Rb5
          isplitl [Rb6]
          · iexact Rb6
          isplitl [Rb7]
          · iexact Rb7
          iexact Rb8
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast0_cover c _ _ _ _ _ _ _ _ _ _ _ _ _ _ _ _ _)
    ·
      rw [show (dat0 V c).leavesExact 0 t = owns (c : Thread nD τ) (ms0_0 t) fullShare ((dat0 V c).after 0 t) from by
        unfold Dat.leavesExact; rw [live0_0 t], after0_0]
      rw [show (dat0 V c).leavesExact 1 t = owns (c : Thread nD τ) (ms0_1 t) fullShare ((dat0 V c).after 1 t) from by
        unfold Dat.leavesExact; rw [live0_1 t], after0_1]
      rw [show (dat0 V c).leavesExact 2 t = owns (c : Thread nD τ) (ms0_2 t) fullShare ((dat0 V c).after 2 t) from by
        unfold Dat.leavesExact; rw [live0_2 t], after0_2]
      rw [Dat.leavesExact_idle (dat0 V c) 3 t (idle0_3 t (fun h => h1 ((last0_iff t).mp h))) (noFlush0_3 t (fun h => h1 ((last0_iff t).mp h)))]
      rw [outsAt0_mid V c t h0 h1]
      unfold accMid0; (try dsimp only)
      rw [PhiS0_castSucc V c t, PhiS0_pos V c _ _ hz]
      unfold rest0
      iintro ⟨⟨⟨HS, Rb0, Rb1, Rb2, Rb3, Rb4, Rb5, Rb6, Rb7, Rb8⟩, Hg⟩, Ho, ⟨%d0, H0⟩, ⟨%d1, H1⟩, ⟨%d2, H2⟩, ⟨%d3, H3⟩⟩
      iapply ((runMid0 c (grid0.coords t) _ _ _ _ _ _ _ _ _ _ (fun h => h0 ((first0_iff t).mp h)) (fun h => h1 ((last0_iff t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Rb0 Rb1 Rb2 Rb3 Rb4 Rb5 Rb6 Rb7 Rb8 Hg]
      · isplitl [HS Rb0 Rb1 Rb2 Rb3 Rb4 Rb5 Rb6 Rb7 Rb8]
        · isplitl [HS]
          · unfold owns; iexists _; isplitr
            swap; · iexact HS
            ipureintro; exact View.read_writes_of_cover _ _ _ _ _ (accMid0_cover c _ _ _ _ _ _ _ _ _ _ _ _ _ _ _ _ _)
          isplitl [Rb0]
          · iexact Rb0
          isplitl [Rb1]
          · iexact Rb1
          isplitl [Rb2]
          · iexact Rb2
          isplitl [Rb3]
          · iexact Rb3
          isplitl [Rb4]
          · iexact Rb4
          isplitl [Rb5]
          · iexact Rb5
          isplitl [Rb6]
          · iexact Rb6
          isplitl [Rb7]
          · iexact Rb7
          iexact Rb8
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: what the accumulator holds is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 15625 := N_0; omega), PhiA0_eq]
  unfold rest0
  iintro ⟨⟨HS, Rb0, Rb1, Rb2, Rb3, Rb4, Rb5, Rb6, Rb7, Rb8⟩, Hg⟩
  isplitl [HS Rb0 Rb1 Rb2 Rb3 Rb4 Rb5 Rb6 Rb7 Rb8]
  · isplitl [HS]; · iexists _; iexact HS
    isplitl [Rb0]; · iexact Rb0
    isplitl [Rb1]; · iexact Rb1
    isplitl [Rb2]; · iexact Rb2
    isplitl [Rb3]; · iexact Rb3
    isplitl [Rb4]; · iexact Rb4
    isplitl [Rb5]; · iexact Rb5
    isplitl [Rb6]; · iexact Rb6
    isplitl [Rb7]; · iexact Rb7
    iexact Rb8
  iexact Hg

end Cert.KernelIdeal.Hand

end
-- ==== Proof.KI.R1Base.lean ====
/-
  Region 1 (the scatter-sum-and-linear call) of the kernel, the part its three control cases share.
  The grid is 25 node blocks by 625 edge blocks, the edge block (the reduction coordinate) innermost: point t is node block t / 625 and edge block t % 625.
  The body resets its accumulator when that coordinate is 0 and stores into the output block when it is 624; both
  conditions are decided over the grid here, in closed form.  The output window is idle (nothing stored, nothing
  written back) except at coordinate 624.
-/
import proofs.«406658_j68066641707589_1_alg».proof.Proof.Gen.KernelIdeal.Launch
import proofs.«406658_j68066641707589_1_alg».proof.Proof.Gen.KernelIdeal.Skeleton
import proofs.«406658_j68066641707589_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid -/

/-- "the reduction coordinate is 0": the reset's condition, as the body computes it from the coordinates. -/
abbrev first1 (i : grid1.Coords) : Prop := (Scalar.cmpi .ne (Scalar.extui (Scalar.cmpi .eq (BitVec.ofNat 32 (i 1).val) 0#32)) 0#32) = 1#1
/-- It holds exactly at the points t with t % 625 = 0. -/
theorem first1_iff : ∀ t : Fin cfg1.N, first1 (grid1.coords t) ↔ t.val % 625 = 0 :=
  (by decide +kernel : ∀ t : Fin grid1.N, first1 (grid1.coords t) ↔ t.val % 625 = 0)

/-- "the reduction coordinate is the last": the condition of the store into the output block. -/
abbrev last1 (i : grid1.Coords) : Prop := k1_cond2 i = 1#1
/-- It holds exactly at the points t with t % 625 = 624. -/
theorem last1_iff : ∀ t : Fin cfg1.N, last1 (grid1.coords t) ↔ t.val % 625 = 624 :=
  (by decide +kernel : ∀ t : Fin grid1.N, last1 (grid1.coords t) ↔ t.val % 625 = 624)

/-! ## Where the windows are idle -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
/-- Away from the last reduction coordinate the output window is idle and is not written back. -/
theorem idle1_4 : ∀ t : Fin cfg1.N, ¬last1 (grid1.coords t) → cfg1.idle 4 (grid1.coords t) = true := fun t h => by
  show (!(k1_cond2 (grid1.coords t) == 1#1)) = true
  simp only [Bool.not_eq_true', beq_eq_false_iff_ne, ne_eq]; exact h
theorem noFlush1_4 : ∀ t : Fin cfg1.N, ¬last1 (grid1.coords t) → (cfg1.win 4).flush t = false := fun t h => by
  rw [Bool.eq_false_iff]; exact fun hf => h ((last1_iff t).mpr ((flush1_4 t).mp hf))
/-- At the last one it is live. -/
theorem live1_4 : ∀ t : Fin cfg1.N, last1 (grid1.coords t) → cfg1.idle 4 (grid1.coords t) = false := fun t h => by
  show (!(k1_cond2 (grid1.coords t) == 1#1)) = false
  simp only [Bool.not_eq_false', beq_iff_eq]; exact h

/-! ## The memrefs the body is called with -/

abbrev ms1_0 (t : Fin cfg1.N) : Memref sig .tc .vmem S2000x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x64 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from point to point. -/
abbrev acc1 : Memref sig .tc .vmem S4096x64 .f32 := Memref.whole cc1_scratch0
abbrev accV1 : View sig .tc .vmem S4096x64 .f32 := acc1.view
/-- One staging buffer of the output window, through which its contents are stated. -/
abbrev outV1 : View sig .tc .vmem S4096x64 .f32 := (Memref.whole cc1_stg4_0 : Memref sig .tc .vmem S4096x64 .f32).view

/-- The scoped buffers the call does not stage, each whole at some contents, with the accumulator's place held by
    an assertion `A` of the caller's choosing (they are listed in the order the launch lists them). -/
def rest1 (c : Dev nD) (A : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ A)

/-- The class invariant with the accumulator singled out of the scoped rest. -/
theorem PhiA1_eq (c : Dev nD) :
    (Pipeline.ΦA spec1 c : sProp 𝕄)
      = iprop(rest1 c (iprop(∃ d, owns (c : Thread nD τ) acc1 fullShare d)) ∗ (∃ r, prngReg c r)) := by
  unfold Pipeline.ΦA rest1; rw [scopedRest1_eq]; simp only [acc1, owns_whole]; try rfl

end Cert.KernelIdeal.Hand

end
-- ==== Proof.KI.R1RunA.lean ====
/-
  Region 1, where the reduction coordinate is 0 (the accumulator is reset, then added to; nothing is stored into the output block): the body run once on whole staging memrefs.  The run itself finds what the body's stores leave
  in each buffer it writes, as a list of pieces (last store first); that list is the first components of the result.
-/
import proofs.«406658_j68066641707589_1_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the reduction coordinate is 0: the inputs' buffers at their contents, the output block's at contents
    handed back untouched, the accumulator at anything; afterwards the accumulator holds the pieces the run found. -/
noncomputable def runFirst1 (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : first1 i) (hc1 : ¬last1 i)
    (x0 : Vec F S2000x1 .i32) (x1 : Vec F S2000x64 .bf16) (x2 : Vec F S64x64 .f32) (x3 : Vec F S1x64 .f32) :
    Σ' (L4 : List (View.Piece (Elt F) S4096x64 .f32)), { LS : List (View.Piece (Elt F) S4096x64 .f32) //
      ∀ (xi4 : Vec F S4096x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__scatter_sum_linear_kernel i arg2 harg2 arg3 harg3 arg4 harg4 arg5 harg5 arg6 harg6 arg7 harg7) K } := by
  refine ⟨[], ?_, fun xi4 E K => ?run⟩
  case run =>
    simp only [cc1__scatter_sum_linear_kernel_eq_skeleton]; unfold cc1__scatter_sum_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KI.R1RunB.lean ====
/-
  Region 1, where the reduction coordinate is neither 0 nor the last (the accumulator is added to; nothing is stored into the output block): the body run once on whole staging memrefs.  The run itself finds what the body's stores leave
  in each buffer it writes, as a list of pieces (last store first); that list is the first components of the result.
-/
import proofs.«406658_j68066641707589_1_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle reduction coordinate: the accumulator enters at what the point before left (`xs`). -/
noncomputable def runMid1 (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : ¬last1 i)
    (x0 : Vec F S2000x1 .i32) (x1 : Vec F S2000x64 .bf16) (x2 : Vec F S64x64 .f32) (x3 : Vec F S1x64 .f32) (xs : Vec F S4096x64 .f32) :
    Σ' (L4 : List (View.Piece (Elt F) S4096x64 .f32)), { LS : List (View.Piece (Elt F) S4096x64 .f32) //
      ∀ (xi4 : Vec F S4096x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__scatter_sum_linear_kernel i arg2 harg2 arg3 harg3 arg4 harg4 arg5 harg5 arg6 harg6 arg7 harg7) K } := by
  refine ⟨[], ?_, fun xi4 E K => ?run⟩
  case run =>
    simp only [cc1__scatter_sum_linear_kernel_eq_skeleton]; unfold cc1__scatter_sum_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KI.R1RunC.lean ====
/-
  Region 1, where the reduction coordinate is the last (the accumulator is added to, then the result is stored into the output block): the body run once on whole staging memrefs.  The run itself finds what the body's stores leave
  in each buffer it writes, as a list of pieces (last store first); that list is the first components of the result.
-/
import proofs.«406658_j68066641707589_1_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last reduction coordinate: the output block's buffer enters at anything and leaves with the found pieces. -/
noncomputable def runLast1 (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : last1 i)
    (x0 : Vec F S2000x1 .i32) (x1 : Vec F S2000x64 .bf16) (x2 : Vec F S64x64 .f32) (x3 : Vec F S1x64 .f32) (xs : Vec F S4096x64 .f32) :
    Σ' (L4 : List (View.Piece (Elt F) S4096x64 .f32)), { LS : List (View.Piece (Elt F) S4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__scatter_sum_linear_kernel i arg2 harg2 arg3 harg3 arg4 harg4 arg5 harg5 arg6 harg6 arg7 harg7) K } := by
  refine ⟨?_, ?_, fun E K => ?run⟩
  case run =>
    simp only [cc1__scatter_sum_linear_kernel_eq_skeleton]; unfold cc1__scatter_sum_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.KI.R1Frame.lean ====
/-
  Region 1 (the scatter-sum-and-linear call): what its buffers hold point by point, and the proof data, stated at a parameter `V`, the
  contents of the core's buffers when the region is entered.

  After the body at point t the accumulator holds: where the reduction coordinate is 0 what the reset-and-add leaves,
  at every later coordinate what the add leaves over the point before's contents (`outsAt1`, by recursion on the
  point).  The output block's staging buffer is written only at the last reduction coordinate.  The region's invariant
  before point t is the class's before the first point and afterwards the accumulator at the point before's contents
  beside the other scoped buffers and the generator register, untouched.
-/
import proofs.«406658_j68066641707589_1_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The accumulator after the body where the reduction coordinate is 0: the run's pieces read back (they tile it). -/
def accFirst1 (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : first1 i) (hc1 : ¬last1 i)
    (x0 : Vec F S2000x1 .i32) (x1 : Vec F S2000x64 .bf16) (x2 : Vec F S64x64 .f32) (x3 : Vec F S1x64 .f32) : Vec F S4096x64 .f32 :=
  accV1.read (Elt F) (accV1.writes (Elt F) accV1.junk (runFirst1 c i arg2 harg2 arg3 harg3 arg4 harg4 arg5 harg5 arg6 harg6 arg7 harg7 hc0 hc1 x0 x1 x2 x3).2.1)
theorem accFirst1_cover (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : first1 i) (hc1 : ¬last1 i)
    (x0 : Vec F S2000x1 .i32) (x1 : Vec F S2000x64 .bf16) (x2 : Vec F S64x64 .f32) (x3 : Vec F S1x64 .f32) (y : S4096x64.Idx) :
    ∃ pc ∈ (runFirst1 c i arg2 harg2 arg3 harg3 arg4 harg4 arg5 harg5 arg6 harg6 arg7 harg7 hc0 hc1 x0 x1 x2 x3).2.1, y ∈ pc.1.set :=
  View.cover_of_tiledL (runFirst1 c i arg2 harg2 arg3 harg3 arg4 harg4 arg5 harg5 arg6 harg6 arg7 harg7 hc0 hc1 x0 x1 x2 x3).2.1 S4096x64.size (by sl_kernel_rfl) y

/-- The accumulator after the body at a middle reduction coordinate, over what it held (`xs`). -/
def accMid1 (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : ¬last1 i)
    (x0 : Vec F S2000x1 .i32) (x1 : Vec F S2000x64 .bf16) (x2 : Vec F S64x64 .f32) (x3 : Vec F S1x64 .f32) (xs : Vec F S4096x64 .f32) : Vec F S4096x64 .f32 :=
  accV1.read (Elt F) (accV1.writes (Elt F) accV1.junk (runMid1 c i arg2 harg2 arg3 harg3 arg4 harg4 arg5 harg5 arg6 harg6 arg7 harg7 hc0 hc1 x0 x1 x2 x3 xs).2.1)
theorem accMid1_cover (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : ¬last1 i)
    (x0 : Vec F S2000x1 .i32) (x1 : Vec F S2000x64 .bf16) (x2 : Vec F S64x64 .f32) (x3 : Vec F S1x64 .f32) (xs : Vec F S4096x64 .f32) (y : S4096x64.Idx) :
    ∃ pc ∈ (runMid1 c i arg2 harg2 arg3 harg3 arg4 harg4 arg5 harg5 arg6 harg6 arg7 harg7 hc0 hc1 x0 x1 x2 x3 xs).2.1, y ∈ pc.1.set :=
  View.cover_of_tiledL (runMid1 c i arg2 harg2 arg3 harg3 arg4 harg4 arg5 harg5 arg6 harg6 arg7 harg7 hc0 hc1 x0 x1 x2 x3 xs).2.1 S4096x64.size (by sl_kernel_rfl) y

/-- The accumulator after the body at the last reduction coordinate. -/
def accLast1 (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : last1 i)
    (x0 : Vec F S2000x1 .i32) (x1 : Vec F S2000x64 .bf16) (x2 : Vec F S64x64 .f32) (x3 : Vec F S1x64 .f32) (xs : Vec F S4096x64 .f32) : Vec F S4096x64 .f32 :=
  accV1.read (Elt F) (accV1.writes (Elt F) accV1.junk (runLast1 c i arg2 harg2 arg3 harg3 arg4 harg4 arg5 harg5 arg6 harg6 arg7 harg7 hc0 hc1 x0 x1 x2 x3 xs).2.1)
theorem accLast1_cover (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : last1 i)
    (x0 : Vec F S2000x1 .i32) (x1 : Vec F S2000x64 .bf16) (x2 : Vec F S64x64 .f32) (x3 : Vec F S1x64 .f32) (xs : Vec F S4096x64 .f32) (y : S4096x64.Idx) :
    ∃ pc ∈ (runLast1 c i arg2 harg2 arg3 harg3 arg4 harg4 arg5 harg5 arg6 harg6 arg7 harg7 hc0 hc1 x0 x1 x2 x3 xs).2.1, y ∈ pc.1.set :=
  View.cover_of_tiledL (runLast1 c i arg2 harg2 arg3 harg3 arg4 harg4 arg5 harg5 arg6 harg6 arg7 harg7 hc0 hc1 x0 x1 x2 x3 xs).2.1 S4096x64.size (by sl_kernel_rfl) y

/-- The output block's staging buffer after the body at the last reduction coordinate. -/
def outLast1 (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : last1 i)
    (x0 : Vec F S2000x1 .i32) (x1 : Vec F S2000x64 .bf16) (x2 : Vec F S64x64 .f32) (x3 : Vec F S1x64 .f32) (xs : Vec F S4096x64 .f32) : Vec F S4096x64 .f32 :=
  outV1.read (Elt F) (outV1.writes (Elt F) outV1.junk (runLast1 c i arg2 harg2 arg3 harg3 arg4 harg4 arg5 harg5 arg6 harg6 arg7 harg7 hc0 hc1 x0 x1 x2 x3 xs).1)
theorem outLast1_cover (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : last1 i)
    (x0 : Vec F S2000x1 .i32) (x1 : Vec F S2000x64 .bf16) (x2 : Vec F S64x64 .f32) (x3 : Vec F S1x64 .f32) (xs : Vec F S4096x64 .f32) (y : S4096x64.Idx) :
    ∃ pc ∈ (runLast1 c i arg2 harg2 arg3 harg3 arg4 harg4 arg5 harg5 arg6 harg6 arg7 harg7 hc0 hc1 x0 x1 x2 x3 xs).1, y ∈ pc.1.set :=
  View.cover_of_tiledL (runLast1 c i arg2 harg2 arg3 harg3 arg4 harg4 arg5 harg5 arg6 harg6 arg7 harg7 hc0 hc1 x0 x1 x2 x3 xs).1 S4096x64.size (by sl_kernel_rfl) y

/-! ## Point by point -/

/-- What the output block's staging buffer and the accumulator hold after the body at position `n`.  (The first
    component is consulted at the last reduction coordinate only; elsewhere the window is idle and a placeholder
    stands there.) -/
def outsAt1 (c : Dev nD) : (n : ℕ) → n < cfg1.N → Vec F S4096x64 .f32 × Vec F S4096x64 .f32
  | 0, hn => (outV1.read (Elt F) outV1.junk,
      accFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) acc1 (Memref.isWhole_whole _) ((first1_iff ⟨0, hn⟩).mpr (Nat.zero_mod _)) (fun h => (fun h => by (try dsimp only at h); omega) ((last1_iff ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 625 = 0 then
      if h1 : (n + 1) % 625 = 624 then
        False.elim (by omega)
      else
        (outV1.read (Elt F) outV1.junk,
          accFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) acc1 (Memref.isWhole_whole _) ((first1_iff ⟨n + 1, hn⟩).mpr h0) (fun h => h1 ((last1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 625 = 624 then
        (outLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) acc1 (Memref.isWhole_whole _) (fun h => h0 ((first1_iff ⟨n + 1, hn⟩).mp h)) ((last1_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
          accLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) acc1 (Memref.isWhole_whole _) (fun h => h0 ((first1_iff ⟨n + 1, hn⟩).mp h)) ((last1_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (outV1.read (Elt F) outV1.junk,
          accMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) acc1 (Memref.isWhole_whole _) (fun h => h0 ((first1_iff ⟨n + 1, hn⟩).mp h)) (fun h => h1 ((last1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` where the reduction coordinate is 0. -/
theorem outsAt1_first (c : Dev nD) (t : Fin cfg1.N) (h0 : t.val % 625 = 0) (h1 : ¬t.val % 625 = 624) :
    outsAt1 V c t.val t.isLt = (outV1.read (Elt F) outV1.junk,
      accFirst1 c (grid1.coords t) (ms1_0 t) (hs1_0 t) (ms1_1 t) (hs1_1 t) (ms1_2 t) (hs1_2 t) (ms1_3 t) (hs1_3 t) (ms1_4 t) (hs1_4 t) acc1 (Memref.isWhole_whole _) ((first1_iff t).mpr h0) (fun h => h1 ((last1_iff t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a middle reduction coordinate, over what the point before left. -/
theorem outsAt1_mid (c : Dev nD) (t : Fin cfg1.N) (h0 : ¬t.val % 625 = 0) (h1 : ¬t.val % 625 = 624) :
    outsAt1 V c t.val t.isLt = (outV1.read (Elt F) outV1.junk,
      accMid1 c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((first1_iff t).mp h)) (fun h => h1 ((last1_iff t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last reduction coordinate, over what the point before left. -/
theorem outsAt1_last (c : Dev nD) (t : Fin cfg1.N) (h0 : ¬t.val % 625 = 0) (h1 : t.val % 625 = 624) :
    outsAt1 V c t.val t.isLt = (outLast1 c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((first1_iff t).mp h)) ((last1_iff t).mpr h1) (iblk1 V c 0 t) (iblk1 V c 1 t) (iblk1 V c 2 t) (iblk1 V c 3 t) (outsAt1 V c (t.val - 1) (Nat.lt_of_le_of_lt (Nat.sub_le _ _) t.isLt)).2,
      accLast1 c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((first1_iff t).mp h)) ((last1_iff t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: the class's invariant before the first point; afterwards the accumulator at what the point
    before left, the other scoped buffers at some contents, the generator register at some state. -/
def PhiS1 (c : Dev nD) : (n : ℕ) → n ≤ cfg1.N → sProp 𝕄
  | 0, _ => Pipeline.ΦA spec1 c
  | n + 1, hn => iprop(rest1 c (owns (c : Thread nD τ) acc1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 c (owns (c : Thread nD τ) acc1 fullShare ((outsAt1 V c n hn).2)) ∗ (∃ r, prngReg c r)) := rfl

theorem PhiS1_pos (c : Dev nD) (n : ℕ) (h : n ≤ cfg1.N) (hz : n ≠ 0) :
    PhiS1 V c n h = iprop(rest1 c (owns (c : Thread nD τ) acc1 fullShare ((outsAt1 V c (n - 1) (by omega)).2)) ∗ (∃ r, prngReg c r)) := by
  cases n with
  | zero => exact absurd rfl hz
  | succ n => rfl

/-! ## The proof data -/

/-- The arrays as the region finds them; after the body each input's buffer at its block and the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.KernelIdeal.Hand

end
-- ==== Proof.KI.R1Body.lean ====
/-
  Region 1: the body obligation.  At every point the inputs' staging buffers hold their blocks; which of the three
  control cases the point is in follows from its reduction coordinate (t % 625); the invariant hands the body the
  accumulator at what the point before left (at anything, before the first point) and takes it back at this point's
  contents.
-/
import proofs.«406658_j68066641707589_1_alg».proof.Proof.KI.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 15625 := lt_of_lt_of_eq t.isLt (show cfg1.N = 15625 from N_1)
  by_cases h0 : t.val % 625 = 0
  ·
    have h1 : ¬t.val % 625 = 624 := by omega
    rw [show (dat1 V c).leavesExact 0 t = owns (c : Thread nD τ) (ms1_0 t) fullShare ((dat1 V c).after 0 t) from by
      unfold Dat.leavesExact; rw [live1_0 t], after1_0]
    rw [show (dat1 V c).leavesExact 1 t = owns (c : Thread nD τ) (ms1_1 t) fullShare ((dat1 V c).after 1 t) from by
      unfold Dat.leavesExact; rw [live1_1 t], after1_1]
    rw [show (dat1 V c).leavesExact 2 t = owns (c : Thread nD τ) (ms1_2 t) fullShare ((dat1 V c).after 2 t) from by
      unfold Dat.leavesExact; rw [live1_2 t], after1_2]
    rw [show (dat1 V c).leavesExact 3 t = owns (c : Thread nD τ) (ms1_3 t) fullShare ((dat1 V c).after 3 t) from by
      unfold Dat.leavesExact; rw [live1_3 t], after1_3]
    rw [Dat.leavesExact_idle (dat1 V c) 4 t (idle1_4 t (fun h => h1 ((last1_iff t).mp h))) (noFlush1_4 t (fun h => h1 ((last1_iff t).mp h)))]
    rw [outsAt1_first V c t h0 h1]
    unfold accFirst1; (try dsimp only)
    by_cases hz : t.val = 0
    ·
      rw [PhiS1_castSucc V c t, PhiS1_zero V c _ _ hz, PhiA1_eq]
      unfold rest1
      iintro ⟨⟨⟨Ra0, Ra1, Ra2, Ra3, Ra4, Ra5, Ra6, Ra7, Ra8, HS⟩, Hg⟩, Ho, ⟨%d0, H0⟩, ⟨%d1, H1⟩, ⟨%d2, H2⟩, ⟨%d3, H3⟩, ⟨%d4, H4⟩⟩
      iapply ((runFirst1 c (grid1.coords t) _ _ _ _ _ _ _ _ _ _ _ _ ((first1_iff t).mpr h0) (fun h => h1 ((last1_iff t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Ra0 Ra1 Ra2 Ra3 Ra4 Ra5 Ra6 Ra7 Ra8 HS Hg]
      · isplitl [Ra0 Ra1 Ra2 Ra3 Ra4 Ra5 Ra6 Ra7 Ra8 HS]
        · isplitl [Ra0]
          · iexact Ra0
          isplitl [Ra1]
          · iexact Ra1
          isplitl [Ra2]
          · iexact Ra2
          isplitl [Ra3]
          · iexact Ra3
          isplitl [Ra4]
          · iexact Ra4
          isplitl [Ra5]
          · iexact Ra5
          isplitl [Ra6]
          · iexact Ra6
          isplitl [Ra7]
          · iexact Ra7
          isplitl [Ra8]
          · iexact Ra8
          unfold owns; iexists _; isplitr
          swap; · iexact HS
          ipureintro; exact View.read_writes_of_cover _ _ _ _ _ (accFirst1_cover c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    ·
      rw [PhiS1_castSucc V c t, PhiS1_pos V c _ _ hz]
      unfold rest1
      iintro ⟨⟨⟨Ra0, Ra1, Ra2, Ra3, Ra4, Ra5, Ra6, Ra7, Ra8, HS⟩, Hg⟩, Ho, ⟨%d0, H0⟩, ⟨%d1, H1⟩, ⟨%d2, H2⟩, ⟨%d3, H3⟩, ⟨%d4, H4⟩⟩
      iapply ((runFirst1 c (grid1.coords t) _ _ _ _ _ _ _ _ _ _ _ _ ((first1_iff t).mpr h0) (fun h => h1 ((last1_iff t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [Ra0 Ra1 Ra2 Ra3 Ra4 Ra5 Ra6 Ra7 Ra8 HS Hg]
      · isplitl [Ra0 Ra1 Ra2 Ra3 Ra4 Ra5 Ra6 Ra7 Ra8 HS]
        · isplitl [Ra0]
          · iexact Ra0
          isplitl [Ra1]
          · iexact Ra1
          isplitl [Ra2]
          · iexact Ra2
          isplitl [Ra3]
          · iexact Ra3
          isplitl [Ra4]
          · iexact Ra4
          isplitl [Ra5]
          · iexact Ra5
          isplitl [Ra6]
          · iexact Ra6
          isplitl [Ra7]
          · iexact Ra7
          isplitl [Ra8]
          · iexact Ra8
          unfold owns; iexists _; isplitr
          swap; · iexact HS
          ipureintro; exact View.read_writes_of_cover _ _ _ _ _ (accFirst1_cover c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 625 = 624
    ·
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t], after1_3]
      rw [show (dat1 V c).leavesExact 4 t = owns (c : Thread nD τ) (ms1_4 t) fullShare ((dat1 V c).after 4 t) from by
        unfold Dat.leavesExact; rw [live1_4 t ((last1_iff t).mpr h1)], after1_4]
      rw [outsAt1_last V c t h0 h1]
      unfold outLast1 accLast1; (try dsimp only)
      rw [PhiS1_castSucc V c t, PhiS1_pos V c _ _ hz]
      unfold rest1
      iintro ⟨⟨⟨Ra0, Ra1, Ra2, Ra3, Ra4, Ra5, Ra6, Ra7, Ra8, HS⟩, Hg⟩, Ho, ⟨%d0, H0⟩, ⟨%d1, H1⟩, ⟨%d2, H2⟩, ⟨%d3, H3⟩, ⟨%d4, H4⟩⟩
      iapply ((runLast1 c (grid1.coords t) _ _ _ _ _ _ _ _ _ _ _ _ (fun h => h0 ((first1_iff t).mp h)) ((last1_iff t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [Ra0 Ra1 Ra2 Ra3 Ra4 Ra5 Ra6 Ra7 Ra8 HS Hg]
      · isplitl [Ra0 Ra1 Ra2 Ra3 Ra4 Ra5 Ra6 Ra7 Ra8 HS]
        · isplitl [Ra0]
          · iexact Ra0
          isplitl [Ra1]
          · iexact Ra1
          isplitl [Ra2]
          · iexact Ra2
          isplitl [Ra3]
          · iexact Ra3
          isplitl [Ra4]
          · iexact Ra4
          isplitl [Ra5]
          · iexact Ra5
          isplitl [Ra6]
          · iexact Ra6
          isplitl [Ra7]
          · iexact Ra7
          isplitl [Ra8]
          · iexact Ra8
          unfold owns; iexists _; isplitr
          swap; · iexact HS
          ipureintro; exact View.read_writes_of_cover _ _ _ _ _ (accLast1_cover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast1_cover c _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t], after1_3]
      rw [Dat.leavesExact_idle (dat1 V c) 4 t (idle1_4 t (fun h => h1 ((last1_iff t).mp h))) (noFlush1_4 t (fun h => h1 ((last1_iff t).mp h)))]
      rw [outsAt1_mid V c t h0 h1]
      unfold accMid1; (try dsimp only)
      rw [PhiS1_castSucc V c t, PhiS1_pos V c _ _ hz]
      unfold rest1
      iintro ⟨⟨⟨Ra0, Ra1, Ra2, Ra3, Ra4, Ra5, Ra6, Ra7, Ra8, HS⟩, Hg⟩, Ho, ⟨%d0, H0⟩, ⟨%d1, H1⟩, ⟨%d2, H2⟩, ⟨%d3, H3⟩, ⟨%d4, H4⟩⟩
      iapply ((runMid1 c (grid1.coords t) _ _ _ _ _ _ _ _ _ _ _ _ (fun h => h0 ((first1_iff t).mp h)) (fun h => h1 ((last1_iff t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Ra0 Ra1 Ra2 Ra3 Ra4 Ra5 Ra6 Ra7 Ra8 HS Hg]
      · isplitl [Ra0 Ra1 Ra2 Ra3 Ra4 Ra5 Ra6 Ra7 Ra8 HS]
        · isplitl [Ra0]
          · iexact Ra0
          isplitl [Ra1]
          · iexact Ra1
          isplitl [Ra2]
          · iexact Ra2
          isplitl [Ra3]
          · iexact Ra3
          isplitl [Ra4]
          · iexact Ra4
          isplitl [Ra5]
          · iexact Ra5
          isplitl [Ra6]
          · iexact Ra6
          isplitl [Ra7]
          · iexact Ra7
          isplitl [Ra8]
          · iexact Ra8
          unfold owns; iexists _; isplitr
          swap; · iexact HS
          ipureintro; exact View.read_writes_of_cover _ _ _ _ _ (accMid1_cover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: what the accumulator holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 15625 := N_1; omega), PhiA1_eq]
  unfold rest1
  iintro ⟨⟨Ra0, Ra1, Ra2, Ra3, Ra4, Ra5, Ra6, Ra7, Ra8, HS⟩, Hg⟩
  isplitl [Ra0 Ra1 Ra2 Ra3 Ra4 Ra5 Ra6 Ra7 Ra8 HS]
  · isplitl [Ra0]; · iexact Ra0
    isplitl [Ra1]; · iexact Ra1
    isplitl [Ra2]; · iexact Ra2
    isplitl [Ra3]; · iexact Ra3
    isplitl [Ra4]; · iexact Ra4
    isplitl [Ra5]; · iexact Ra5
    isplitl [Ra6]; · iexact Ra6
    isplitl [Ra7]; · iexact Ra7
    isplitl [Ra8]; · iexact Ra8
    iexists _; iexact HS
  iexact Hg

end Cert.KernelIdeal.Hand

end
-- ==== Proof.KI.Run.lean ====
/-
  The whole program run: @main is nine stretches of host operations, the gather-and-scale call, the
  scatter-sum-and-linear call, and a last host operation (the slice back to 100000 rows).  Between two items the core
  holds every unscoped buffer at known contents: the launch memory, then each host stretch applied, then after a call
  the call's output array at what its write-backs leave (`Dat.arrAt … N`) and everything else as before.  Each call
  is entered from those contents and its proof data are stated at them.  The run ends with every unscoped buffer read
  back: the arguments as launched, the result at the slice of the second call's output array.
-/
import proofs.«406658_j68066641707589_1_alg».proof.Proof.KI.R0Body
import proofs.«406658_j68066641707589_1_alg».proof.Proof.KI.R1Body
import proofs.«406658_j68066641707589_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents the calls are entered from and what they leave -/

/-- The first call is entered from the buffers as the nine host stretches leave them. -/
abbrev E0 : (c : Dev nD) → (b : Ref sig .tc) → Buf (Elt F) ((c : Thread nD τ).loc b) := fun c b => V9 m c b

/-- What the first call leaves in its output array `main_v8` (the messages). -/
def left8 (c : Dev nD) : Buf (Elt F) ((c : Thread nD τ).loc main_v8) := (dat0 (E0 m) c).arrAt 3 cfg0.N

/-- The unknown "what the calls leave", with the first call's output filled in. -/
def outsA : Outs (F := F) := fun _ r c => if h : r = main_v8 then h ▸ left8 m c else V9 m c r

/-- The second call is entered from the first call's exit contents. -/
abbrev E1 : (c : Dev nD) → (b : Ref sig .tc) → Buf (Elt F) ((c : Thread nD τ).loc b) := fun c b => V10 m (outsA m) c b

/-- What the second call leaves in its output array `main_v9` (the padded result). -/
def left9 (c : Dev nD) : Buf (Elt F) ((c : Thread nD τ).loc main_v9) := (dat1 (E1 m) c).arrAt 4 cfg1.N

/-- Both calls' outputs filled in. -/
def outs : Outs (F := F) := fun _ r c =>
  if h : r = main_v8 then h ▸ left8 m c else if h9 : r = main_v9 then h9 ▸ left9 m c else V9 m c r

theorem outsA_v8 (J : ℕ) (c : Dev nD) : outsA m J main_v8 c = left8 m c := by
  unfold outsA; rw [dif_pos rfl]
theorem outs_v8 (J : ℕ) (c : Dev nD) : outs m J main_v8 c = left8 m c := by
  unfold outs; rw [dif_pos rfl]
theorem outs_v9 (J : ℕ) (c : Dev nD) : outs m J main_v9 c = left9 m c := by
  unfold outs; rw [dif_neg (by decide), dif_pos rfl]

/-- After the first call the contents do not depend on what is said of the second. -/
theorem V10_outs (c : Dev nD) : V10 m (outs m) c = V10 m (outsA m) c := by
  unfold V10; rw [outs_v8, outsA_v8]

/-- The first call's exit contents, the second call's. -/
abbrev X0 : (c : Dev nD) → (b : Ref sig .tc) → Buf (Elt F) ((c : Thread nD τ).loc b) := fun c b => V10 m (outsA m) c b
abbrev X1 : (c : Dev nD) → (b : Ref sig .tc) → Buf (Elt F) ((c : Thread nD τ).loc b) := fun c b => V11 m (outs m) c b

/-- At the first call's exit each of its arrays holds what the pipeline leaves and every other buffer what it held. -/
theorem hF0 (c : Dev nD) (w : Fin cfg0.W) : (dat0 (E0 m) c).arrAt w cfg0.N = X0 m c (Pipeline.arrRef spec0 w) := by
  match w with
  | ⟨0, _⟩ => exact ((dat0 (E0 m) c).arrAt_in 0 rfl _).trans ((A_eq0 (E0 m) c 0).trans (V10_of m (outsA m) c _ (by decide)).symm)
  | ⟨1, _⟩ => exact ((dat0 (E0 m) c).arrAt_in 1 rfl _).trans ((A_eq0 (E0 m) c 1).trans (V10_of m (outsA m) c _ (by decide)).symm)
  | ⟨2, _⟩ => exact ((dat0 (E0 m) c).arrAt_in 2 rfl _).trans ((A_eq0 (E0 m) c 2).trans (V10_of m (outsA m) c _ (by decide)).symm)
  | ⟨3, _⟩ =>
    show left8 m c = V10 m (outsA m) c main_v8
    unfold V10; rw [Function.update_self, outsA_v8]
theorem hrest0 (c : Dev nD) : ∀ b, b ∉ Finset.univ.image (Pipeline.arrRef spec0) → X0 m c b = E0 m c b :=
  fun b hb => V10_of m (outsA m) c b (fun h => hb (Finset.mem_image.mpr ⟨3, Finset.mem_univ _, (List.mem_singleton.mp h).symm⟩))

theorem hF1 (c : Dev nD) (w : Fin cfg1.W) : (dat1 (E1 m) c).arrAt w cfg1.N = X1 m c (Pipeline.arrRef spec1 w) := by
  match w with
  | ⟨0, _⟩ => exact ((dat1 (E1 m) c).arrAt_in 0 rfl _).trans ((A_eq1 (E1 m) c 0).trans (((V11_of m (outs m) c _ (by decide)).trans (congrFun (V10_outs m c) _)).symm))
  | ⟨1, _⟩ => exact ((dat1 (E1 m) c).arrAt_in 1 rfl _).trans ((A_eq1 (E1 m) c 1).trans (((V11_of m (outs m) c _ (by decide)).trans (congrFun (V10_outs m c) _)).symm))
  | ⟨2, _⟩ => exact ((dat1 (E1 m) c).arrAt_in 2 rfl _).trans ((A_eq1 (E1 m) c 2).trans (((V11_of m (outs m) c _ (by decide)).trans (congrFun (V10_outs m c) _)).symm))
  | ⟨3, _⟩ => exact ((dat1 (E1 m) c).arrAt_in 3 rfl _).trans ((A_eq1 (E1 m) c 3).trans (((V11_of m (outs m) c _ (by decide)).trans (congrFun (V10_outs m c) _)).symm))
  | ⟨4, _⟩ =>
    show left9 m c = V11 m (outs m) c main_v9
    unfold V11; rw [Function.update_self, outs_v9]
theorem hrest1 (c : Dev nD) : ∀ b, b ∉ Finset.univ.image (Pipeline.arrRef spec1) → X1 m c b = E1 m c b :=
  fun b hb => (V11_of m (outs m) c b (fun h => hb (Finset.mem_image.mpr ⟨4, Finset.mem_univ _, (List.mem_singleton.mp h).symm⟩))).trans (congrFun (V10_outs m c) _)

/-! ## The proof data family and the thread state -/

/-- Every pipeline's proof data, each at its call's entry contents (a literal match on the pipeline). -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The two calls as segments -/

-- unification of the library's lemmas, stated over the pinned configuration, with the printed one needs plain
-- definitions unfolded in a metavariable's type
set_option backward.isDefEq.respectTransparency.types false in
/-- Region 0 over the thread state: entered from every unscoped buffer at `V9 m`, left at `V10 m (outs m)`.  Its arrays are
    split out of the unscoped buffers and put back at the exit contents; the generator register goes into the
    invariant and comes out of it; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (V10 m (outsA m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (pdats m 0 c).Φ 0 := by
      have := hin0 (E0 m) c; unfold Pipeline.ΦA at this; exact this
    iintro ⟨Hp, -, Hr⟩
    iapply h
    isplitl [Hr]; · iexact Hr
    iexact Hp
  hout c := by
    rw [Pipeline.ownSems0_none]
    have h : (pdats m 0 c).Φ (Fin.last _) ⊢ (iprop(Pipeline.scopedRest spec0 c ∗ ∃ r, prngReg c r) : sProp 𝕄) := by
      have := hout0 (E0 m) c; unfold Pipeline.ΦA at this; exact this
    refine h.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's lemmas, stated over the pinned configuration, with the printed one needs plain
-- definitions unfolded in a metavariable's type
set_option backward.isDefEq.respectTransparency.types false in
/-- Region 1 over the thread state: entered from every unscoped buffer at `V10 m (outs m)`, left at `V11 m (outs m)`.  Its arrays are
    split out of the unscoped buffers and put back at the exit contents; the generator register goes into the
    invariant and comes out of it; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V10 m (outsA m) c) ∗ R c)
  post c := iprop(StableHlo.held (c : Thread nD τ) (Pipeline.ucRefs τ sig) (V11 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (pdats m 1 c).Φ 0 := by
      have := hin1 (E1 m) c; unfold Pipeline.ΦA at this; exact this
    iintro ⟨Hp, -, Hr⟩
    iapply h
    isplitl [Hr]; · iexact Hr
    iexact Hp
  hout c := by
    rw [Pipeline.ownSems0_none]
    have h : (pdats m 1 c).Φ (Fin.last _) ⊢ (iprop(Pipeline.scopedRest spec1 c ∗ ∃ r, prngReg c r) : sProp 𝕄) := by
      have := hout1 (E1 m) c; unfold Pipeline.ΦA at this; exact this
    refine h.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding
-- plain definitions in a metavariable's type
set_option backward.isDefEq.respectTransparency.types false in
/-- From any memory with zero counters every weakly fair execution of @main terminates, nothing faulting, and the final
    memory holds every unscoped buffer at the last item's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V12 m (outs m) c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m))
    (fun c Q => by
      rewrite [main_chain c, Seg.run_eq_chain,
        show (segs m (outs m) 𝒱₀ L lv (fun _ => R) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V12 m (outs m) c) ∗ ∃ r, prngReg c r))
    (hch := fun c => ⟨.rfl, .rfl, .rfl, .rfl, .rfl, .rfl, .rfl, .rfl, .rfl, .rfl, .rfl, .rfl, ?_⟩)
    (hinit := ?_)
    (QY := fun c s => ∀ b ∈ Pipeline.ucRefs τ sig, s.mem (((c : Thread nD τ)).1, b) = V12 m (outs m) c b)
    (hfin := fun c s' => ?_) (hQ := fun _ h => h)
  · -- the last item's state is the last thread state beside the core owing nothing
    show (iprop(StableHlo.held (c : Thread nD τ) (Pipeline.ucRefs τ sig) (V12 m (outs m) c) ∗ R c) : sProp 𝕄)
      ⊢ iprop((StableHlo.held (c : Thread nD τ) (Pipeline.ucRefs τ sig) (V12 m (outs m) c) ∗ ∃ r, prngReg c r) ∗ ∃ W, owes (c : Thread nD τ) (0 : CellTallies nD τ sig Unit) W)
    iintro ⟨Hh, Hp, HO⟩
    isplitl [Hh Hp]
    · isplitl [Hh]; · iexact Hh
      iexact Hp
    iexact HO
  · -- the launch
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last contents
    iintro ⟨⟨Hh, -⟩, HSI⟩
    unfold StableHlo.held
    imodintro
    iapply (pointsTo_read_all (Pipeline.ucRefs τ sig) (fun b => (((c : Thread nD τ)).1, b)) (V12 m (outs m) c) s')
    isplitl [Hh] <;> iassumption

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the run terminates, faults nowhere, and leaves the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (V12_main_arg0 m (outs m) c),
     (h c _ (mem_uc main_arg1 (by decide))).trans (V12_main_arg1 m (outs m) c),
     (h c _ (mem_uc main_arg2 (by decide))).trans (V12_main_arg2 m (outs m) c),
     (h c _ (mem_uc main_arg3 (by decide))).trans (V12_main_arg3 m (outs m) c),
     (h c _ (mem_uc main_arg4 (by decide))).trans (V12_main_arg4 m (outs m) c),
     (h c _ (mem_uc main_arg5 (by decide))).trans (V12_main_arg5 m (outs m) c)⟩) (run_all m ρ)

/-- The run with the result named: `main_v10` ends at the last item's contents there, the arguments as launched. -/
theorem run_result : θ_run defs (onTc (τ := τ) (main (F := F))) ⟨m, fun _ => 0, ρ⟩ (fun r => ∀ c : Dev nD,
      r.2.mem ((c.tc : Thread nD τ).loc main_v10) = V12 m (outs m) c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v10 (by decide)),
     (h c _ (mem_uc main_arg0 (by decide))).trans (V12_main_arg0 m (outs m) c),
     (h c _ (mem_uc main_arg1 (by decide))).trans (V12_main_arg1 m (outs m) c),
     (h c _ (mem_uc main_arg2 (by decide))).trans (V12_main_arg2 m (outs m) c),
     (h c _ (mem_uc main_arg3 (by decide))).trans (V12_main_arg3 m (outs m) c),
     (h c _ (mem_uc main_arg4 (by decide))).trans (V12_main_arg4 m (outs m) c),
     (h c _ (mem_uc main_arg5 (by decide))).trans (V12_main_arg5 m (outs m) c)⟩) (run_all m ρ)

end Cert.KernelIdeal.Hand

end
-- ==== Proof.Spec.lean ====
/-
  What the two programs compute, as functions of the six argument arrays, over the extended reals.

  The layer is one round of message passing on a graph of 100000 nodes and 1250000 edges with 64 features:
  edge e carries the feature row of its source node scaled by the edge's weight,
      msg e k = h (src e) k * w e,
  node n sums the messages of the edges that point at it,
      agg n k = sum over the edges e with dst e = n of msg e k,
  and the output is the linear map of that sum,
      out n d = (sum over k of agg n k * W d k) + b d.
  `outS` is this function; both programs are proved equal to it.

  The kernel forms the same numbers without indexing: it compares node ids with a running lane number to make a 0/1
  matrix and multiplies by it.  `hot` is that matrix's entry, and `msgRaw` / `outRaw` are the kernel's sums as it
  forms them (over node blocks of 4096 ids and edge blocks of 2000 edges); `padH`, `col`, `row` are the layouts its
  host side prepares (the node table padded with 2400 zero rows, the id vectors as columns, the bias as a row).
-/
import Idealize.ShloMosaic.PureOps.Ideal
import Idealize.ShloMosaic.Lib.ValueIdx

noncomputable section

open scoped BigOperators

namespace Cert.Spec

open Idealize.ShloMosaic Idealize.ShloMosaic.ValueIdx

/-- The node features [100000, 64]; the same padded to [102400, 64]; the edge columns [1250000, 1]; the edge vectors
    [1250000]; the messages [1250000, 64]; the weight matrix [64, 64]; the bias [64] and as a row [1, 64]. -/
abbrev SH : Shape := ⟨2, ![100000, 64]⟩
abbrev SHP : Shape := ⟨2, ![102400, 64]⟩
abbrev SE1 : Shape := ⟨2, ![1250000, 1]⟩
abbrev SE : Shape := ⟨1, ![1250000]⟩
abbrev SM : Shape := ⟨2, ![1250000, 64]⟩
abbrev SW : Shape := ⟨2, ![64, 64]⟩
abbrev SB : Shape := ⟨1, ![64]⟩
abbrev SB2 : Shape := ⟨2, ![1, 64]⟩

/-! ## The specification -/

/-- The node a 32-bit id names: the id read as a signed integer, brought into [0, 99999]. -/
def node (x : BitVec 32) : Fin 100000 := ⟨min x.toInt.toNat 99999, by omega⟩

/-- The message of edge `e` at feature `k`. -/
def msgS (h : SH.Idx → EReal) (w : SE1.Idx → EReal) (src : SE.Idx → BitVec 32) (e : Fin 1250000) (k : Fin 64) : EReal :=
  h (ix2 (node (src (ix1 e))) k) * w (ix2 e (0 : Fin 1))

/-- The sum of the messages of the edges whose destination id, read signed, is node `n`. -/
def aggS (h : SH.Idx → EReal) (w : SE1.Idx → EReal) (src dst : SE.Idx → BitVec 32) (n : Fin 100000) (k : Fin 64) : EReal :=
  ∑ e : Fin 1250000, if (dst (ix1 e)).toInt = (n.val : ℤ) then msgS h w src e k else 0

/-- The layer's output. -/
def outS (h : SH.Idx → EReal) (w : SE1.Idx → EReal) (src dst : SE.Idx → BitVec 32) (W : SW.Idx → EReal) (b : SB.Idx → EReal) :
    SH.Idx → EReal :=
  fun i => (∑ k : Fin 64, aggS h w src dst (i 0) k * W (ix2 (i 1) k)) + b (ix1 (i 1))

/-! ## The kernel's sums, as it forms them -/

/-- The 0/1 entry the kernel compares its way to: 1 when the id `x` less the block start `base` is the lane number
    `lane` (all as 32-bit words), else 0. -/
def hot (x : BitVec 32) (base lane : Nat) : EReal :=
  if x - BitVec.ofNat 32 base = BitVec.ofNat 32 lane then 1 else 0

/-- The first call's result: for edge `e` the rows of the padded node table picked out by the 0/1 entries, summed over
    the 25 node blocks of 4096 ids, then scaled by the edge's weight. -/
def msgRaw (src2 : SE1.Idx → BitVec 32) (w2 : SE1.Idx → EReal) (hb : SHP.Idx → EReal) : SM.Idx → EReal :=
  fun i => (∑ s : Fin 25, ∑ n : Fin 4096,
      hot (src2 (ix2 (i 0) (0 : Fin 1))) (4096 * s.val) n.val * hb (ix2 (⟨4096 * s.val + n.val, by omega⟩ : Fin 102400) (i 1)))
    * w2 (ix2 (i 0) (0 : Fin 1))

/-- The second call's accumulator for node block `nb`, row `j`: the messages picked out by the 0/1 entries, summed
    over the 625 edge blocks of 2000 edges. -/
def aggRaw (dst2 : SE1.Idx → BitVec 32) (msg : SM.Idx → EReal) (nb : Fin 25) (j : Fin 4096) (k : Fin 64) : EReal :=
  ∑ eb : Fin 625, ∑ r : Fin 2000,
    hot (dst2 (ix2 (⟨2000 * eb.val + r.val, by omega⟩ : Fin 1250000) (0 : Fin 1))) (4096 * nb.val) j.val
      * msg (ix2 (⟨2000 * eb.val + r.val, by omega⟩ : Fin 1250000) k)

/-- The second call's result over the padded node range: row `4096 * nb + j` is the accumulator times the weight
    matrix transposed, plus the bias row. -/
def outRaw (dst2 : SE1.Idx → BitVec 32) (msg : SM.Idx → EReal) (W : SW.Idx → EReal) (b2 : SB2.Idx → EReal) : SHP.Idx → EReal :=
  fun i => (∑ k : Fin 64,
      aggRaw dst2 msg (⟨(i 0).val / 4096, by have h : (i 0).val < 102400 := (i 0).isLt; omega⟩ : Fin 25) (⟨(i 0).val % 4096, Nat.mod_lt _ (by decide)⟩ : Fin 4096) k
        * W (ix2 (i 1) k))
    + b2 (ix2 (0 : Fin 1) (i 1))

/-! ## The layouts the kernel's host side prepares -/

/-- A vector as a one-column array. -/
def col {α : Type} (x : SE.Idx → α) : SE1.Idx → α := fun i => x (ix1 (i 0))
/-- The bias as a one-row array. -/
def row (b : SB.Idx → EReal) : SB2.Idx → EReal := fun i => b (ix1 (i 1))
/-- The node table with 2400 zero rows below it. -/
def padH (h : SH.Idx → EReal) : SHP.Idx → EReal :=
  fun i => if hlt : (i 0).val < 100000 then h (ix2 (⟨(i 0).val, hlt⟩ : Fin 100000) (i 1)) else 0
/-- The first 100000 rows of a padded result. -/
def topRows (x : SHP.Idx → EReal) : SH.Idx → EReal :=
  fun i => x (ix2 (⟨(i 0).val, by have h : (i 0).val < 100000 := (i 0).isLt; omega⟩ : Fin 102400) (i 1))

end Cert.Spec

end
-- ==== Proof.KI.Pay.lean ====
/-
  The kernel bodies' arithmetic, read at an index, over the extended reals.

  Each payload of the two kernel bodies is one vector expression.  Read at an output index (r, d) it is:
  the zero fill is 0; the accumulation step adds to the accumulator the sum, over the block's lane index, of a 0/1
  entry (the id word less the block start equals the lane number) times the other operand's row; the first call's
  last step scales the accumulator by the edge's weight; the second call's last step multiplies the accumulator by
  the weight matrix transposed and adds the bias row.
-/
import proofs.«406658_j68066641707589_1_alg».proof.Proof.Gen.KernelIdeal.Skeleton
import proofs.«406658_j68066641707589_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Layout: a column repeated along the rows -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Words: the block start, and the 0/1 entry -/

/-- The block start: block number `s` times 4096, as a 32-bit word. -/
theorem blockStart (s : Nat) : Scalar.muli (BitVec.ofNat 32 s) 4096#32 = BitVec.ofNat 32 (4096 * s) := by
  show BitVec.ofNat 32 s * BitVec.ofNat 32 4096 = _
  rw [← BitVec.ofNat_mul, Nat.mul_comm]

/-- The comparison bit, widened to a word and read as a signed integer, is 1 when the two words are equal and 0
    otherwise. -/
theorem entry_eq (a b : BitVec 32) :
    FloatOps.sitofp (F := Ideal) .f32 ((IntOp.cmpi .eq a b).setWidth 32) = (if a = b then (1 : EReal) else 0) := by
  have hs : ∀ c : BitVec 32, FloatOps.sitofp (F := Ideal) .f32 c = ((c.toInt : ℝ) : EReal) := fun _ => rfl
  rw [hs]
  by_cases h : a = b
  · have hc : IntOp.cmpi .eq a b = 1#1 := by simp [IntOp.cmpi, h]
    have h1 : ((1#1 : BitVec 1).setWidth 32).toInt = 1 := by decide
    rw [hc, if_pos h, h1]; simp
  · have hb : (a == b) = false := beq_eq_false_iff_ne.mpr h
    have hc : IntOp.cmpi .eq a b = 0#1 := by
      show BitVec.ofBool (a == b) = 0#1
      rw [hb]; rfl
    have h0 : ((0#1 : BitVec 1).setWidth 32).toInt = 0 := by decide
    rw [hc, if_neg h, h0]; simp

/-! ## The 0/1 matrix both accumulation steps multiply by -/

/-- The 0/1 matrix as the bodies form it: the id column less the block start, repeated along the lanes, compared with
    the lane number repeated along the rows; the bit widened, read as an integer, and kept as a float. -/
def oneHot (s : Nat) (v4 : IVec S2000x1 32) : FVec Ideal S2000x4096 .bf16 :=
  truncf .bf16 (sitofp .f32 (extui 32 (cmpi .eq
    (broadcastTo S2000x4096 (subi (shapeCast S2000x1 v4 shapeCasts_S2000x1_S2000x1)
      (broadcast S2000x1 (Scalar.muli (BitVec.ofNat 32 s) 4096#32))) broadcasts_S2000x1_S2000x4096)
    (broadcastTo S2000x4096 (iota .tc S1x4096 32 [1] iota_S1x4096_d1_w32) broadcasts_S1x4096_S2000x4096)) natLt_1_32)) bitsLt_bf16_f32

/-- Its entry at row `r`, lane `n`. -/
theorem oneHot_apply (s : Nat) (v4 : IVec S2000x1 32) (r : Fin 2000) (n : Fin 4096) :
    oneHot s v4 (ix2 r n) = Cert.Spec.hot (v4 (ix2 r (0 : Fin 1))) (4096 * s) n.val := by
  have h1 : oneHot s v4 (ix2 r n) = FloatOps.sitofp (F := Ideal) .f32 ((IntOp.cmpi .eq
      (broadcastTo S2000x4096 (subi (shapeCast S2000x1 v4 shapeCasts_S2000x1_S2000x1)
        (broadcast S2000x1 (Scalar.muli (BitVec.ofNat 32 s) 4096#32))) broadcasts_S2000x1_S2000x4096 (ix2 r n))
      (broadcastTo S2000x4096 (iota .tc S1x4096 32 [1] iota_S1x4096_d1_w32) broadcasts_S1x4096_S2000x4096 (ix2 r n))).setWidth 32) := rfl
  rw [h1, broadcastTo_a1_ab_apply, broadcastTo_1b_ab_apply, entry_eq, iota_single_apply, shapeCast_self, blockStart]
  rfl

/-! ## The three products, read at an index -/

theorem lhs_mm1_0 (i : S2000x64.Idx) (q : dot_S2000x4096_S4096x64_S2000x64_1_0_0_1_n_n.contr.Idx) :
    (dot_S2000x4096_S4096x64_S2000x64_1_0_0_1_n_n.lhsIdx i q 0).val = (i 0).val := by
  unfold DotDims.lhsIdx
  rw [dif_neg (show ¬(0 : Fin S2000x4096.rank) ∈ dot_S2000x4096_S4096x64_S2000x64_1_0_0_1_n_n.lhsBatch by decide), dif_pos (show (0 : Fin S2000x4096.rank) ∈ dot_S2000x4096_S4096x64_S2000x64_1_0_0_1_n_n.lhsNonContracting by decide)]
  rfl
theorem lhs_mm1_1 (i : S2000x64.Idx) (q : dot_S2000x4096_S4096x64_S2000x64_1_0_0_1_n_n.contr.Idx) :
    (dot_S2000x4096_S4096x64_S2000x64_1_0_0_1_n_n.lhsIdx i q 1).val = (q ⟨0, by decide⟩).val :=
  dot_S2000x4096_S4096x64_S2000x64_1_0_0_1_n_n.lhsIdx_val_of_single rfl i q
theorem rhs_mm1_0 (i : S2000x64.Idx) (q : dot_S2000x4096_S4096x64_S2000x64_1_0_0_1_n_n.contr.Idx) :
    (dot_S2000x4096_S4096x64_S2000x64_1_0_0_1_n_n.rhsIdx i q 0).val = (q ⟨0, by decide⟩).val :=
  dot_S2000x4096_S4096x64_S2000x64_1_0_0_1_n_n.rhsIdx_val_of_single rfl i q
theorem rhs_mm1_1 (i : S2000x64.Idx) (q : dot_S2000x4096_S4096x64_S2000x64_1_0_0_1_n_n.contr.Idx) :
    (dot_S2000x4096_S4096x64_S2000x64_1_0_0_1_n_n.rhsIdx i q 1).val = (i 1).val := by
  unfold DotDims.rhsIdx
  rw [dif_neg (show ¬(1 : Fin S4096x64.rank) ∈ dot_S2000x4096_S4096x64_S2000x64_1_0_0_1_n_n.rhsBatch by decide), dif_pos (show (1 : Fin S4096x64.rank) ∈ dot_S2000x4096_S4096x64_S2000x64_1_0_0_1_n_n.rhsNonContracting by decide)]
  rfl

/-- The first call's product: rows of the 0/1 matrix against the columns of the node block. -/
theorem mm1_apply (x : FVec Ideal S2000x4096 .bf16) (y : FVec Ideal S4096x64 .bf16) (p : Fin 2000) (c : Fin 64) :
    matmul dot_S2000x4096_S4096x64_S2000x64_1_0_0_1_n_n none x y (constant (F := Ideal) S2000x64 .f32 0x00000000#32) (ix2 p c)
      = ∑ k : Fin 4096, x (ix2 p k) * y (ix2 k c) := by
  simp only [matmul]
  refine (Ideal.matmul_constant_zero_apply dot_S2000x4096_S4096x64_S2000x64_1_0_0_1_n_n none x y (ix2 p c)).trans ?_
  rw [← Equiv.sum_comp (contrEquiv1 dot_S2000x4096_S4096x64_S2000x64_1_0_0_1_n_n 4096 rfl rfl).symm]
  refine Finset.sum_congr rfl fun k _ => ?_
  have hk := contrEquiv1_symm_val dot_S2000x4096_S4096x64_S2000x64_1_0_0_1_n_n 4096 rfl rfl k
  have el : dot_S2000x4096_S4096x64_S2000x64_1_0_0_1_n_n.lhsIdx (ix2 p c) ((contrEquiv1 dot_S2000x4096_S4096x64_S2000x64_1_0_0_1_n_n 4096 rfl rfl).symm k) = ix2 p k := funext fun a => Fin.ext (by
    match a with
    | ⟨0, _⟩ => exact lhs_mm1_0 _ _
    | ⟨1, _⟩ => exact (lhs_mm1_1 _ _).trans hk)
  have er : dot_S2000x4096_S4096x64_S2000x64_1_0_0_1_n_n.rhsIdx (ix2 p c) ((contrEquiv1 dot_S2000x4096_S4096x64_S2000x64_1_0_0_1_n_n 4096 rfl rfl).symm k) = ix2 k c := funext fun a => Fin.ext (by
    match a with
    | ⟨0, _⟩ => exact (rhs_mm1_0 _ _).trans hk
    | ⟨1, _⟩ => exact rhs_mm1_1 _ _)
  rw [el, er]

theorem lhs_mm2_0 (i : S4096x64.Idx) (q : dot_S2000x4096_S2000x64_S4096x64_0_0_1_1_n_n.contr.Idx) :
    (dot_S2000x4096_S2000x64_S4096x64_0_0_1_1_n_n.lhsIdx i q 0).val = (q ⟨0, by decide⟩).val :=
  dot_S2000x4096_S2000x64_S4096x64_0_0_1_1_n_n.lhsIdx_val_of_single rfl i q
theorem lhs_mm2_1 (i : S4096x64.Idx) (q : dot_S2000x4096_S2000x64_S4096x64_0_0_1_1_n_n.contr.Idx) :
    (dot_S2000x4096_S2000x64_S4096x64_0_0_1_1_n_n.lhsIdx i q 1).val = (i 0).val := by
  unfold DotDims.lhsIdx
  rw [dif_neg (show ¬(1 : Fin S2000x4096.rank) ∈ dot_S2000x4096_S2000x64_S4096x64_0_0_1_1_n_n.lhsBatch by decide), dif_pos (show (1 : Fin S2000x4096.rank) ∈ dot_S2000x4096_S2000x64_S4096x64_0_0_1_1_n_n.lhsNonContracting by decide)]
  rfl
theorem rhs_mm2_0 (i : S4096x64.Idx) (q : dot_S2000x4096_S2000x64_S4096x64_0_0_1_1_n_n.contr.Idx) :
    (dot_S2000x4096_S2000x64_S4096x64_0_0_1_1_n_n.rhsIdx i q 0).val = (q ⟨0, by decide⟩).val :=
  dot_S2000x4096_S2000x64_S4096x64_0_0_1_1_n_n.rhsIdx_val_of_single rfl i q
theorem rhs_mm2_1 (i : S4096x64.Idx) (q : dot_S2000x4096_S2000x64_S4096x64_0_0_1_1_n_n.contr.Idx) :
    (dot_S2000x4096_S2000x64_S4096x64_0_0_1_1_n_n.rhsIdx i q 1).val = (i 1).val := by
  unfold DotDims.rhsIdx
  rw [dif_neg (show ¬(1 : Fin S2000x64.rank) ∈ dot_S2000x4096_S2000x64_S4096x64_0_0_1_1_n_n.rhsBatch by decide), dif_pos (show (1 : Fin S2000x64.rank) ∈ dot_S2000x4096_S2000x64_S4096x64_0_0_1_1_n_n.rhsNonContracting by decide)]
  rfl

/-- The second call's product: columns of the 0/1 matrix against the columns of the message block. -/
theorem mm2_apply (x : FVec Ideal S2000x4096 .bf16) (y : FVec Ideal S2000x64 .bf16) (p : Fin 4096) (c : Fin 64) :
    matmul dot_S2000x4096_S2000x64_S4096x64_0_0_1_1_n_n none x y (constant (F := Ideal) S4096x64 .f32 0x00000000#32) (ix2 p c)
      = ∑ k : Fin 2000, x (ix2 k p) * y (ix2 k c) := by
  simp only [matmul]
  refine (Ideal.matmul_constant_zero_apply dot_S2000x4096_S2000x64_S4096x64_0_0_1_1_n_n none x y (ix2 p c)).trans ?_
  rw [← Equiv.sum_comp (contrEquiv1 dot_S2000x4096_S2000x64_S4096x64_0_0_1_1_n_n 2000 rfl rfl).symm]
  refine Finset.sum_congr rfl fun k _ => ?_
  have hk := contrEquiv1_symm_val dot_S2000x4096_S2000x64_S4096x64_0_0_1_1_n_n 2000 rfl rfl k
  have el : dot_S2000x4096_S2000x64_S4096x64_0_0_1_1_n_n.lhsIdx (ix2 p c) ((contrEquiv1 dot_S2000x4096_S2000x64_S4096x64_0_0_1_1_n_n 2000 rfl rfl).symm k) = ix2 k p := funext fun a => Fin.ext (by
    match a with
    | ⟨0, _⟩ => exact (lhs_mm2_0 _ _).trans hk
    | ⟨1, _⟩ => exact lhs_mm2_1 _ _)
  have er : dot_S2000x4096_S2000x64_S4096x64_0_0_1_1_n_n.rhsIdx (ix2 p c) ((contrEquiv1 dot_S2000x4096_S2000x64_S4096x64_0_0_1_1_n_n 2000 rfl rfl).symm k) = ix2 k c := funext fun a => Fin.ext (by
    match a with
    | ⟨0, _⟩ => exact (rhs_mm2_0 _ _).trans hk
    | ⟨1, _⟩ => exact rhs_mm2_1 _ _)
  rw [el, er]

theorem lhs_mm3_0 (i : S4096x64.Idx) (q : dot_S4096x64_S64x64_S4096x64_1_1_0_0_n_n.contr.Idx) :
    (dot_S4096x64_S64x64_S4096x64_1_1_0_0_n_n.lhsIdx i q 0).val = (i 0).val := by
  unfold DotDims.lhsIdx
  rw [dif_neg (show ¬(0 : Fin S4096x64.rank) ∈ dot_S4096x64_S64x64_S4096x64_1_1_0_0_n_n.lhsBatch by decide), dif_pos (show (0 : Fin S4096x64.rank) ∈ dot_S4096x64_S64x64_S4096x64_1_1_0_0_n_n.lhsNonContracting by decide)]
  rfl
theorem lhs_mm3_1 (i : S4096x64.Idx) (q : dot_S4096x64_S64x64_S4096x64_1_1_0_0_n_n.contr.Idx) :
    (dot_S4096x64_S64x64_S4096x64_1_1_0_0_n_n.lhsIdx i q 1).val = (q ⟨0, by decide⟩).val :=
  dot_S4096x64_S64x64_S4096x64_1_1_0_0_n_n.lhsIdx_val_of_single rfl i q
theorem rhs_mm3_0 (i : S4096x64.Idx) (q : dot_S4096x64_S64x64_S4096x64_1_1_0_0_n_n.contr.Idx) :
    (dot_S4096x64_S64x64_S4096x64_1_1_0_0_n_n.rhsIdx i q 0).val = (i 1).val := by
  unfold DotDims.rhsIdx
  rw [dif_neg (show ¬(0 : Fin S64x64.rank) ∈ dot_S4096x64_S64x64_S4096x64_1_1_0_0_n_n.rhsBatch by decide), dif_pos (show (0 : Fin S64x64.rank) ∈ dot_S4096x64_S64x64_S4096x64_1_1_0_0_n_n.rhsNonContracting by decide)]
  rfl
theorem rhs_mm3_1 (i : S4096x64.Idx) (q : dot_S4096x64_S64x64_S4096x64_1_1_0_0_n_n.contr.Idx) :
    (dot_S4096x64_S64x64_S4096x64_1_1_0_0_n_n.rhsIdx i q 1).val = (q ⟨0, by decide⟩).val :=
  dot_S4096x64_S64x64_S4096x64_1_1_0_0_n_n.rhsIdx_val_of_single rfl i q

/-- The second call's last product: rows of the accumulator against the rows of the weight matrix. -/
theorem mm3_apply (x : FVec Ideal S4096x64 .f32) (y : FVec Ideal S64x64 .f32) (p : Fin 4096) (c : Fin 64) :
    matmul dot_S4096x64_S64x64_S4096x64_1_1_0_0_n_n (some .fp32) x y (constant (F := Ideal) S4096x64 .f32 0x00000000#32) (ix2 p c)
      = ∑ k : Fin 64, x (ix2 p k) * y (ix2 c k) := by
  simp only [matmul]
  refine (Ideal.matmul_constant_zero_apply dot_S4096x64_S64x64_S4096x64_1_1_0_0_n_n (some .fp32) x y (ix2 p c)).trans ?_
  rw [← Equiv.sum_comp (contrEquiv1 dot_S4096x64_S64x64_S4096x64_1_1_0_0_n_n 64 rfl rfl).symm]
  refine Finset.sum_congr rfl fun k _ => ?_
  have hk := contrEquiv1_symm_val dot_S4096x64_S64x64_S4096x64_1_1_0_0_n_n 64 rfl rfl k
  have el : dot_S4096x64_S64x64_S4096x64_1_1_0_0_n_n.lhsIdx (ix2 p c) ((contrEquiv1 dot_S4096x64_S64x64_S4096x64_1_1_0_0_n_n 64 rfl rfl).symm k) = ix2 p k := funext fun a => Fin.ext (by
    match a with
    | ⟨0, _⟩ => exact lhs_mm3_0 _ _
    | ⟨1, _⟩ => exact (lhs_mm3_1 _ _).trans hk)
  have er : dot_S4096x64_S64x64_S4096x64_1_1_0_0_n_n.rhsIdx (ix2 p c) ((contrEquiv1 dot_S4096x64_S64x64_S4096x64_1_1_0_0_n_n 64 rfl rfl).symm k) = ix2 c k := funext fun a => Fin.ext (by
    match a with
    | ⟨0, _⟩ => exact rhs_mm3_0 _ _
    | ⟨1, _⟩ => exact (rhs_mm3_1 _ _).trans hk)
  rw [el, er]

/-! ## The six payloads -/

/-- The first call's zero fill. -/
theorem k0_pay1_apply (y : S2000x64.Idx) : k0_pay1 (F := Ideal) y = 0 := by
  have h : k0_pay1 (F := Ideal) y = shapeCast S2000x64 (broadcast S2000x64 (Scalar.ofBits (F := Ideal) .f32 0x00000000#32)) shapeCasts_S2000x64_S2000x64 y := rfl
  rw [h, shapeCast_self]
  exact Ideal.ofBits_zero_f32

/-- The first call's accumulation step. -/
theorem k0_pay2_apply (i : grid0.Coords) (v4 : Vec Ideal S2000x1 .i32) (v15 : Vec Ideal S4096x64 .bf16) (v18 : Vec Ideal S2000x64 .f32) (r : Fin 2000) (d : Fin 64) :
    k0_pay2 i v4 v15 v18 (ix2 r d) = v18 (ix2 r d) + ∑ n : Fin 4096, Cert.Spec.hot (v4 (ix2 r (0 : Fin 1))) (4096 * (i 1).val) n.val * v15 (ix2 n d) := by
  have h : k0_pay2 i v4 v15 v18 (ix2 r d) = shapeCast S2000x64 (addf v18 (matmul dot_S2000x4096_S4096x64_S2000x64_1_0_0_1_n_n none (oneHot (i 1).val v4)
      (shapeCast S4096x64 v15 shapeCasts_S4096x64_S4096x64) (constant (F := Ideal) S2000x64 .f32 0x00000000#32))) shapeCasts_S2000x64_S2000x64 (ix2 r d) := rfl
  rw [h, shapeCast_self, shapeCast_self, addf_apply, mm1_apply]
  exact congrArg (v18 (ix2 r d) + ·) (Finset.sum_congr rfl fun n _ => by rw [oneHot_apply])

/-- The first call's last step: the accumulator scaled by the edge's weight. -/
theorem k0_pay3_apply (v26 : Vec Ideal S2000x64 .f32) (v27 : Vec Ideal S2000x1 .f32) (r : Fin 2000) (d : Fin 64) :
    k0_pay3 v26 v27 (ix2 r d) = v26 (ix2 r d) * v27 (ix2 r (0 : Fin 1)) := by
  have h : k0_pay3 v26 v27 (ix2 r d) = v26 (ix2 r d) * broadcastTo S2000x64 (shapeCast S2000x1 v27 shapeCasts_S2000x1_S2000x1) broadcasts_S2000x1_S2000x64 (ix2 r d) := rfl
  rw [h, broadcastTo_a1_ab_apply, shapeCast_self]

/-- The second call's zero fill. -/
theorem k1_pay1_apply (y : S4096x64.Idx) : k1_pay1 (F := Ideal) y = 0 := by
  have h : k1_pay1 (F := Ideal) y = shapeCast S4096x64 (broadcast S4096x64 (Scalar.ofBits (F := Ideal) .f32 0x00000000#32)) shapeCasts_S4096x64_S4096x64 y := rfl
  rw [h, shapeCast_self]
  exact Ideal.ofBits_zero_f32

/-- The second call's accumulation step. -/
theorem k1_pay2_apply (i : grid1.Coords) (v4 : Vec Ideal S2000x1 .i32) (v15 : Vec Ideal S2000x64 .bf16) (v18 : Vec Ideal S4096x64 .f32) (j : Fin 4096) (d : Fin 64) :
    k1_pay2 i v4 v15 v18 (ix2 j d) = v18 (ix2 j d) + ∑ r : Fin 2000, Cert.Spec.hot (v4 (ix2 r (0 : Fin 1))) (4096 * (i 0).val) j.val * v15 (ix2 r d) := by
  have h : k1_pay2 i v4 v15 v18 (ix2 j d) = shapeCast S4096x64 (addf v18 (matmul dot_S2000x4096_S2000x64_S4096x64_0_0_1_1_n_n none (oneHot (i 0).val v4)
      (shapeCast S2000x64 v15 shapeCasts_S2000x64_S2000x64) (constant (F := Ideal) S4096x64 .f32 0x00000000#32))) shapeCasts_S4096x64_S4096x64 (ix2 j d) := rfl
  rw [h, shapeCast_self, shapeCast_self, addf_apply, mm2_apply]
  exact congrArg (v18 (ix2 j d) + ·) (Finset.sum_congr rfl fun r _ => by rw [oneHot_apply])

/-- The second call's last step: the accumulator times the weight matrix transposed, plus the bias row. -/
theorem k1_pay3_apply (v26 : Vec Ideal S4096x64 .f32) (v27 : Vec Ideal S64x64 .f32) (v29 : Vec Ideal S1x64 .f32) (j : Fin 4096) (d : Fin 64) :
    k1_pay3 v26 v27 v29 (ix2 j d) = (∑ k : Fin 64, v26 (ix2 j k) * v27 (ix2 d k)) + v29 (ix2 (0 : Fin 1) d) := by
  have h : k1_pay3 v26 v27 v29 (ix2 j d) = matmul dot_S4096x64_S64x64_S4096x64_1_1_0_0_n_n (some .fp32) v26 v27 (constant (F := Ideal) S4096x64 .f32 0x00000000#32) (ix2 j d)
      + broadcastTo S4096x64 (shapeCast S1x64 v29 shapeCasts_S1x64_S1x64) broadcasts_S1x64_S4096x64 (ix2 j d) := rfl
  rw [h, mm3_apply, broadcastTo_1b_ab_apply, shapeCast_self]

end Cert.KernelIdeal.Pay

end
-- ==== Proof.KI.V0.lean ====
/-
  Region 0 (the gather-and-scale call): the value its output array holds after the region, as one function of the
  arrays the region is entered with, over the extended reals.

  Each control case's stores are read back as the body's vector expressions (the reset, the add of one node block's
  one-hot product, the scaling by the edge weight).  Over the 25 points of one edge block the accumulator is then the
  sum of the 25 node blocks' products; the point at the last reduction coordinate scales it and writes the block
  back, and these blocks tile the output array.
-/
import proofs.«406658_j68066641707589_1_alg».proof.Proof.KI.R0Frame
import proofs.«406658_j68066641707589_1_alg».proof.Proof.KI.Pay
import proofs.«406658_j68066641707589_1_alg».proof.Proof.Spec
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand.V0
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Pay

section Pieces

variable {F : FTy → Type} [FloatOps F]

theorem hz0 : (![0, 0] : Fin 2 → Nat) = fun _ => 0 := funext fun a => by fin_cases a <;> rfl

/-- At a middle reduction coordinate the one store into the accumulator leaves the add's result. -/
theorem accMid0_eq (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : ¬last0 i)
    (x0 : Vec F S2000x1 .i32) (x1 : Vec F S2000x1 .f32) (x2 : Vec F S4096x64 .bf16) (xs : Vec F S2000x64 .f32) :
    accMid0 c i arg2 harg2 arg3 harg3 arg4 harg4 arg5 harg5 arg6 harg6 hc0 hc1 x0 x1 x2 xs = k0_pay2 i x0 x2 xs := by
  unfold accMid0
  rw [View.read_writes_eq_canon _ _ _ (accMid0_cover c i arg2 harg2 arg3 harg3 arg4 harg4 arg5 harg5 arg6 harg6 hc0 hc1 x0 x1 x2 xs)]
  unfold runMid0
  dsimp only
  sl_unfold_words
  rw [View.canon_unit_zero hz0]
  simp only [View.readAt_eq_ld, harg2.read_unread, harg3.read_unread, harg4.read_unread, harg6.read_unread, View.ld_unit_zero (S := S2000x1) hz0, View.ld_unit_zero (S := S4096x64) hz0, View.ld_unit_zero (S := S2000x64) hz0]

/-- At the last reduction coordinate the accumulator is left as at a middle one. -/
theorem accLast0_eq (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : last0 i)
    (x0 : Vec F S2000x1 .i32) (x1 : Vec F S2000x1 .f32) (x2 : Vec F S4096x64 .bf16) (xs : Vec F S2000x64 .f32) :
    accLast0 c i arg2 harg2 arg3 harg3 arg4 harg4 arg5 harg5 arg6 harg6 hc0 hc1 x0 x1 x2 xs = k0_pay2 i x0 x2 xs := by
  unfold accLast0
  rw [View.read_writes_eq_canon _ _ _ (accLast0_cover c i arg2 harg2 arg3 harg3 arg4 harg4 arg5 harg5 arg6 harg6 hc0 hc1 x0 x1 x2 xs)]
  unfold runLast0
  dsimp only
  sl_unfold_words
  rw [View.canon_unit_zero hz0]
  simp only [View.readAt_eq_ld, harg2.read_unread, harg3.read_unread, harg4.read_unread, harg6.read_unread, View.ld_unit_zero (S := S2000x1) hz0, View.ld_unit_zero (S := S4096x64) hz0, View.ld_unit_zero (S := S2000x64) hz0]

/-- Where the reduction coordinate is 0 the accumulator is reset, read back and added to. -/
theorem accFirst0_eq (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : first0 i) (hc1 : ¬last0 i)
    (x0 : Vec F S2000x1 .i32) (x1 : Vec F S2000x1 .f32) (x2 : Vec F S4096x64 .bf16) :
    accFirst0 c i arg2 harg2 arg3 harg3 arg4 harg4 arg5 harg5 arg6 harg6 hc0 hc1 x0 x1 x2 = k0_pay2 i x0 x2 (k0_pay1 (F := F)) := by
  unfold accFirst0
  rw [View.read_writes_eq_canon _ _ _ (accFirst0_cover c i arg2 harg2 arg3 harg3 arg4 harg4 arg5 harg5 arg6 harg6 hc0 hc1 x0 x1 x2)]
  unfold runFirst0
  dsimp only
  sl_unfold_words
  rw [View.canon_cons_unit_zero (S := S2000x64) hz0, View.readCov_unit_zero (S := S2000x64) _ hz0]
  simp only [View.readAt_eq_ld, harg2.read_unread, harg3.read_unread, harg4.read_unread, harg6.read_unread, View.ld_unit_zero (S := S2000x1) hz0, View.ld_unit_zero (S := S4096x64) hz0, View.ld_unit_zero (S := S2000x64) hz0]

/-- At the last reduction coordinate the output block's buffer receives the accumulator scaled by the weights. -/
theorem outLast0_eq (c : Dev nD) (i : grid0.Coords) (arg2 : Memref sig .tc .vmem S2000x1 .i32) (harg2 : arg2.IsWhole) (arg3 : Memref sig .tc .vmem S2000x1 .f32) (harg3 : arg3.IsWhole) (arg4 : Memref sig .tc .vmem S4096x64 .bf16) (harg4 : arg4.IsWhole) (arg5 : Memref sig .tc .vmem S2000x64 .bf16) (harg5 : arg5.IsWhole) (arg6 : Memref sig .tc .vmem S2000x64 .f32) (harg6 : arg6.IsWhole) (hc0 : ¬first0 i) (hc1 : last0 i)
    (x0 : Vec F S2000x1 .i32) (x1 : Vec F S2000x1 .f32) (x2 : Vec F S4096x64 .bf16) (xs : Vec F S2000x64 .f32) :
    outLast0 c i arg2 harg2 arg3 harg3 arg4 harg4 arg5 harg5 arg6 harg6 hc0 hc1 x0 x1 x2 xs = k0_pay3 (k0_pay2 i x0 x2 xs) x1 := by
  unfold outLast0
  rw [View.read_writes_eq_canon _ _ _ (outLast0_cover c i arg2 harg2 arg3 harg3 arg4 harg4 arg5 harg5 arg6 harg6 hc0 hc1 x0 x1 x2 xs)]
  unfold runLast0
  dsimp only
  sl_unfold_words
  rw [View.canon_unit_zero hz0, View.readCov_unit_zero (S := S2000x64) _ hz0]
  simp only [View.readAt_eq_ld, harg2.read_unread, harg3.read_unread, harg4.read_unread, harg6.read_unread, View.ld_unit_zero (S := S2000x1) hz0, View.ld_unit_zero (S := S4096x64) hz0, View.ld_unit_zero (S := S2000x64) hz0]

end Pieces

/-! ## One point's addend, and the 25 points of an edge block -/

section Arith

variable (src : Cert.Spec.SE1.Idx → BitVec 32) (hb : Cert.Spec.SHP.Idx → EReal)

/-- What point n adds at row r, feature d: node block n % 25's 0/1 entries for edge 2000 (n / 25) + r times that
    block's rows of the padded node table. -/
def addend0 (n : ℕ) (r : Fin 2000) (d : Fin 64) : EReal :=
  ∑ k : Fin 4096,
    Cert.Spec.hot (src (ix2 (⟨(2000 * (n / 25) + r.val) % 1250000, Nat.mod_lt _ (by decide)⟩ : Fin 1250000) (0 : Fin 1))) (4096 * (n % 25)) k.val
      * hb (ix2 (⟨(4096 * (n % 25) + k.val) % 102400, Nat.mod_lt _ (by decide)⟩ : Fin 102400) d)

/-- The add at point n, over blocks that are the arrays read at the point's offsets, adds the point's addend. -/
theorem step_apply (i : grid0.Coords) (n : ℕ) (hn : n < 15625) (hi : (i 1).val = n % 25)
    (v4 : Vec Ideal S2000x1 .i32) (v15 : Vec Ideal S4096x64 .bf16) (acc : Vec Ideal S2000x64 .f32)
    (h4 : ∀ (r : Fin 2000) (e : Fin 1250000), e.val = 2000 * (n / 25) + r.val → v4 (ix2 r (0 : Fin 1)) = src (ix2 e (0 : Fin 1)))
    (h15 : ∀ (k : Fin 4096) (d : Fin 64) (m : Fin 102400), m.val = 4096 * (n % 25) + k.val → v15 (ix2 k d) = hb (ix2 m d))
    (r : Fin 2000) (d : Fin 64) :
    k0_pay2 i v4 v15 acc (ix2 r d) = acc (ix2 r d) + addend0 src hb n r d := by
  rw [k0_pay2_apply]
  congr 1
  unfold addend0
  refine Finset.sum_congr rfl fun k _ => ?_
  rw [hi, h4 r ⟨(2000 * (n / 25) + r.val) % 1250000, Nat.mod_lt _ (by decide)⟩ (by show _ % _ = _; omega),
    h15 k d ⟨(4096 * (n % 25) + k.val) % 102400, Nat.mod_lt _ (by decide)⟩ (by show _ % _ = _; omega)]

/-- The addends of the 25 points of edge block q are the 25 node blocks' products for edge 2000 q + r. -/
theorem sum_addend0 (q : ℕ) (hq : q < 625) (r : Fin 2000) (d : Fin 64) (e : Fin 1250000) (he : e.val = 2000 * q + r.val) :
    ∑ s ∈ Finset.range 25, addend0 src hb (25 * q + s) r d
      = ∑ s : Fin 25, ∑ n : Fin 4096,
          Cert.Spec.hot (src (ix2 e (0 : Fin 1))) (4096 * s.val) n.val * hb (ix2 (⟨4096 * s.val + n.val, by omega⟩ : Fin 102400) d) := by
  rw [Finset.sum_range]
  refine Finset.sum_congr rfl fun s _ => ?_
  unfold addend0
  refine Finset.sum_congr rfl fun k _ => ?_
  have h1 : (25 * q + s.val) / 25 = q := by omega
  have h2 : (25 * q + s.val) % 25 = s.val := by omega
  have e1 : (⟨(2000 * ((25 * q + s.val) / 25) + r.val) % 1250000, Nat.mod_lt _ (by decide)⟩ : Fin 1250000) = e :=
    Fin.ext (by show (2000 * ((25 * q + s.val) / 25) + r.val) % 1250000 = e.val; rw [h1, he]; omega)
  have e2 : (⟨(4096 * ((25 * q + s.val) % 25) + k.val) % 102400, Nat.mod_lt _ (by decide)⟩ : Fin 102400) = ⟨4096 * s.val + k.val, by omega⟩ :=
    Fin.ext (by show (4096 * ((25 * q + s.val) % 25) + k.val) % 102400 = 4096 * s.val + k.val; rw [h2]; omega)
  rw [e1, e2, h2]

end Arith

section Value

variable (V : (c : Dev nD) → (b : Ref sig .tc) → Buf (Elt Ideal) ((c : Thread nD τ).loc b)) (c : Dev nD)

/-! ## Where the blocks sit -/

/-- The windows' block indices and the reduction coordinate at point t, in closed form: edge block t / 25, node block
    t % 25, column block 0. -/
theorem idx_facts0 : ∀ t : Fin cfg0.N,
    win0_0.index t (0 : Fin 2) = t.val / 25 ∧ win0_0.index t (1 : Fin 2) = 0
    ∧ win0_1.index t (0 : Fin 2) = t.val / 25 ∧ win0_1.index t (1 : Fin 2) = 0
    ∧ win0_2.index t (0 : Fin 2) = t.val % 25 ∧ win0_2.index t (1 : Fin 2) = 0
    ∧ win0_3.index t (0 : Fin 2) = t.val / 25 ∧ win0_3.index t (1 : Fin 2) = 0
    ∧ ((grid0.coords t) 1).val = t.val % 25 :=
  (by decide +kernel : ∀ t : Fin grid0.N, _)

/-- Window 0's block at point t is rows 2000 (t / 25) … of the source-id column. -/
theorem iblk0_0_apply (t : Fin cfg0.N) (r : Fin 2000) (e : Fin 1250000) (he : e.val = 2000 * (t.val / 25) + r.val) :
    (iblk0 V c 0 t : Vec Ideal S2000x1 .i32) (ix2 r (0 : Fin 1)) = V c main_v3 (ix2 e (0 : Fin 1)) := by
  obtain ⟨h0, h1, -⟩ := idx_facts0 t
  unfold iblk0
  rw [View.read_apply]
  show V c main_v3 _ = V c main_v3 _
  congr 1
  funext a
  apply Fin.ext
  match a with
  | ⟨0, _⟩ => show win0_0.index t (0 : Fin 2) * 2000 + 1 * r.val = e.val; rw [h0, he]; omega
  | ⟨1, _⟩ => show win0_0.index t (1 : Fin 2) * 1 + 1 * 0 = 0; rw [h1]

/-- Window 1's block at point t is rows 2000 (t / 25) … of the edge-weight column. -/
theorem iblk0_1_apply (t : Fin cfg0.N) (r : Fin 2000) (e : Fin 1250000) (he : e.val = 2000 * (t.val / 25) + r.val) :
    (iblk0 V c 1 t : Vec Ideal S2000x1 .f32) (ix2 r (0 : Fin 1)) = V c main_v6 (ix2 e (0 : Fin 1)) := by
  obtain ⟨-, -, h0, h1, -⟩ := idx_facts0 t
  unfold iblk0
  rw [View.read_apply]
  show V c main_v6 _ = V c main_v6 _
  congr 1
  funext a
  apply Fin.ext
  match a with
  | ⟨0, _⟩ => show win0_1.index t (0 : Fin 2) * 2000 + 1 * r.val = e.val; rw [h0, he]; omega
  | ⟨1, _⟩ => show win0_1.index t (1 : Fin 2) * 1 + 1 * 0 = 0; rw [h1]

/-- Window 2's block at point t is rows 4096 (t % 25) … of the padded node table. -/
theorem iblk0_2_apply (t : Fin cfg0.N) (k : Fin 4096) (d : Fin 64) (n : Fin 102400) (hn : n.val = 4096 * (t.val % 25) + k.val) :
    (iblk0 V c 2 t : Vec Ideal S4096x64 .bf16) (ix2 k d) = V c main_v1 (ix2 n d) := by
  obtain ⟨-, -, -, -, h0, h1, -⟩ := idx_facts0 t
  unfold iblk0
  rw [View.read_apply]
  show V c main_v1 _ = V c main_v1 _
  congr 1
  funext a
  apply Fin.ext
  match a with
  | ⟨0, _⟩ => show win0_2.index t (0 : Fin 2) * 4096 + 1 * k.val = n.val; rw [h0, hn]; omega
  | ⟨1, _⟩ => show win0_2.index t (1 : Fin 2) * 64 + 1 * d.val = d.val; rw [h1]; omega

/-! ## The accumulator over an edge block's 25 points -/

/-- The accumulator after point n. -/
abbrev accAfter (n : ℕ) (hn : n < cfg0.N) : S2000x64.Idx → EReal := (outsAt0 V c n hn).2
/-- What the reset-and-add leaves at point n. -/
abbrev resetAt (n : ℕ) (hn : n < cfg0.N) : S2000x64.Idx → EReal :=
  k0_pay2 (grid0.coords ⟨n, hn⟩) (iblk0 V c 0 ⟨n, hn⟩) (iblk0 V c 2 ⟨n, hn⟩) (k0_pay1 (F := Ideal))
/-- What the add leaves at point n over the contents acc. -/
abbrev stepAt (n : ℕ) (hn : n < cfg0.N) (acc : S2000x64.Idx → EReal) : S2000x64.Idx → EReal :=
  k0_pay2 (grid0.coords ⟨n, hn⟩) (iblk0 V c 0 ⟨n, hn⟩) (iblk0 V c 2 ⟨n, hn⟩) acc

theorem acc_reset (n : ℕ) (h : n < cfg0.N) (h0 : n % 25 = 0) : accAfter V c n h = resetAt V c n h := by
  show (outsAt0 V c (⟨n, h⟩ : Fin cfg0.N).val (⟨n, h⟩ : Fin cfg0.N).isLt).2 = _
  rw [outsAt0_first V c ⟨n, h⟩ h0 (by show ¬n % 25 = 24; omega), accFirst0_eq]

theorem acc_step (n : ℕ) (h : n + 1 < cfg0.N) (h0 : ¬(n + 1) % 25 = 0) :
    accAfter V c (n + 1) h = stepAt V c (n + 1) h (accAfter V c n (Nat.lt_of_succ_lt h)) := by
  show (outsAt0 V c (⟨n + 1, h⟩ : Fin cfg0.N).val (⟨n + 1, h⟩ : Fin cfg0.N).isLt).2 = _
  by_cases h1 : (n + 1) % 25 = 24
  · rw [outsAt0_last V c ⟨n + 1, h⟩ h0 h1, accLast0_eq]
    rfl
  · rw [outsAt0_mid V c ⟨n + 1, h⟩ h0 h1, accMid0_eq]
    rfl

/-- The accumulator after point t is the fold over the points of t's edge block up to t. -/
theorem acc_fold (t : Fin cfg0.N) (h' : 25 * (t.val / 25) + t.val % 25 < cfg0.N) :
    accAfter V c t.val t.isLt = Pipeline.accAt (resetAt V c) (stepAt V c) (25 * (t.val / 25)) (t.val % 25) h' :=
  Pipeline.eq_accAt_of_mod (accAfter V c) 25 (resetAt V c) (stepAt V c) (acc_reset V c) (acc_step V c) (by decide) t.val t.isLt h'

/-- One step at point n, read at an index: the point's addend is added. -/
theorem stepAt_apply (n : ℕ) (h : n < cfg0.N) (acc : S2000x64.Idx → EReal) (r : Fin 2000) (d : Fin 64) :
    stepAt V c n h acc (ix2 r d) = acc (ix2 r d) + addend0 (V c main_v3) (V c main_v1) n r d := by
  have hN : cfg0.N = 15625 := N_0
  obtain ⟨-, -, -, -, -, -, -, -, hi⟩ := idx_facts0 ⟨n, h⟩
  exact step_apply (V c main_v3) (V c main_v1) (grid0.coords ⟨n, h⟩) n (hN ▸ h) hi _ _ acc
    (fun r e he => iblk0_0_apply V c ⟨n, h⟩ r e he) (fun k d m hm => iblk0_2_apply V c ⟨n, h⟩ k d m hm) r d

/-- The accumulator after point t, read at an index: the addends of t's edge block's points up to t. -/
theorem acc_apply (t : Fin cfg0.N) (r : Fin 2000) (d : Fin 64) :
    accAfter V c t.val t.isLt (ix2 r d)
      = ∑ s ∈ Finset.range (t.val % 25 + 1), addend0 (V c main_v3) (V c main_v1) (25 * (t.val / 25) + s) r d := by
  have hN : cfg0.N = 15625 := N_0
  have h' : 25 * (t.val / 25) + t.val % 25 < cfg0.N := by rw [Nat.div_add_mod]; exact t.isLt
  rw [acc_fold V c t h']
  have key := Pipeline.accAt_add_apply (ι := S2000x64.Idx) (β := EReal) (resetAt V c) (stepAt V c) (fun _ => 0)
    (fun n y => addend0 (V c main_v3) (V c main_v1) n (y 0) (y 1)) (25 * (t.val / 25)) 24
    (fun h y => by
      obtain ⟨r, d, rfl⟩ : ∃ (r : Fin 2000) (d : Fin 64), y = ix2 r d := ⟨y 0, y 1, eq_ix2 y⟩
      refine (stepAt_apply V c _ h _ r d).trans ?_
      rw [k0_pay1_apply])
    (fun n h acc y _ _ => by
      obtain ⟨r, d, rfl⟩ : ∃ (r : Fin 2000) (d : Fin 64), y = ix2 r d := ⟨y 0, y 1, eq_ix2 y⟩
      exact stepAt_apply V c n h acc r d)
    (t.val % 25) (by omega) h' (ix2 r d)
  rw [key, zero_add]

/-! ## The block written back, and the array -/

/-- The value of the region's output array: the kernel's sums of the three arrays the region is entered with. -/
abbrev G0 : Cert.Spec.SM.Idx → EReal := Cert.Spec.msgRaw (V c main_v3) (V c main_v6) (V c main_v1)

/-- At the last reduction coordinate the output block's buffer holds, at row r, the message of edge 2000 (t / 25) + r. -/
theorem out_apply (t : Fin cfg0.N) (h24 : t.val % 25 = 24) (r : Fin 2000) (d : Fin 64) (e : Fin 1250000)
    (he : e.val = 2000 * (t.val / 25) + r.val) :
    ((outsAt0 V c t.val t.isLt).1 : Vec Ideal S2000x64 .bf16) (ix2 r d) = G0 V c (ix2 e d) := by
  have hN : cfg0.N = 15625 := N_0
  have h0 : ¬t.val % 25 = 0 := by omega
  have hpair := outsAt0_last V c t h0 h24
  have h1 : (outsAt0 V c t.val t.isLt).1 = k0_pay3 (accAfter V c t.val t.isLt) (iblk0 V c 1 t) := by
    show _ = k0_pay3 (outsAt0 V c t.val t.isLt).2 (iblk0 V c 1 t)
    rw [hpair, outLast0_eq, accLast0_eq]
  have hr : t.val % 25 + 1 = 25 := by omega
  have hq : t.val / 25 < 625 := by have := t.isLt; omega
  rw [h1, k0_pay3_apply, acc_apply V c t r d, hr, iblk0_1_apply V c t r e he,
    sum_addend0 (V c main_v3) (V c main_v1) (t.val / 25) hq r d e he]
  rfl

/-- What a point at the last reduction coordinate writes back is its block of the value. -/
theorem flushed_eq0 (t : Fin cfg0.N) (hf : (cfg0.win 3).flush t = true) :
    (dat0 V c).flushed 3 t = ((cfg0.win 3).blk t).view.read (Elt Ideal) (G0 V c) := by
  have hN : cfg0.N = 15625 := N_0
  have h24 : t.val % 25 = 24 := (flush0_3 t).mp hf
  obtain ⟨-, -, -, -, -, -, i0, i1, -⟩ := idx_facts0 t
  show (cfg0.win 3).cut (grid0.coords t) ((dat0 V c).after 3 t) = _
  rw [after0_3]
  funext y
  have hr : (y 0).val < 2000 := (y 0).isLt
  have hd : (y 1).val < 64 := (y 1).isLt
  have hq : t.val / 25 < 625 := by have := t.isLt; omega
  rw [View.read_apply]
  have hx : (cfg0.win 3).xinj (grid0.coords t) y = ix2 (⟨(y 0).val, hr⟩ : Fin 2000) (⟨(y 1).val, hd⟩ : Fin 64) := by
    funext a; match a with | ⟨0, _⟩ => rfl | ⟨1, _⟩ => rfl
  show (outsAt0 V c t.val t.isLt).1 ((cfg0.win 3).xinj (grid0.coords t) y) = _
  rw [hx, out_apply V c t h24 ⟨(y 0).val, hr⟩ ⟨(y 1).val, hd⟩ ⟨2000 * (t.val / 25) + (y 0).val, by omega⟩ rfl]
  show G0 V c _ = G0 V c _
  congr 1
  funext a
  apply Fin.ext
  match a with
  | ⟨0, _⟩ => show 2000 * (t.val / 25) + (y 0).val = win0_3.index t (0 : Fin 2) * 2000 + 1 * (y 0).val; rw [i0]; omega
  | ⟨1, _⟩ => show (y 1).val = win0_3.index t (1 : Fin 2) * 64 + 1 * (y 1).val; rw [i1]; omega

/-- After the region the output array holds the kernel's sums: every row lies in the block of the point at the last
    reduction coordinate of its edge block. -/
theorem msg_final :
    (dat0 (F := Ideal) V c).arrAt 3 cfg0.N = Cert.Spec.msgRaw (V c main_v3) (V c main_v6) (V c main_v1) :=
  (dat0 V c).arrAt_eq_of_cover 3 (G0 V c) (flushed_eq0 V c) fun i => by
    have hN : cfg0.N = 15625 := N_0
    have h0 : (i 0).val < 1250000 := (i 0).isLt
    have h1 : (i 1).val < 64 := (i 1).isLt
    obtain ⟨t, ht⟩ : ∃ t : Fin cfg0.N, t.val = 25 * ((i 0).val / 2000) + 24 := ⟨⟨25 * ((i 0).val / 2000) + 24, by omega⟩, rfl⟩
    obtain ⟨-, -, -, -, -, -, i0, i1, -⟩ := idx_facts0 t
    refine ⟨t, (flush0_3 t).mpr (by omega), ?_⟩
    show i ∈ ((View.whole main_v8).slice (win0_3.rect t)).set
    rw [View.set_slice_whole, Rect.mem_set_unit]
    intro a
    match a with
    | ⟨0, _⟩ =>
      show win0_3.index t (0 : Fin 2) * 2000 ≤ (i 0).val ∧ (i 0).val < win0_3.index t (0 : Fin 2) * 2000 + 2000
      rw [i0]; omega
    | ⟨1, _⟩ =>
      show win0_3.index t (1 : Fin 2) * 64 ≤ (i 1).val ∧ (i 1).val < win0_3.index t (1 : Fin 2) * 64 + 64
      rw [i1]; omega

end Value

end Cert.KernelIdeal.Hand.V0
end
-- ==== Proof.KI.V1.lean ====
/-
  Region 1 (the scatter-sum-and-linear call): what its output array holds after the region, as one function of
  the arrays the region is entered with, over the extended reals.
-/
import proofs.«406658_j68066641707589_1_alg».proof.Proof.KI.R1Frame
import proofs.«406658_j68066641707589_1_alg».proof.Proof.KI.Pay
import proofs.«406658_j68066641707589_1_alg».proof.Proof.Spec
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand.V1
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

theorem hz2 : (![0, 0] : Fin 2 → Nat) = fun _ => 0 := funext fun a => by fin_cases a <;> rfl

/-! ## The found pieces, as the body's payloads -/

/-- At a middle reduction coordinate the one covering store leaves the add over what the accumulator held. -/
theorem accMid1_eq (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : ¬last1 i)
    (x0 : Vec F S2000x1 .i32) (x1 : Vec F S2000x64 .bf16) (x2 : Vec F S64x64 .f32) (x3 : Vec F S1x64 .f32) (xs : Vec F S4096x64 .f32) :
    accMid1 c i arg2 harg2 arg3 harg3 arg4 harg4 arg5 harg5 arg6 harg6 arg7 harg7 hc0 hc1 x0 x1 x2 x3 xs = k1_pay2 i x0 x1 xs := by
  unfold accMid1
  rw [View.read_writes_eq_canon _ _ _ (accMid1_cover c i arg2 harg2 arg3 harg3 arg4 harg4 arg5 harg5 arg6 harg6 arg7 harg7 hc0 hc1 x0 x1 x2 x3 xs)]
  unfold runMid1
  dsimp only
  sl_unfold_words
  rw [View.canon_unit_zero hz2]
  simp only [View.readAt_eq_ld, harg2.read_unread, harg3.read_unread, harg7.read_unread,
    View.ld_unit_zero (S := S2000x1) hz2, View.ld_unit_zero (S := S2000x64) hz2, View.ld_unit_zero (S := S4096x64) hz2]

/-- Where the reduction coordinate is 0 the accumulator is reset, read back, and added to: the last store's payload
    over the reset's. -/
theorem accFirst1_eq (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : first1 i) (hc1 : ¬last1 i)
    (x0 : Vec F S2000x1 .i32) (x1 : Vec F S2000x64 .bf16) (x2 : Vec F S64x64 .f32) (x3 : Vec F S1x64 .f32) :
    accFirst1 c i arg2 harg2 arg3 harg3 arg4 harg4 arg5 harg5 arg6 harg6 arg7 harg7 hc0 hc1 x0 x1 x2 x3 = k1_pay2 i x0 x1 (k1_pay1 (F := F)) := by
  unfold accFirst1
  rw [View.read_writes_eq_canon _ _ _ (accFirst1_cover c i arg2 harg2 arg3 harg3 arg4 harg4 arg5 harg5 arg6 harg6 arg7 harg7 hc0 hc1 x0 x1 x2 x3)]
  unfold runFirst1
  dsimp only
  sl_unfold_words
  rw [View.canon_cons_unit_zero (S := S4096x64) hz2, View.readCov_unit_zero (S := S4096x64) _ hz2]
  simp only [View.readAt_eq_ld, harg2.read_unread, harg3.read_unread,
    View.ld_unit_zero (S := S2000x1) hz2, View.ld_unit_zero (S := S2000x64) hz2]

/-- At the last reduction coordinate the accumulator is stepped as at a middle one; -/
theorem accLast1_eq (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : last1 i)
    (x0 : Vec F S2000x1 .i32) (x1 : Vec F S2000x64 .bf16) (x2 : Vec F S64x64 .f32) (x3 : Vec F S1x64 .f32) (xs : Vec F S4096x64 .f32) :
    accLast1 c i arg2 harg2 arg3 harg3 arg4 harg4 arg5 harg5 arg6 harg6 arg7 harg7 hc0 hc1 x0 x1 x2 x3 xs = k1_pay2 i x0 x1 xs := by
  unfold accLast1
  rw [View.read_writes_eq_canon _ _ _ (accLast1_cover c i arg2 harg2 arg3 harg3 arg4 harg4 arg5 harg5 arg6 harg6 arg7 harg7 hc0 hc1 x0 x1 x2 x3 xs)]
  unfold runLast1
  dsimp only
  sl_unfold_words
  rw [View.canon_unit_zero hz2]
  simp only [View.readAt_eq_ld, harg2.read_unread, harg3.read_unread, harg7.read_unread,
    View.ld_unit_zero (S := S2000x1) hz2, View.ld_unit_zero (S := S2000x64) hz2, View.ld_unit_zero (S := S4096x64) hz2]

/-- and the output block takes the linear map of the stepped accumulator, read back. -/
theorem outLast1_eq (c : Dev nD) (i : grid1.Coords) (arg2 : Memref sig .tc .vmem S2000x1 .i32) (harg2 : arg2.IsWhole) (arg3 : Memref sig .tc .vmem S2000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S4096x64 .f32) (harg6 : arg6.IsWhole) (arg7 : Memref sig .tc .vmem S4096x64 .f32) (harg7 : arg7.IsWhole) (hc0 : ¬first1 i) (hc1 : last1 i)
    (x0 : Vec F S2000x1 .i32) (x1 : Vec F S2000x64 .bf16) (x2 : Vec F S64x64 .f32) (x3 : Vec F S1x64 .f32) (xs : Vec F S4096x64 .f32) :
    outLast1 c i arg2 harg2 arg3 harg3 arg4 harg4 arg5 harg5 arg6 harg6 arg7 harg7 hc0 hc1 x0 x1 x2 x3 xs = k1_pay3 (k1_pay2 i x0 x1 xs) x2 x3 := by
  unfold outLast1
  rw [View.read_writes_eq_canon _ _ _ (outLast1_cover c i arg2 harg2 arg3 harg3 arg4 harg4 arg5 harg5 arg6 harg6 arg7 harg7 hc0 hc1 x0 x1 x2 x3 xs)]
  unfold runLast1
  dsimp only
  sl_unfold_words
  rw [View.canon_unit_zero hz2, View.readCov_unit_zero (S := S4096x64) _ hz2]
  simp only [View.readAt_eq_ld, harg2.read_unread, harg3.read_unread, harg4.read_unread, harg5.read_unread, harg7.read_unread,
    View.ld_unit_zero (S := S2000x1) hz2, View.ld_unit_zero (S := S2000x64) hz2, View.ld_unit_zero (S := S4096x64) hz2,
    View.ld_unit_zero (S := S64x64) hz2, View.ld_unit_zero (S := S1x64) hz2]

/-! ## The value, over the extended reals -/

section Value

variable (V : (c : Dev nD) → (b : Ref sig .tc) → Buf (Elt Ideal) ((c : Thread nD τ).loc b))

/-- The block index of every window and the first grid coordinate at point t, in closed form: the reduction
    coordinate t % 625 numbers the edge blocks, the other coordinate t / 625 the node blocks. -/
theorem idx_facts1 : ∀ t : Fin cfg1.N,
    win1_0.index t (0 : Fin 2) = t.val % 625 ∧ win1_0.index t (1 : Fin 2) = 0 ∧
    win1_1.index t (0 : Fin 2) = t.val % 625 ∧ win1_1.index t (1 : Fin 2) = 0 ∧
    win1_2.index t (0 : Fin 2) = 0 ∧ win1_2.index t (1 : Fin 2) = 0 ∧
    win1_3.index t (0 : Fin 2) = 0 ∧ win1_3.index t (1 : Fin 2) = 0 ∧
    win1_4.index t (0 : Fin 2) = t.val / 625 ∧ win1_4.index t (1 : Fin 2) = 0 ∧
    ((grid1.coords t) 0).val = t.val / 625 :=
  (by decide +kernel : ∀ t : Fin grid1.N,
    win1_0.index t (0 : Fin 2) = t.val % 625 ∧ win1_0.index t (1 : Fin 2) = 0 ∧
    win1_1.index t (0 : Fin 2) = t.val % 625 ∧ win1_1.index t (1 : Fin 2) = 0 ∧
    win1_2.index t (0 : Fin 2) = 0 ∧ win1_2.index t (1 : Fin 2) = 0 ∧
    win1_3.index t (0 : Fin 2) = 0 ∧ win1_3.index t (1 : Fin 2) = 0 ∧
    win1_4.index t (0 : Fin 2) = t.val / 625 ∧ win1_4.index t (1 : Fin 2) = 0 ∧
    ((grid1.coords t) 0).val = t.val / 625)

/-! ### The input blocks, read at an index -/

/-- The ids' block at point t is rows 2000 (t % 625) … of the id column. -/
theorem iblk1_0_apply (c : Dev nD) (t : Fin cfg1.N) (r : Fin 2000) (q : Fin 1) :
    (iblk1 V c 0 t : Vec Ideal S2000x1 .i32) (ix2 r q)
      = (V c main_v5 : Cert.Spec.SE1.Idx → BitVec 32) (ix2 (⟨2000 * (t.val % 625) + r.val, by omega⟩ : Fin 1250000) q) := by
  unfold iblk1
  rw [View.read_apply]
  show V c main_v5 _ = V c main_v5 _
  congr 1
  funext a
  apply Fin.ext
  match a with
  | ⟨0, _⟩ => show win1_0.index t 0 * 2000 + 1 * r.val = 2000 * (t.val % 625) + r.val; rw [(idx_facts1 t).1]; omega
  | ⟨1, _⟩ => show win1_0.index t 1 * 1 + 1 * q.val = q.val; rw [(idx_facts1 t).2.1]; omega

/-- The messages' block at point t is rows 2000 (t % 625) … of the messages. -/
theorem iblk1_1_apply (c : Dev nD) (t : Fin cfg1.N) (r : Fin 2000) (d : Fin 64) :
    (iblk1 V c 1 t : Vec Ideal S2000x64 .bf16) (ix2 r d)
      = (V c main_v8 : Cert.Spec.SM.Idx → EReal) (ix2 (⟨2000 * (t.val % 625) + r.val, by omega⟩ : Fin 1250000) d) := by
  unfold iblk1
  rw [View.read_apply]
  show V c main_v8 _ = V c main_v8 _
  congr 1
  funext a
  apply Fin.ext
  match a with
  | ⟨0, _⟩ => show win1_1.index t 0 * 2000 + 1 * r.val = 2000 * (t.val % 625) + r.val; rw [(idx_facts1 t).2.2.1]; omega
  | ⟨1, _⟩ => show win1_1.index t 1 * 64 + 1 * d.val = d.val; rw [(idx_facts1 t).2.2.2.1]; omega

/-- The weight matrix's block is the matrix. -/
theorem iblk1_2_apply (c : Dev nD) (t : Fin cfg1.N) (p q : Fin 64) :
    (iblk1 V c 2 t : Vec Ideal S64x64 .f32) (ix2 p q) = (V c main_arg4 : Cert.Spec.SW.Idx → EReal) (ix2 p q) := by
  unfold iblk1
  rw [View.read_apply]
  show V c main_arg4 _ = V c main_arg4 _
  congr 1
  funext a
  apply Fin.ext
  match a with
  | ⟨0, _⟩ => show win1_2.index t 0 * 64 + 1 * p.val = p.val; rw [(idx_facts1 t).2.2.2.2.1]; omega
  | ⟨1, _⟩ => show win1_2.index t 1 * 64 + 1 * q.val = q.val; rw [(idx_facts1 t).2.2.2.2.2.1]; omega

/-- The bias row's block is the row. -/
theorem iblk1_3_apply (c : Dev nD) (t : Fin cfg1.N) (p : Fin 1) (q : Fin 64) :
    (iblk1 V c 3 t : Vec Ideal S1x64 .f32) (ix2 p q) = (V c main_v7 : Cert.Spec.SB2.Idx → EReal) (ix2 p q) := by
  unfold iblk1
  rw [View.read_apply]
  show V c main_v7 _ = V c main_v7 _
  congr 1
  funext a
  apply Fin.ext
  match a with
  | ⟨0, _⟩ => show win1_3.index t 0 * 1 + 1 * p.val = p.val; rw [(idx_facts1 t).2.2.2.2.2.2.1]; omega
  | ⟨1, _⟩ => show win1_3.index t 1 * 64 + 1 * q.val = q.val; rw [(idx_facts1 t).2.2.2.2.2.2.2.1]; omega

/-! ### The accumulator is the running sum of the points' one-hot sums -/

/-- Row r of the edge block that point n reads, as a row of the edge arrays. -/
def rowOf (n : Nat) (r : Fin 2000) : Fin 1250000 := ⟨2000 * (n % 625) + r.val, by omega⟩

/-- What point n adds to the accumulator at an index: over the point's 2000 edges, the 0/1 entry of the edge's
    destination id against the node block's lane, times the edge's message. -/
def addend (c : Dev nD) (n : Nat) (i : S4096x64.Idx) : EReal :=
  ∑ r : Fin 2000,
    Cert.Spec.hot ((V c main_v5 : Cert.Spec.SE1.Idx → BitVec 32) (ix2 (rowOf n r) (0 : Fin 1))) (4096 * (n / 625)) (i 0).val
      * (V c main_v8 : Cert.Spec.SM.Idx → EReal) (ix2 (rowOf n r) (i 1))

/-- The body's add at point n, read at an index: what the accumulator held plus the point's addend. -/
theorem step_apply (c : Dev nD) (n : Nat) (h : n < cfg1.N) (acc : Vec Ideal S4096x64 .f32) (i : S4096x64.Idx) :
    k1_pay2 (grid1.coords ⟨n, h⟩) (iblk1 V c 0 ⟨n, h⟩) (iblk1 V c 1 ⟨n, h⟩) acc i = acc i + addend V c n i := by
  obtain ⟨j, d, rfl⟩ : ∃ (j : Fin 4096) (d : Fin 64), i = ix2 j d := ⟨i 0, i 1, eq_ix2 i⟩
  rw [Pay.k1_pay2_apply]
  congr 1
  unfold addend
  refine Finset.sum_congr rfl fun r _ => ?_
  rw [iblk1_0_apply, iblk1_1_apply, (idx_facts1 ⟨n, h⟩).2.2.2.2.2.2.2.2.2.2]
  rfl

/-- The accumulator's contents where the reduction coordinate is 0, and the step elsewhere, as functions of the point. -/
def resetAt (c : Dev nD) (n : Nat) (h : n < cfg1.N) : Vec Ideal S4096x64 .f32 :=
  k1_pay2 (grid1.coords ⟨n, h⟩) (iblk1 V c 0 ⟨n, h⟩) (iblk1 V c 1 ⟨n, h⟩) (k1_pay1 (F := Ideal))
def stepAt (c : Dev nD) (n : Nat) (h : n < cfg1.N) (acc : Vec Ideal S4096x64 .f32) : Vec Ideal S4096x64 .f32 :=
  k1_pay2 (grid1.coords ⟨n, h⟩) (iblk1 V c 0 ⟨n, h⟩) (iblk1 V c 1 ⟨n, h⟩) acc

theorem reset_eq (c : Dev nD) (n : Nat) (h : n < cfg1.N) (h0 : n % 625 = 0) :
    (outsAt1 V c n h).2 = resetAt V c n h := by
  have h1 : ¬n % 625 = 624 := by omega
  rw [outsAt1_first V c ⟨n, h⟩ h0 h1]
  dsimp only
  rw [accFirst1_eq]
  rfl

theorem step_eq (c : Dev nD) (n : Nat) (h : n + 1 < cfg1.N) (h0 : ¬(n + 1) % 625 = 0) :
    (outsAt1 V c (n + 1) h).2 = stepAt V c (n + 1) h ((outsAt1 V c n (Nat.lt_of_succ_lt h)).2) := by
  by_cases h1 : (n + 1) % 625 = 624
  · rw [outsAt1_last V c ⟨n + 1, h⟩ h0 h1]
    dsimp only
    rw [accLast1_eq]
    rfl
  · rw [outsAt1_mid V c ⟨n + 1, h⟩ h0 h1]
    dsimp only
    rw [accMid1_eq]
    rfl

/-- After the body at point t the accumulator holds, at every index, the sum of the addends of the points of t's run
    of the reduction coordinate up to t. -/
theorem acc_apply (c : Dev nD) (t : Fin cfg1.N) (i : S4096x64.Idx) :
    (outsAt1 V c t.val t.isLt).2 i = ∑ s ∈ Finset.range (t.val % 625 + 1), addend V c (625 * (t.val / 625) + s) i := by
  have hlt : 625 * (t.val / 625) + t.val % 625 < cfg1.N := by rw [Nat.div_add_mod]; exact t.isLt
  have key := Pipeline.eq_accAt_of_mod (N := cfg1.N) (fun n h => (outsAt1 V c n h).2) 625 (resetAt V c) (stepAt V c)
    (reset_eq V c) (step_eq V c) (by decide) t.val t.isLt hlt
  refine (congrFun key i).trans ?_
  rw [Pipeline.accAt_add_apply (ι := S4096x64.Idx) (β := EReal) (resetAt V c) (stepAt V c) (fun _ => 0) (addend V c)
    (625 * (t.val / 625)) 624
    (fun h i => by unfold resetAt; rw [step_apply, Pay.k1_pay1_apply])
    (fun n h acc i _ _ => step_apply V c n h acc i)
    (t.val % 625) (by omega) hlt i, zero_add]

/-- At the last reduction coordinate the output block takes the linear map of the accumulator as the body leaves it. -/
theorem out_fst (c : Dev nD) (t : Fin cfg1.N) (h0 : ¬t.val % 625 = 0) (h1 : t.val % 625 = 624) :
    (outsAt1 V c t.val t.isLt).1 = k1_pay3 ((outsAt1 V c t.val t.isLt).2) (iblk1 V c 2 t) (iblk1 V c 3 t) := by
  rw [outsAt1_last V c t h0 h1]
  dsimp only
  rw [outLast1_eq, accLast1_eq]

/-! ### The block a writing point writes back -/

/-- The kernel's accumulator sum for node block q is the sum of the addends of the 625 points of q's run. -/
theorem aggRaw_eq (c : Dev nD) (q : Fin 25) (j : Fin 4096) (k : Fin 64) :
    Cert.Spec.aggRaw (V c main_v5) (V c main_v8) q j k = ∑ s : Fin 625, addend V c (625 * q.val + s.val) (ix2 j k) := by
  unfold Cert.Spec.aggRaw addend
  refine Finset.sum_congr rfl fun s _ => Finset.sum_congr rfl fun r _ => ?_
  have e1 : rowOf (625 * q.val + s.val) r = (⟨2000 * s.val + r.val, by omega⟩ : Fin 1250000) :=
    Fin.ext (by show 2000 * ((625 * q.val + s.val) % 625) + r.val = 2000 * s.val + r.val; omega)
  have e2 : (625 * q.val + s.val) / 625 = q.val := by omega
  rw [e1, e2]

/-- The kernel's result at row 4096 q + j: the accumulator sum of block q, row j, through the weight matrix, plus the bias. -/
theorem outRaw_apply (dst2 : Cert.Spec.SE1.Idx → BitVec 32) (msg : Cert.Spec.SM.Idx → EReal) (W : Cert.Spec.SW.Idx → EReal)
    (b2 : Cert.Spec.SB2.Idx → EReal) (q : Fin 25) (j : Fin 4096) (d : Fin 64) (row : Fin 102400)
    (hrow : row.val = 4096 * q.val + j.val) :
    Cert.Spec.outRaw dst2 msg W b2 (ix2 row d)
      = (∑ k : Fin 64, Cert.Spec.aggRaw dst2 msg q j k * W (ix2 d k)) + b2 (ix2 (0 : Fin 1) d) := by
  have e1 : (⟨row.val / 4096, by omega⟩ : Fin 25) = q := Fin.ext (by show row.val / 4096 = q.val; omega)
  have e2 : (⟨row.val % 4096, Nat.mod_lt _ (by decide)⟩ : Fin 4096) = j := Fin.ext (by show row.val % 4096 = j.val; omega)
  show (∑ k : Fin 64, Cert.Spec.aggRaw dst2 msg (⟨row.val / 4096, _⟩ : Fin 25) (⟨row.val % 4096, _⟩ : Fin 4096) k * W (ix2 d k))
    + b2 (ix2 (0 : Fin 1) d) = _
  rw [e1, e2]

/-- What the output block holds after the body at a writing point, at row j of the block: the kernel's result at row
    4096 (t / 625) + j of the array. -/
theorem block_value (c : Dev nD) (t : Fin cfg1.N) (h1 : t.val % 625 = 624) (j : Fin 4096) (d : Fin 64)
    (row : Fin 102400) (hrow : row.val = 4096 * (t.val / 625) + j.val) :
    k1_pay3 ((outsAt1 V c t.val t.isLt).2) (iblk1 V c 2 t) (iblk1 V c 3 t) (ix2 j d)
      = Cert.Spec.outRaw (V c main_v5) (V c main_v8) (V c main_arg4) (V c main_v7) (ix2 row d) := by
  have hN : cfg1.N = 15625 := N_1
  have hq : t.val / 625 < 25 := by have := t.isLt; omega
  rw [Pay.k1_pay3_apply, outRaw_apply _ _ _ _ ⟨t.val / 625, hq⟩ j d row hrow]
  congr 1
  · refine Finset.sum_congr rfl fun k _ => ?_
    rw [acc_apply, iblk1_2_apply, aggRaw_eq, h1, Finset.sum_range (fun s => addend V c (625 * (t.val / 625) + s) (ix2 j k))]
  · rw [iblk1_3_apply]

/-- So a writing point writes back its block of the kernel's result. -/
theorem flushed_eq (c : Dev nD) (t : Fin cfg1.N) (hf : (cfg1.win 4).flush t = true) :
    (dat1 (F := Ideal) V c).flushed 4 t
      = ((cfg1.win 4).blk t).view.read (Elt Ideal) (Cert.Spec.outRaw (V c main_v5) (V c main_v8) (V c main_arg4) (V c main_v7)) := by
  have h1 : t.val % 625 = 624 := (flush1_4 t).mp hf
  have h0 : ¬t.val % 625 = 0 := by omega
  have hN : cfg1.N = 15625 := N_1
  have hq : t.val / 625 < 25 := by have := t.isLt; omega
  show (cfg1.win 4).cut (grid1.coords t) ((dat1 V c).after 4 t) = _
  rw [after1_4, out_fst V c t h0 h1]
  funext y
  obtain ⟨j, d, rfl⟩ : ∃ (j : Fin 4096) (d : Fin 64), y = ix2 j d := ⟨y 0, y 1, eq_ix2 y⟩
  rw [View.read_apply]
  refine (block_value V c t h1 j d ⟨4096 * (t.val / 625) + j.val, by omega⟩ rfl).trans ?_
  show Cert.Spec.outRaw _ _ _ _ _ = Cert.Spec.outRaw _ _ _ _ _
  congr 1
  funext a
  apply Fin.ext
  match a with
  | ⟨0, _⟩ => show 4096 * (t.val / 625) + j.val = win1_4.index t (0 : Fin 2) * 4096 + 1 * j.val; rw [(idx_facts1 t).2.2.2.2.2.2.2.2.1]; omega
  | ⟨1, _⟩ => show d.val = win1_4.index t (1 : Fin 2) * 64 + 1 * d.val; rw [(idx_facts1 t).2.2.2.2.2.2.2.2.2.1]; omega

/-! ### The writing points' blocks cover the array -/

/-- Row ρ of the output array lies in the block of the last point of node block ρ / 4096's run. -/
theorem cover1 (i : Cert.Spec.SHP.Idx) :
    ∃ t : Fin cfg1.N, (cfg1.win 4).flush t = true ∧ i ∈ ((cfg1.win 4).blk t).view.set := by
  have hN : cfg1.N = 15625 := N_1
  have hi0 : (i 0).val < 102400 := (i 0).isLt
  have hi1 : (i 1).val < 64 := (i 1).isLt
  have htl : 625 * ((i 0).val / 4096) + 624 < cfg1.N := by omega
  obtain ⟨-, -, -, -, -, -, -, -, e0, e1, -⟩ := idx_facts1 ⟨625 * ((i 0).val / 4096) + 624, htl⟩
  refine ⟨⟨625 * ((i 0).val / 4096) + 624, htl⟩,
    (flush1_4 _).mpr (by show (625 * ((i 0).val / 4096) + 624) % 625 = 624; omega), ?_⟩
  show i ∈ ((View.whole main_v9).slice (win1_4.rect ⟨625 * ((i 0).val / 4096) + 624, htl⟩)).set
  rw [View.set_slice_whole, Rect.mem_set_unit]
  intro a
  match a with
  | ⟨0, _⟩ =>
    show win1_4.index ⟨625 * ((i 0).val / 4096) + 624, htl⟩ (0 : Fin 2) * 4096 ≤ (i 0).val
      ∧ (i 0).val < win1_4.index ⟨625 * ((i 0).val / 4096) + 624, htl⟩ (0 : Fin 2) * 4096 + 4096
    rw [e0]; dsimp only; omega
  | ⟨1, _⟩ =>
    show win1_4.index ⟨625 * ((i 0).val / 4096) + 624, htl⟩ (1 : Fin 2) * 64 ≤ (i 1).val
      ∧ (i 1).val < win1_4.index ⟨625 * ((i 0).val / 4096) + 624, htl⟩ (1 : Fin 2) * 64 + 64
    rw [e1]; omega

/-! ### The array after the region -/

/-- After the region the output array holds the kernel's result over the padded node range. -/
theorem out_final (c : Dev nD) :
    (dat1 (F := Ideal) V c).arrAt 4 cfg1.N = Cert.Spec.outRaw (V c main_v5) (V c main_v8) (V c main_arg4) (V c main_v7) :=
  (dat1 (F := Ideal) V c).arrAt_eq_of_cover 4 _ (fun t hf => flushed_eq V c t hf) cover1

end Value

end Cert.KernelIdeal.Hand.V1
end
-- ==== Proof.KI.Host.lean ====
/-
  What the host operations around the two kernel calls compute, over the extended reals.

  Before the first call the host pads the node table with 2400 rows of zeros (and converts it to a narrower format,
  which over the extended reals is the identity), turns the two id vectors into one-column arrays (a reshape, then a
  pad by nothing), passes the edge weights through a pad by nothing, and turns the bias into a one-row array.
  Neither call changes those arrays; each call may change only its own result.  After the second call the host keeps
  the first 100000 rows of its result.
-/
import proofs.«406658_j68066641707589_1_alg».proof.Proof.Gen.KernelIdeal.Regions
import proofs.«406658_j68066641707589_1_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostVal

open Cert.KernelIdeal Cert.KernelIdeal.Gen
open Idealize.ShloMosaic Idealize.ShloMosaic.TcCoe Idealize.SL.Sem Idealize.ShloMosaic.ValueIdx

/-! ## The layout operations read as functions -/

/-- A pad that adds nothing (no low or high padding counted from a zero low edge, no interior padding, the same
    shape) is the identity. -/
theorem pad_nothing {s : Shape} {α : Type} (lo hi interior : Fin s.rank → Nat) (x : s.Idx → α) {u : Shape} (v : u.Idx → α)
    (h : s.Pads lo hi interior s) (hu : 0 < u.numel) (hlo : ∀ a, lo a = 0) (hint : ∀ a, interior a = 0) :
    pad s lo hi interior x v h hu = x := by
  funext j
  unfold pad
  have hin : ∀ a : Fin s.rank, lo a ≤ (j (a.cast h.1)).val ∧ ((j (a.cast h.1)).val - lo a) % (interior a + 1) = 0
        ∧ ((j (a.cast h.1)).val - lo a) / (interior a + 1) < s.size a := by
    intro a
    rw [hlo a, hint a]
    refine ⟨Nat.zero_le _, ?_, ?_⟩
    · rw [Nat.zero_add, Nat.mod_one]
    · rw [Nat.zero_add, Nat.div_one, Nat.sub_zero]; exact (j (a.cast h.1)).isLt
  rw [dif_pos hin]
  refine congrArg x (funext fun a => Fin.ext ?_)
  show ((j (a.cast h.1)).val - lo a) / (interior a + 1) = (j a).val
  rw [hlo a, hint a, Nat.zero_add, Nat.div_one, Nat.sub_zero]
  rfl

/-- On the one-column arrays of 1250000 entries, the pad with no low, high or interior padding is the identity. -/
theorem pad_col {α : Type} (x : Cert.Spec.SE1.Idx → α) {u : Shape} (v : u.Idx → α)
    (h : Cert.Spec.SE1.Pads (![0, 0] : Fin 2 → Nat) ![0, 0] ![0, 0] Cert.Spec.SE1) (hu : 0 < u.numel) :
    pad Cert.Spec.SE1 ![0, 0] ![0, 0] ![0, 0] x v h hu = x :=
  pad_nothing _ _ _ x v h hu (fun a => match a with | ⟨0, _⟩ => rfl | ⟨1, _⟩ => rfl)
    (fun a => match a with | ⟨0, _⟩ => rfl | ⟨1, _⟩ => rfl)

/-- The node table padded by 2400 rows below, read as a function: the table inside its 100000 rows, the padding
    value's one element elsewhere. -/
theorem pad_rows (x : Cert.Spec.SH.Idx → EReal) (v : (⟨0, ![]⟩ : Shape).Idx → EReal)
    (h : Cert.Spec.SH.Pads (![0, 0] : Fin 2 → Nat) ![2400, 0] ![0, 0] Cert.Spec.SHP) (hu : 0 < (⟨0, ![]⟩ : Shape).numel)
    (hv : v ix0 = 0) :
    pad Cert.Spec.SHP ![0, 0] ![2400, 0] ![0, 0] x v h hu = Cert.Spec.padH x := by
  funext j
  unfold pad Cert.Spec.padH
  by_cases hlt : (j 0).val < 100000
  · have hin : ∀ a : Fin 2, (![0, 0] : Fin 2 → Nat) a ≤ (j (a.cast h.1)).val
          ∧ ((j (a.cast h.1)).val - (![0, 0] : Fin 2 → Nat) a) % ((![0, 0] : Fin 2 → Nat) a + 1) = 0
          ∧ ((j (a.cast h.1)).val - (![0, 0] : Fin 2 → Nat) a) / ((![0, 0] : Fin 2 → Nat) a + 1) < Cert.Spec.SH.size a := by
      intro a
      match a with
      | ⟨0, _⟩ =>
        refine ⟨Nat.zero_le _, Nat.mod_one _, ?_⟩
        show ((j 0).val - 0) / (0 + 1) < 100000
        rw [Nat.zero_add, Nat.div_one, Nat.sub_zero]; exact hlt
      | ⟨1, _⟩ =>
        refine ⟨Nat.zero_le _, Nat.mod_one _, ?_⟩
        show ((j 1).val - 0) / (0 + 1) < 64
        rw [Nat.zero_add, Nat.div_one, Nat.sub_zero]; exact idx2_lt1 j
    rw [dif_pos hin, dif_pos hlt]
    refine congrArg x (funext fun a => Fin.ext ?_)
    match a with
    | ⟨0, _⟩ =>
      show ((j 0).val - 0) / (0 + 1) = (j 0).val
      rw [Nat.zero_add, Nat.div_one, Nat.sub_zero]
    | ⟨1, _⟩ =>
      show ((j 1).val - 0) / (0 + 1) = (j 1).val
      rw [Nat.zero_add, Nat.div_one, Nat.sub_zero]
  · have hout : ¬ ∀ a : Fin 2, (![0, 0] : Fin 2 → Nat) a ≤ (j (a.cast h.1)).val
          ∧ ((j (a.cast h.1)).val - (![0, 0] : Fin 2 → Nat) a) % ((![0, 0] : Fin 2 → Nat) a + 1) = 0
          ∧ ((j (a.cast h.1)).val - (![0, 0] : Fin 2 → Nat) a) / ((![0, 0] : Fin 2 → Nat) a + 1) < Cert.Spec.SH.size a := by
      intro hin
      have h0 : ((j 0).val - 0) / (0 + 1) < 100000 := (hin 0).2.2
      rw [Nat.zero_add, Nat.div_one, Nat.sub_zero] at h0
      exact hlt h0
    rw [dif_neg hout, dif_neg hlt, eq_ix0 (Shape.Idx.first hu)]
    exact hv

/-- A vector of 1250000 entries reshaped to one column reads, at (e, 0), its entry e. -/
theorem cast_col {α : Type} (x : Cert.Spec.SE.Idx → α) (h : Cert.Spec.SE.ShapeCasts Cert.Spec.SE1) :
    shapeCast Cert.Spec.SE1 x h = Cert.Spec.col x := by
  funext j
  unfold Cert.Spec.col
  refine shapeCast_apply x h j _ ?_
  rw [Shape.rowMajor_val_two, Shape.rowMajor_val_one]
  show (j 0).val = (j 0).val * 1 + (j 1).val
  have h1 : (j 1).val < 1 := idx2_lt1 j
  omega

/-- A vector of 64 entries reshaped to one row reads, at (0, d), its entry d. -/
theorem cast_row (b : Cert.Spec.SB.Idx → EReal) (h : Cert.Spec.SB.ShapeCasts Cert.Spec.SB2) :
    shapeCast Cert.Spec.SB2 b h = Cert.Spec.row b := by
  funext j
  unfold Cert.Spec.row
  refine shapeCast_apply b h j _ ?_
  rw [Shape.rowMajor_val_two, Shape.rowMajor_val_one]
  show (j 1).val = (j 0).val * 64 + (j 1).val
  have h0 : (j 0).val < 1 := idx2_lt0 j
  omega

/-- The slice of the first 100000 rows, read as a function. -/
theorem slice_top (x : Cert.Spec.SHP.Idx → EReal) (h : Cert.Spec.SHP.Slices (![0, 0] : Fin 2 → Nat) Cert.Spec.SH) :
    extractStridedSlice Cert.Spec.SH ![0, 0] x h = Cert.Spec.topRows x := by
  funext j
  unfold Cert.Spec.topRows
  refine extractStridedSlice_apply _ x h j _ fun a => ?_
  match a with
  | ⟨0, _⟩ => show (j 0).val = 0 + (j 0).val; rw [Nat.zero_add]
  | ⟨1, _⟩ => show (j 1).val = 0 + (j 1).val; rw [Nat.zero_add]

variable (m : (ℓ : Loc nD τ sig) → Buf (Elt Ideal) ℓ) (outs : Outs (F := Ideal)) (c : Dev nD)

/-! ## The arrays at the first call's entry -/

/-- The padded node table: the node table inside its 100000 rows, zero in the 2400 rows below (the padding value is
    the zero word read as a number; the change of format after the pad is the identity on extended reals). -/
theorem V9_v1 : V9 m c main_v1 = Cert.Spec.padH (m ((c : Thread nD τ).loc main_arg0)) := by
  have e3 : V9 m c main_v1 = V3 m c main_v1 :=
    (V9_of m c main_v1 (by decide)).trans <| (V8_of m c main_v1 (by decide)).trans <| (V7_of m c main_v1 (by decide)).trans <|
      (V6_of m c main_v1 (by decide)).trans <| (V5_of m c main_v1 (by decide)).trans <| V4_of m c main_v1 (by decide)
  have e2 : @Eq (FVec Ideal S102400x64 .bf16) (V3 m c main_v1) (truncf .bf16 (V2 m c main_v0 : FVec Ideal S102400x64 .f32) bitsLt_bf16_f32) := by
    show StableHlo.after hostOps0_2 (V2 m c) (Proc.devRef .tc main_v1) = _
    after_results
  have e1 : @Eq (FVec Ideal S102400x64 .f32) (V2 m c main_v0) (pad S102400x64 ![0, 0] ![2400, 0] ![0, 0] (V1 m c main_arg0 : FVec Ideal S100000x64 .f32) (sitofp (F := Ideal) .f32 (V1 m c main_c : IVec S_ 32))
      pads_S100000x64_S102400x64_024000_000 h_S_) := by
    show StableHlo.after hostOps0_1 (V1 m c) (Proc.devRef .tc main_v0) = _
    after_results
    rfl
  have e0 : @Eq (IVec S_ 32) (V1 m c main_c) (constantI S_ 32 0#32) := by
    show StableHlo.after hostOps0 (V0 m c) (Proc.devRef .tc main_c) = _
    after_results
  have ea : V1 m c main_arg0 = m ((c : Thread nD τ).loc main_arg0) := (V1_of m c main_arg0 (by decide)).trans rfl
  rw [e3, e2, e1, e0, ea]
  funext j
  rw [truncf_apply]
  refine congrFun (pad_rows _ _ _ _ ?_) j
  show (((0#32 : BitVec 32).toInt : ℝ) : EReal) = 0
  rw [BitVec.toInt_zero, Int.cast_zero, EReal.coe_zero]

/-- The source ids as a column: the vector reshaped to one column, then a pad that adds nothing. -/
theorem V9_v3 : V9 m c main_v3 = Cert.Spec.col (m ((c : Thread nD τ).loc main_arg2)) := by
  have e4 : V9 m c main_v3 = V4 m c main_v3 :=
    (V9_of m c main_v3 (by decide)).trans <| (V8_of m c main_v3 (by decide)).trans <| (V7_of m c main_v3 (by decide)).trans <|
      (V6_of m c main_v3 (by decide)).trans <| V5_of m c main_v3 (by decide)
  have e3 : @Eq (IVec S1250000x1 32) (V4 m c main_v3) (pad S1250000x1 ![0, 0] ![0, 0] ![0, 0] (V3 m c main_v2 : IVec S1250000x1 32)
      (V3 m c main_c_0 : IVec S_ 32) pads_S1250000x1_S1250000x1_000_000 h_S_) := by
    show StableHlo.after hostOps0_3 (V3 m c) (Proc.devRef .tc main_v3) = _
    after_results
    rfl
  have e2 : @Eq (IVec S1250000x1 32) (V3 m c main_v2) (shapeCast S1250000x1 (V2 m c main_arg2 : IVec S1250000 32) shapeCasts_S1250000_S1250000x1) := by
    show StableHlo.after hostOps0_2 (V2 m c) (Proc.devRef .tc main_v2) = _
    after_results
    rfl
  have ea : V2 m c main_arg2 = m ((c : Thread nD τ).loc main_arg2) :=
    (V2_of m c main_arg2 (by decide)).trans <| (V1_of m c main_arg2 (by decide)).trans rfl
  rw [e4, e3, pad_col, e2, ea]
  exact cast_col _ _

/-- The destination ids as a column, the same way. -/
theorem V9_v5 : V9 m c main_v5 = Cert.Spec.col (m ((c : Thread nD τ).loc main_arg3)) := by
  have e6 : V9 m c main_v5 = V6 m c main_v5 :=
    (V9_of m c main_v5 (by decide)).trans <| (V8_of m c main_v5 (by decide)).trans <| V7_of m c main_v5 (by decide)
  have e5 : @Eq (IVec S1250000x1 32) (V6 m c main_v5) (pad S1250000x1 ![0, 0] ![0, 0] ![0, 0] (V5 m c main_v4 : IVec S1250000x1 32)
      (V5 m c main_c_1 : IVec S_ 32) pads_S1250000x1_S1250000x1_000_000 h_S_) := by
    show StableHlo.after hostOps0_5 (V5 m c) (Proc.devRef .tc main_v5) = _
    after_results
    rfl
  have e4 : @Eq (IVec S1250000x1 32) (V5 m c main_v4) (shapeCast S1250000x1 (V4 m c main_arg3 : IVec S1250000 32) shapeCasts_S1250000_S1250000x1) := by
    show StableHlo.after hostOps0_4 (V4 m c) (Proc.devRef .tc main_v4) = _
    after_results
    rfl
  have ea : V4 m c main_arg3 = m ((c : Thread nD τ).loc main_arg3) :=
    (V4_of m c main_arg3 (by decide)).trans <| (V3_of m c main_arg3 (by decide)).trans <| (V2_of m c main_arg3 (by decide)).trans <|
      (V1_of m c main_arg3 (by decide)).trans rfl
  rw [e6, e5, pad_col, e4, ea]
  exact cast_col _ _

/-- The edge weights: a pad that adds nothing. -/
theorem V9_v6 : V9 m c main_v6 = m ((c : Thread nD τ).loc main_arg1) := by
  have e8 : V9 m c main_v6 = V8 m c main_v6 := V9_of m c main_v6 (by decide)
  have e7 : @Eq (FVec Ideal S1250000x1 .f32) (V8 m c main_v6) (pad S1250000x1 ![0, 0] ![0, 0] ![0, 0] (V7 m c main_arg1 : FVec Ideal S1250000x1 .f32)
      (sitofp (F := Ideal) .f32 (V7 m c main_c_2 : IVec S_ 32)) pads_S1250000x1_S1250000x1_000_000 h_S_) := by
    show StableHlo.after hostOps0_7 (V7 m c) (Proc.devRef .tc main_v6) = _
    after_results
    rfl
  have ea : V7 m c main_arg1 = m ((c : Thread nD τ).loc main_arg1) :=
    (V7_of m c main_arg1 (by decide)).trans <| (V6_of m c main_arg1 (by decide)).trans <| (V5_of m c main_arg1 (by decide)).trans <|
      (V4_of m c main_arg1 (by decide)).trans <| (V3_of m c main_arg1 (by decide)).trans <| (V2_of m c main_arg1 (by decide)).trans <|
        (V1_of m c main_arg1 (by decide)).trans rfl
  rw [e8, e7, pad_col, ea]

/-- The bias as a row: the vector reshaped to one row. -/
theorem V9_v7 : V9 m c main_v7 = Cert.Spec.row (m ((c : Thread nD τ).loc main_arg5)) := by
  have e8 : @Eq (FVec Ideal S1x64 .f32) (V9 m c main_v7) (shapeCast S1x64 (V8 m c main_arg5 : FVec Ideal S64 .f32) shapeCasts_S64_S1x64) := by
    show StableHlo.after hostOps0_8 (V8 m c) (Proc.devRef .tc main_v7) = _
    after_results
    rfl
  have ea : V8 m c main_arg5 = m ((c : Thread nD τ).loc main_arg5) :=
    (V8_of m c main_arg5 (by decide)).trans <| (V7_of m c main_arg5 (by decide)).trans <| (V6_of m c main_arg5 (by decide)).trans <|
      (V5_of m c main_arg5 (by decide)).trans <| (V4_of m c main_arg5 (by decide)).trans <| (V3_of m c main_arg5 (by decide)).trans <|
        (V2_of m c main_arg5 (by decide)).trans <| (V1_of m c main_arg5 (by decide)).trans rfl
  rw [e8, ea]
  exact cast_row _ _

/-- The weight matrix is as launched: no host operation writes it. -/
theorem V9_arg4 : V9 m c main_arg4 = m ((c : Thread nD τ).loc main_arg4) :=
  (V9_of m c main_arg4 (by decide)).trans <| (V8_of m c main_arg4 (by decide)).trans <| (V7_of m c main_arg4 (by decide)).trans <|
    (V6_of m c main_arg4 (by decide)).trans <| (V5_of m c main_arg4 (by decide)).trans <| (V4_of m c main_arg4 (by decide)).trans <|
      (V3_of m c main_arg4 (by decide)).trans <| (V2_of m c main_arg4 (by decide)).trans <| (V1_of m c main_arg4 (by decide)).trans rfl

/-! ## Across the two calls -/

/-- The first call leaves the destination column, the bias row and the weight matrix as they were, and its own
    result is the unknown it may have written. -/
theorem V10_v5 : V10 m outs c main_v5 = V9 m c main_v5 := V10_of m outs c main_v5 (by decide)
theorem V10_v7 : V10 m outs c main_v7 = V9 m c main_v7 := V10_of m outs c main_v7 (by decide)
theorem V10_arg4 : V10 m outs c main_arg4 = V9 m c main_arg4 := V10_of m outs c main_arg4 (by decide)
theorem V10_v8 : V10 m outs c main_v8 = outs 10 main_v8 c := by
  show Function.update (V9 m c) (Proc.devRef .tc main_v8) (outs 10 main_v8 c) (Proc.devRef .tc main_v8) = _
  exact Function.update_self _ _ _
/-- The second call's result is the unknown it may have written. -/
theorem V11_v9 : V11 m outs c main_v9 = outs 11 main_v9 c := by
  show Function.update (V10 m outs c) (Proc.devRef .tc main_v9) (outs 11 main_v9 c) (Proc.devRef .tc main_v9) = _
  exact Function.update_self _ _ _

/-! ## After the second call -/

/-- The program's result: the first 100000 rows of the second call's result. -/
theorem V12_v10 : V12 m outs c main_v10 = Cert.Spec.topRows (V11 m outs c main_v9) := by
  have e : @Eq (FVec Ideal S100000x64 .f32) (V12 m outs c main_v10)
      (extractStridedSlice S100000x64 ![0, 0] (V11 m outs c main_v9 : FVec Ideal S102400x64 .f32) slices_S102400x64_S100000x64_0_0) := by
    show StableHlo.after hostOps2 (V11 m outs c) (Proc.devRef .tc main_v10) = _
    after_results
  rw [e]
  exact slice_top _ _

end Cert.KernelIdeal.HostVal
end
-- ==== Proof.Alg.lean ====
/-
  The kernel's sums equal the specification, as pure mathematics over the extended reals.

  Two facts about 32-bit words carry the argument.  For a word x and naturals base, lane with base + lane below 2^32,
  x less the word of base is the word of lane exactly when x, read unsigned, is base + lane: subtracting a fixed word is
  injective and base + lane does not wrap.  And the signed reading of a word is a given natural number below 2^31
  exactly when its unsigned reading is that number.

  So the 0/1 matrix of the first call has, in the row of edge e, a single 1, at the block and lane of the source id,
  and the double sum over node blocks and lanes picks out that one row of the padded node table; every other term is
  0 times an extended real, which is 0.  The 0/1 matrix of the second call has a 1 at edge e exactly when the
  destination id of e, read signed, is the node of the row; the double sum over edge blocks and lanes is re-indexed as
  one sum over the edges, which is the specification's sum.  The linear map and the bias are the same on both sides.
-/
import proofs.«406658_j68066641707589_1_alg».proof.Proof.Spec
import Mathlib.Data.EReal.Inv
import Mathlib.Data.Fintype.BigOperators
import Mathlib.Logic.Equiv.Fin.Basic
import Mathlib.Algebra.BigOperators.Group.Finset.Defs
import Mathlib.Algebra.BigOperators.Group.Finset.Basic

noncomputable section

open scoped BigOperators

namespace Cert.Spec

open Idealize.ShloMosaic Idealize.ShloMosaic.ValueIdx

/-! ## Words -/

/-- A word less the word of base is the word of lane exactly when the word, read unsigned, is base + lane
    (no wrap: base + lane is below 2^32). -/
theorem word_sub_eq_iff (x : BitVec 32) (base lane : Nat) (hbl : base + lane < 4294967296) :
    x - BitVec.ofNat 32 base = BitVec.ofNat 32 lane ↔ x.toNat = base + lane := by
  rw [← BitVec.toNat_inj, BitVec.toNat_sub, BitVec.toNat_ofNat, BitVec.toNat_ofNat]
  have hx : x.toNat < 4294967296 := x.isLt
  omega

/-- The 0/1 entry as a condition on the unsigned reading. -/
theorem hot_eq (x : BitVec 32) (base lane : Nat) (hbl : base + lane < 4294967296) :
    hot x base lane = if x.toNat = base + lane then 1 else 0 := by
  unfold hot
  simp only [word_sub_eq_iff x base lane hbl]

/-- A word whose signed reading is nonnegative has that reading as its unsigned one. -/
theorem toInt_of_nonneg (x : BitVec 32) (h0 : 0 ≤ x.toInt) : x.toInt = (x.toNat : Int) := by
  have hx : x.toNat < 4294967296 := x.isLt
  have hc := BitVec.toInt_eq_toNat_cond x
  split at hc <;> omega

/-- The signed reading is a natural number below 2^31 exactly when the unsigned reading is that number. -/
theorem toInt_eq_iff (x : BitVec 32) (m : Nat) (hm : m < 2147483648) :
    x.toInt = (m : Int) ↔ x.toNat = m := by
  have hx : x.toNat < 4294967296 := x.isLt
  have hc := BitVec.toInt_eq_toNat_cond x
  split at hc <;> omega

/-! ## Sums over blocks -/

/-- A double sum over a blocks of b lanes is the single sum over the a * b positions b * s + n. -/
theorem sum_blocks {M : Type*} [AddCommMonoid M] (a b N : Nat) (hN : a * b = N) (G : Fin N → M)
    (hlt : ∀ (s : Fin a) (n : Fin b), b * s.val + n.val < N) :
    (∑ s : Fin a, ∑ n : Fin b, G ⟨b * s.val + n.val, hlt s n⟩) = ∑ e : Fin N, G e := by
  subst hN
  rw [← Equiv.sum_comp finProdFinEquiv G, Fintype.sum_prod_type]
  refine Finset.sum_congr rfl fun s _ => Finset.sum_congr rfl fun n _ => ?_
  congr 1
  apply Fin.ext
  show b * s.val + n.val = n.val + b * s.val
  exact Nat.add_comm _ _

/-- The first call's double sum picks out the entry at the unsigned reading of the id. -/
theorem pick (g : Fin 102400 → EReal) (x : BitVec 32) (hx : x.toNat < 102400) :
    (∑ s : Fin 25, ∑ n : Fin 4096, hot x (4096 * s.val) n.val * g ⟨4096 * s.val + n.val, by omega⟩)
      = g ⟨x.toNat, hx⟩ := by
  rw [Finset.sum_eq_single (⟨x.toNat / 4096, by omega⟩ : Fin 25)]
  · rw [Finset.sum_eq_single (⟨x.toNat % 4096, Nat.mod_lt _ (by decide)⟩ : Fin 4096)]
    · rw [hot_eq _ _ _ (by show 4096 * (x.toNat / 4096) + x.toNat % 4096 < 4294967296; omega),
        if_pos (by show x.toNat = 4096 * (x.toNat / 4096) + x.toNat % 4096; omega), one_mul]
      congr 1
      apply Fin.ext
      show 4096 * (x.toNat / 4096) + x.toNat % 4096 = x.toNat
      omega
    · intro n _ hn
      rw [hot_eq _ _ _ (by show 4096 * (x.toNat / 4096) + n.val < 4294967296; omega), if_neg, zero_mul]
      intro hxe
      apply hn
      apply Fin.ext
      show n.val = x.toNat % 4096
      have hxe' : x.toNat = 4096 * (x.toNat / 4096) + n.val := hxe
      omega
    · intro hn
      exact absurd (Finset.mem_univ _) hn
  · intro s _ hs
    apply Finset.sum_eq_zero
    intro n _
    rw [hot_eq _ _ _ (by omega), if_neg, zero_mul]
    intro hxe
    apply hs
    apply Fin.ext
    show s.val = x.toNat / 4096
    omega
  · intro hs
    exact absurd (Finset.mem_univ _) hs

/-- The second call's double sum is the sum over the edges whose id, read signed, is the row's node. -/
theorem scatter (g : Fin 1250000 → EReal) (y : Fin 1250000 → BitVec 32) (nb : Fin 25) (j : Fin 4096) :
    (∑ eb : Fin 625, ∑ r : Fin 2000,
        hot (y ⟨2000 * eb.val + r.val, by omega⟩) (4096 * nb.val) j.val * g ⟨2000 * eb.val + r.val, by omega⟩)
      = ∑ e : Fin 1250000, if (y e).toInt = ((4096 * nb.val + j.val : Nat) : Int) then g e else 0 := by
  refine (sum_blocks 625 2000 1250000 (by norm_num)
    (fun e => hot (y e) (4096 * nb.val) j.val * g e) (fun s n => by omega)).trans ?_
  refine Finset.sum_congr rfl fun e _ => ?_
  rw [hot_eq _ _ _ (by omega)]
  have hiff := toInt_eq_iff (y e) (4096 * nb.val + j.val) (by omega)
  by_cases hc : (y e).toNat = 4096 * nb.val + j.val
  · rw [if_pos hc, if_pos (hiff.mpr hc), one_mul]
  · rw [if_neg hc, if_neg (fun hi => hc (hiff.mp hi)), zero_mul]

/-! ## The two calls -/

/-- A row of the padded node table above the padding is the node table's row. -/
theorem padH_top (h : SH.Idx → EReal) (m : Fin 102400) (hm : m.val < 100000) (k : Fin 64) :
    padH h (ix2 m k) = h (ix2 (⟨m.val, hm⟩ : Fin 100000) k) := by
  show (if hlt : m.val < 100000 then h (ix2 (⟨m.val, hlt⟩ : Fin 100000) k) else 0) = _
  rw [dif_pos hm]

/-- The first call at edge e and feature k, with the edge's source id named. -/
theorem msgRaw_apply (src : SE.Idx → BitVec 32) (w : SE1.Idx → EReal) (hb : SHP.Idx → EReal) (e : Fin 1250000) (k : Fin 64) :
    msgRaw (col src) w hb (ix2 e k)
      = (∑ s : Fin 25, ∑ n : Fin 4096,
          hot (src (ix1 e)) (4096 * s.val) n.val * (fun m => hb (ix2 m k)) ⟨4096 * s.val + n.val, by omega⟩)
        * w (ix2 e (0 : Fin 1)) := rfl

/-- The first call forms the specification's messages. -/
theorem msgRaw_eq (h : SH.Idx → EReal) (w : SE1.Idx → EReal) (src : SE.Idx → BitVec 32)
    (hsrc : ∀ e, 0 ≤ (src e).toInt ∧ (src e).toInt < 100000) (e : Fin 1250000) (k : Fin 64) :
    msgRaw (col src) w (padH h) (ix2 e k) = msgS h w src e k := by
  obtain ⟨h0, h1⟩ := hsrc (ix1 e)
  have hxi : (src (ix1 e)).toInt = ((src (ix1 e)).toNat : Int) := toInt_of_nonneg _ h0
  have hx : (src (ix1 e)).toNat < 100000 := by omega
  have hnode : node (src (ix1 e)) = (⟨(src (ix1 e)).toNat, hx⟩ : Fin 100000) := by
    apply Fin.ext
    show min (src (ix1 e)).toInt.toNat 99999 = (src (ix1 e)).toNat
    rw [hxi, Int.toNat_natCast]
    omega
  rw [msgRaw_apply, pick (fun m => padH h (ix2 m k)) (src (ix1 e)) (by omega)]
  unfold msgS
  rw [hnode]
  show padH h (ix2 (⟨(src (ix1 e)).toNat, _⟩ : Fin 102400) k) * _ = _
  rw [padH_top h ⟨(src (ix1 e)).toNat, by omega⟩ hx k]

/-- The second call's accumulator is the sum of the messages of the edges pointing at the row's node. -/
theorem aggRaw_eq (dst : SE.Idx → BitVec 32) (msg : SM.Idx → EReal) (nb : Fin 25) (j : Fin 4096) (k : Fin 64) :
    aggRaw (col dst) msg nb j k
      = ∑ e : Fin 1250000, if (dst (ix1 e)).toInt = ((4096 * nb.val + j.val : Nat) : Int) then msg (ix2 e k) else 0 :=
  scatter (fun e => msg (ix2 e k)) (fun e => dst (ix1 e)) nb j

/-! ## The theorem -/

/-- The cut to the first rows, at a row and a feature. -/
theorem topRows_apply (x : SHP.Idx → EReal) (r : Fin 100000) (d : Fin 64) :
    topRows x (ix2 r d) = x (ix2 (⟨r.val, by omega⟩ : Fin 102400) d) := rfl

/-- The second call at a row and a feature. -/
theorem outRaw_apply (dst2 : SE1.Idx → BitVec 32) (msg : SM.Idx → EReal) (W : SW.Idx → EReal) (b2 : SB2.Idx → EReal)
    (m : Fin 102400) (d : Fin 64) :
    outRaw dst2 msg W b2 (ix2 m d)
      = (∑ k : Fin 64,
          aggRaw dst2 msg (⟨m.val / 4096, by omega⟩ : Fin 25) (⟨m.val % 4096, Nat.mod_lt _ (by decide)⟩ : Fin 4096) k
            * W (ix2 d k))
        + b2 (ix2 (0 : Fin 1) d) := rfl

/-- The bias row at a feature. -/
theorem row_apply (b : SB.Idx → EReal) (d : Fin 64) : row b (ix2 (0 : Fin 1) d) = b (ix1 d) := rfl

/-- The specification at a row and a feature. -/
theorem outS_apply (h : SH.Idx → EReal) (w : SE1.Idx → EReal) (src dst : SE.Idx → BitVec 32) (W : SW.Idx → EReal)
    (b : SB.Idx → EReal) (r : Fin 100000) (d : Fin 64) :
    outS h w src dst W b (ix2 r d) = (∑ k : Fin 64, aggS h w src dst r k * W (ix2 d k)) + b (ix1 d) := rfl

/-- The kernel's result, cut to the first 100000 rows, is the specification. -/
theorem kernel_eq_spec (h : SH.Idx → EReal) (w : SE1.Idx → EReal) (src dst : SE.Idx → BitVec 32) (W : SW.Idx → EReal) (b : SB.Idx → EReal)
    (hsrc : ∀ e, 0 ≤ (src e).toInt ∧ (src e).toInt < 100000) :
    topRows (outRaw (col dst) (msgRaw (col src) w (padH h)) W (row b)) = outS h w src dst W b := by
  funext i
  obtain ⟨r, d, rfl⟩ : ∃ (r : Fin 100000) (d : Fin 64), i = ix2 r d := ⟨i 0, i 1, eq_ix2 i⟩
  rw [topRows_apply, outRaw_apply, outS_apply, row_apply]
  refine congrArg (· + b (ix1 d)) ?_
  refine Finset.sum_congr rfl fun k _ => ?_
  refine congrArg (· * W (ix2 d k)) ?_
  rw [aggRaw_eq]
  unfold aggS
  refine Finset.sum_congr rfl fun e _ => ?_
  rw [msgRaw_eq h w src hsrc e k]
  show (if (dst (ix1 e)).toInt = ((4096 * (r.val / 4096) + r.val % 4096 : Nat) : Int) then msgS h w src e k else 0) = _
  rw [Nat.div_add_mod]

end Cert.Spec

end
-- ==== Proof.KI.Value.lean ====
/-
  The kernel's result as a function of its six arguments, at the ideal instance.

  The run leaves in `main_v10` the first 100000 rows of the second call's output array.  That array is the second
  call's sums (`outRaw`) of the destination column, the messages, the weight matrix and the bias row as the call finds
  them; the messages are the first call's sums (`msgRaw`) of the source column, the edge weights and the padded node
  table; and the host operations before the calls make those columns, that row and that padded table out of the
  arguments.  With every source id a node number, the kernel's sums are the layer's specification.
-/
import proofs.«406658_j68066641707589_1_alg».proof.Proof.KI.Run
import proofs.«406658_j68066641707589_1_alg».proof.Proof.KI.V0
import proofs.«406658_j68066641707589_1_alg».proof.Proof.KI.V1
import proofs.«406658_j68066641707589_1_alg».proof.Proof.KI.Host
import proofs.«406658_j68066641707589_1_alg».proof.Proof.Alg

set_option maxRecDepth 16384

noncomputable section

namespace Cert.KernelIdeal.Hand

open Cert.KernelIdeal Cert.KernelIdeal.Gen Cert.KernelIdeal.HostVal
open Idealize.ShloMosaic Idealize.ShloMosaic.TcCoe Idealize.SL.Sem

variable (m : (ℓ : Loc nD τ sig) → Buf (Elt Ideal) ℓ) (ρ : Dev nD → PrngReg)

/-- The messages the first call leaves: its sums over the arguments' layouts. -/
theorem left8_eq (c : Dev nD) :
    left8 m c = Cert.Spec.msgRaw (Cert.Spec.col (m ((c : Thread nD τ).loc main_arg2))) (m ((c : Thread nD τ).loc main_arg1)) (Cert.Spec.padH (m ((c : Thread nD τ).loc main_arg0))) := by
  have e3 : E0 m c main_v3 = Cert.Spec.col (m ((c : Thread nD τ).loc main_arg2)) := V9_v3 m c
  have e6 : E0 m c main_v6 = (m ((c : Thread nD τ).loc main_arg1)) := V9_v6 m c
  have e1 : E0 m c main_v1 = Cert.Spec.padH (m ((c : Thread nD τ).loc main_arg0)) := V9_v1 m c
  unfold left8
  rw [V0.msg_final (E0 m) c, e3, e6, e1]

/-- The padded result the second call leaves: its sums over the messages and the arguments' layouts. -/
theorem left9_eq (c : Dev nD) :
    left9 m c = Cert.Spec.outRaw (Cert.Spec.col (m ((c : Thread nD τ).loc main_arg3)))
      (Cert.Spec.msgRaw (Cert.Spec.col (m ((c : Thread nD τ).loc main_arg2))) (m ((c : Thread nD τ).loc main_arg1)) (Cert.Spec.padH (m ((c : Thread nD τ).loc main_arg0))))
      (m ((c : Thread nD τ).loc main_arg4)) (Cert.Spec.row (m ((c : Thread nD τ).loc main_arg5))) := by
  have e5 : E1 m c main_v5 = Cert.Spec.col (m ((c : Thread nD τ).loc main_arg3)) := (V10_v5 m (outsA m) c).trans (V9_v5 m c)
  have e8 : E1 m c main_v8 = Cert.Spec.msgRaw (Cert.Spec.col (m ((c : Thread nD τ).loc main_arg2))) (m ((c : Thread nD τ).loc main_arg1)) (Cert.Spec.padH (m ((c : Thread nD τ).loc main_arg0))) :=
    (V10_v8 m (outsA m) c).trans ((outsA_v8 m 10 c).trans (left8_eq m c))
  have e4 : E1 m c main_arg4 = (m ((c : Thread nD τ).loc main_arg4)) := (V10_arg4 m (outsA m) c).trans (V9_arg4 m c)
  have e7 : E1 m c main_v7 = Cert.Spec.row (m ((c : Thread nD τ).loc main_arg5)) := (V10_v7 m (outsA m) c).trans (V9_v7 m c)
  unfold left9
  rw [V1.out_final (E1 m) c, e5, e8, e4, e7]

/-- THE KERNEL'S VALUE: where every source id is a node number, the result array is the layer's specification of
    the arguments. -/
theorem result_eq (c : Dev nD)
    (hsrc : ∀ e, 0 ≤ ((m ((c : Thread nD τ).loc main_arg2)) e).toInt ∧ ((m ((c : Thread nD τ).loc main_arg2)) e).toInt < 100000) :
    V12 m (outs m) c main_v10 = Cert.Spec.outS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [V12_v10 m (outs m) c, V11_v9 m (outs m) c, outs_v9 m 11 c, left9_eq m c]
  exact Cert.Spec.kernel_eq_spec _ _ _ _ _ _ hsrc

/-- The run, read: the result at the specification, the arguments unchanged. -/
theorem run_spec
    (hsrc : ∀ (c : Dev nD) e, 0 ≤ ((m ((c : Thread nD τ).loc main_arg2)) e).toInt ∧ ((m ((c : Thread nD τ).loc main_arg2)) e).toInt < 100000) :
    θ_run defs (onTc (τ := τ) (main (F := Ideal))) ⟨m, fun _ => 0, ρ⟩ (fun r => ∀ c : Dev nD,
      r.2.mem ((c.tc : Thread nD τ).loc main_v10) = Cert.Spec.outS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m c (hsrc c)), (h c).2⟩) (run_result m ρ)

end Cert.KernelIdeal.Hand

end
-- ==== Proof.LibGatherRows2.lean ====
/-
  A row gather of a matrix read at an index. Indexing a rank-2 table `[N, C]` by a vector of `n` row numbers is a
  gather whose start indices are the `[n, 1]` column of row numbers: axis 0 of the table is collapsed and
  start-indexed, axis 1 is an offset axis taken whole. Result element `(b, c)` is the table's
  element `(row, c)`, where `row` is the start index of position `b` read as a signed integer and clamped into
  `[0, N - 1]` (a gather clamps every start index so that the slice fits: a negative number reads row 0, one past
  the end reads the last row).
-/
import Idealize.ShloMosaic.Lib.ValueIdx

noncomputable section

namespace Idealize.ShloMosaic.GatherRows2

open Idealize.ShloMosaic Idealize.ShloMosaic.ValueIdx

variable {α : Type}

/-- The dimension numbers of a whole-row gather from a table `[N, C]` at start indices `[n, 1]` into `[n, C]`;
    their conditions `wf` are decided on a program's literal shapes. -/
abbrev rowsDims (N n C : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- On the table's row axis the operand index is the clamped start index: no batching and no offset there. -/
theorem operandIdx_row {N n C w : Nat}
    (wf : GatherDims.WF ⟨2, ![N, C]⟩ ⟨2, ![n, 1]⟩ ⟨2, ![n, C]⟩ [1] [0] [] [0] [] 1 ![1, C])
    (idx : IVec ⟨2, ![n, 1]⟩ w) (b : Fin n) (c : Fin C) :
    ((rowsDims N n C wf).operandIdx (ix2 b c) idx (0 : Fin 2)).val
      = min (idx (ix2 b (0 : Fin 1))).toInt.toNat (N - 1) := by
  show (rowsDims N n C wf).start (ix2 b c) idx (0 : Fin 2) + (rowsDims N n C wf).batchCoord (ix2 b c) (0 : Fin 2)
    + (rowsDims N n C wf).offCoord (ix2 b c) (0 : Fin 2) = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims N n C wf).startIndexMap from List.mem_singleton.mpr rfl)]
  have hsi : (rowsDims N n C wf).siIdx (ix2 b c) ⟨List.idxOf (0 : Fin 2) (rowsDims N n C wf).startIndexMap,
      List.idxOf_lt_length_iff.2 (List.mem_singleton.mpr rfl)⟩ = ix2 b (0 : Fin 1) := by
    funext d; refine Fin.ext ?_
    match d with
    | ⟨0, _⟩ => rfl
    | ⟨1, _⟩ => rfl
  rw [hsi]
  rfl

/-- On the offset axis the operand index is the result's own coordinate: the slice starts at 0 there. -/
theorem operandIdx_off {N n C w : Nat}
    (wf : GatherDims.WF ⟨2, ![N, C]⟩ ⟨2, ![n, 1]⟩ ⟨2, ![n, C]⟩ [1] [0] [] [0] [] 1 ![1, C])
    (idx : IVec ⟨2, ![n, 1]⟩ w) (b : Fin n) (c : Fin C) :
    ((rowsDims N n C wf).operandIdx (ix2 b c) idx (1 : Fin 2)).val = c.val := by
  show (rowsDims N n C wf).start (ix2 b c) idx (1 : Fin 2) + (rowsDims N n C wf).batchCoord (ix2 b c) (1 : Fin 2)
    + (rowsDims N n C wf).offCoord (ix2 b c) (1 : Fin 2) = _
  have hne : (1 : Fin 2) ∉ (rowsDims N n C wf).startIndexMap :=
    fun h => absurd (List.mem_singleton.mp h) (by decide : (1 : Fin 2) ≠ 0)
  have hk : (1 : Fin 2) ∈ (rowsDims N n C wf).sKept :=
    (GatherDims.mem_sKept _ _).mpr ⟨fun h => absurd (List.mem_singleton.mp h) (by decide : (1 : Fin 2) ≠ 0), List.not_mem_nil⟩
  rw [GatherDims.batchCoord_eq_zero _ _ _ List.not_mem_nil, Nat.add_zero]
  unfold GatherDims.start GatherDims.offCoord
  rw [dif_neg hne, dif_pos hk, Nat.zero_add]
  rfl

/-- THE ROW GATHER READ AT `(b, c)`: the table at row `idx[b, 0]`, read signed and clamped into `[0, N - 1]`, and at
    the same column. -/
theorem gather_rows_apply {N n C w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (b : Fin n) (c : Fin C) :
    Host.gather (rowsDims N n C wf) x idx (ix2 b c)
      = x (ix2 ⟨min (idx (ix2 b (0 : Fin 1))).toInt.toNat (N - 1), by omega⟩ c) := by
  unfold Host.gather
  congr 1
  funext a
  refine Fin.ext ?_
  match a with
  | ⟨0, _⟩ => exact operandIdx_row wf idx b c
  | ⟨1, _⟩ => exact operandIdx_off wf idx b c

end Idealize.ShloMosaic.GatherRows2

end
-- ==== Proof.LibScatterRows2.lean ====
/-
  A row scatter into a matrix, read at an update index. Accumulating `n` rows into a rank-2 operand `[N, C]` at a
  vector of `n` row numbers is a scatter whose scatter indices are the `[n, 1]` column of row numbers and whose
  updates are the `[n, C]` rows: axis 0 of the operand is an inserted window axis named by the one
  component of the index vector, axis 1 is a window axis taken whole. Update element `(e, c)` lands at operand element
  `(row, c)`, where `row` is the scatter index of position `e` read as a signed integer and NOT clamped: an update
  whose row number is negative or at least `N` lands nowhere.
-/
import Idealize.ShloMosaic.Lib.ValueIdx

noncomputable section

namespace Idealize.ShloMosaic.ScatterRows2

open scoped BigOperators
open Idealize.ShloMosaic Idealize.ShloMosaic.ValueIdx

/-- The dimension numbers of a whole-row scatter into an operand `[N, C]` at scatter indices `[n, 1]` of updates
    `[n, C]`; their conditions `wf` are decided on a program's literal shapes. -/
abbrev rowsDims (N n C : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

section
variable {N n C w : Nat} (wf : ScatterDims.WF ⟨2, ![N, C]⟩ ⟨2, ![n, 1]⟩ ⟨2, ![n, C]⟩ [1] [0] [0] 1)
  (idx : IVec ⟨2, ![n, 1]⟩ w) (e : Fin n) (c : Fin C)

/-- On the operand's row axis the window starts at the scatter index of position `e`, read signed. -/
theorem start_row : (rowsDims N n C wf).start (ix2 e c) idx (0 : Fin 2) = (idx (ix2 e (0 : Fin 1))).toInt := by
  unfold ScatterDims.start
  rw [dif_pos (show (0 : Fin 2) ∈ (rowsDims N n C wf).scatterDimsToOperandDims from List.mem_singleton.mpr rfl)]
  have hsi : (rowsDims N n C wf).siIdx (ix2 e c) ⟨List.idxOf (0 : Fin 2) (rowsDims N n C wf).scatterDimsToOperandDims,
      List.idxOf_lt_length_iff.2 (List.mem_singleton.mpr rfl)⟩ = ix2 e (0 : Fin 1) := by
    funext d; refine Fin.ext ?_
    match d with
    | ⟨0, _⟩ => rfl
    | ⟨1, _⟩ => rfl
  rw [hsi]

/-- On the column axis, which the index vector does not name, the window starts at 0. -/
theorem start_col : (rowsDims N n C wf).start (ix2 e c) idx (1 : Fin 2) = 0 := by
  unfold ScatterDims.start
  rw [dif_neg (fun h => absurd (List.mem_singleton.mp h) (by decide : (1 : Fin 2) ≠ 0))]

/-- The row axis is an inserted one: no window coordinate there. -/
theorem window_row : (rowsDims N n C wf).window (ix2 e c) (0 : Fin 2) = 0 := by
  unfold ScatterDims.window
  rw [dif_neg (fun h => by
    have h' : (0 : Fin 2) ∉ (rowsDims N n C wf).insertedWindowDims := by
      simpa [ScatterDims.sKept, Shape.kept, List.mem_filter, List.mem_finRange] using h
    exact h' (List.mem_singleton.mpr rfl))]

/-- On the column axis the window coordinate is the update's own column. -/
theorem window_col : (rowsDims N n C wf).window (ix2 e c) (1 : Fin 2) = c.val := by
  unfold ScatterDims.window
  have hk : (1 : Fin 2) ∈ (rowsDims N n C wf).sKept := by
    simp [ScatterDims.sKept, Shape.kept, List.mem_filter, List.mem_finRange]
  rw [dif_pos hk]
  rfl

/-- WHERE UPDATE `(e, c)` LANDS: at operand element `(r, c')` exactly when the scatter index of position `e`, read
    signed, is `r` and the columns agree. -/
theorem resultIdx?_eq_some_iff (r : Fin N) (c' : Fin C) :
    (rowsDims N n C wf).resultIdx? (ix2 e c) idx = some (ix2 r c')
      ↔ (idx (ix2 e (0 : Fin 1))).toInt = (r.val : ℤ) ∧ c = c' := by
  have h0 : (rowsDims N n C wf).start (ix2 e c) idx (0 : Fin 2) + ((rowsDims N n C wf).window (ix2 e c) (0 : Fin 2) : ℤ)
      = (idx (ix2 e (0 : Fin 1))).toInt := by
    rw [start_row, window_row]; simp
  have h1 : (rowsDims N n C wf).start (ix2 e c) idx (1 : Fin 2) + ((rowsDims N n C wf).window (ix2 e c) (1 : Fin 2) : ℤ)
      = (c.val : ℤ) := by
    rw [start_col, window_col]; simp
  unfold ScatterDims.resultIdx?
  split
  · rename_i h
    rw [Option.some.injEq]
    constructor
    · intro hf
      have e0 : ((rowsDims N n C wf).start (ix2 e c) idx (0 : Fin 2) + ((rowsDims N n C wf).window (ix2 e c) (0 : Fin 2) : ℤ)).toNat
          = r.val := congrArg (fun f => (f (0 : Fin 2)).val) hf
      have e1 : ((rowsDims N n C wf).start (ix2 e c) idx (1 : Fin 2) + ((rowsDims N n C wf).window (ix2 e c) (1 : Fin 2) : ℤ)).toNat
          = c'.val := congrArg (fun f => (f (1 : Fin 2)).val) hf
      have p0 := (h (0 : Fin 2)).1
      rw [h0] at e0 p0
      rw [h1] at e1
      refine ⟨by omega, Fin.ext (by omega)⟩
    · rintro ⟨hr, rfl⟩
      funext a; refine Fin.ext ?_
      match a with
      | ⟨0, _⟩ =>
        show ((rowsDims N n C wf).start (ix2 e c) idx (0 : Fin 2) + ((rowsDims N n C wf).window (ix2 e c) (0 : Fin 2) : ℤ)).toNat = r.val
        rw [h0, hr]; simp
      | ⟨1, _⟩ =>
        show ((rowsDims N n C wf).start (ix2 e c) idx (1 : Fin 2) + ((rowsDims N n C wf).window (ix2 e c) (1 : Fin 2) : ℤ)).toNat = c.val
        rw [h1]; simp
  · rename_i h
    constructor
    · intro hf; exact absurd hf (by simp)
    · rintro ⟨hr, rfl⟩
      exfalso; apply h; intro a
      match a with
      | ⟨0, _⟩ =>
        show 0 ≤ (rowsDims N n C wf).start (ix2 e c) idx (0 : Fin 2) + ((rowsDims N n C wf).window (ix2 e c) (0 : Fin 2) : ℤ)
          ∧ (rowsDims N n C wf).start (ix2 e c) idx (0 : Fin 2) + ((rowsDims N n C wf).window (ix2 e c) (0 : Fin 2) : ℤ) < (N : ℤ)
        rw [h0, hr]; have := r.isLt; omega
      | ⟨1, _⟩ =>
        show 0 ≤ (rowsDims N n C wf).start (ix2 e c) idx (1 : Fin 2) + ((rowsDims N n C wf).window (ix2 e c) (1 : Fin 2) : ℤ)
          ∧ (rowsDims N n C wf).start (ix2 e c) idx (1 : Fin 2) + ((rowsDims N n C wf).window (ix2 e c) (1 : Fin 2) : ℤ) < (C : ℤ)
        rw [h1]; have := c.isLt; omega

/-- THE ROW SCATTER READ AT `(r, c)`, accumulating over the extended reals: the operand there plus the updates `(e, c)` of
    the positions `e` whose scatter index, read signed, is `r`. -/
theorem scatterAdd_rows_apply {φ : FTy} (x : FVec Ideal ⟨2, ![N, C]⟩ φ) (upd : FVec Ideal ⟨2, ![n, C]⟩ φ) (r : Fin N) :
    Host.scatterAdd (rowsDims N n C wf) x idx upd (ix2 r c)
      = x (ix2 r c) + ∑ e : Fin n, if (idx (ix2 e (0 : Fin 1))).toInt = (r.val : ℤ) then upd (ix2 e c) else 0 := by
  show Ideal.hostScatterAdd (rowsDims N n C wf) x idx upd (ix2 r c) = _
  unfold Ideal.hostScatterAdd
  rw [Finset.sum_filter, sum_idx2]
  congr 1
  refine Finset.sum_congr rfl fun e _ => ?_
  simp only [resultIdx?_eq_some_iff]
  by_cases hA : (idx (ix2 e (0 : Fin 1))).toInt = (r.val : ℤ)
  · simp only [hA, true_and, Finset.sum_ite_eq', Finset.mem_univ, if_true]
  · simp only [hA, false_and, if_false, Finset.sum_const_zero]

end

end Idealize.ShloMosaic.ScatterRows2

end
-- ==== Proof.RefValue.lean ====
/-
  The reference program's result is the specification.

  The reference forms the layer with a row gather, a product, a row scatter that accumulates, a product with the
  transposed weight matrix and a bias: it gathers the feature rows of the edges' source nodes (a negative source id
  would have 100000 added first; under the hypothesis that every source id names a node none is negative, so the id is
  used as it is, and the gather's clamp into [0, 99999] is the specification's `node`), scales each row by the edge's
  weight, adds the rows into a zero table at the edges' destination ids (an id read signed and not clamped: an edge whose
  id names no node adds nothing), and contracts the feature axis with `W`'s second axis. Read index by index this is
  `Cert.Spec.outS`: `out n d = (sum over k of agg n k * W d k) + b d`, `agg n k` the sum over the edges `e` with
  `dst e = n` of `h (src e) k * w e`.
-/
import proofs.«406658_j68066641707589_1_alg».proof.Proof.Gen.ReferenceIdeal.Run
import proofs.«406658_j68066641707589_1_alg».proof.Proof.Gen.ReferenceIdeal.Read
import proofs.«406658_j68066641707589_1_alg».proof.Proof.Spec
import proofs.«406658_j68066641707589_1_alg».proof.Proof.LibGatherRows2
import proofs.«406658_j68066641707589_1_alg».proof.Proof.LibScatterRows2
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The gathered rows -/

/-- The gather's start index of edge `e`: a source id that is not negative is passed on as it is (the program adds
    100000 to the negative ones only). -/
theorem start_apply (x2 : (⟨S1250000, .i32⟩ : BufTy).Contents (Elt Ideal)) (e : Fin 1250000)
    (h : 0 ≤ (x2 (ix1 e)).toInt) :
    val_main_v5 (F := Ideal) x2 (ix2 e (0 : Fin 1)) = x2 (ix1 e) := by
  have hi : idx_main_v5 (ix2 e (0 : Fin 1)) = ix1 e := by
    funext a; match a with | ⟨0, _⟩ => rfl
  rw [val_main_v5_apply, hi, val_main_v4_apply, val_main_v1_apply, val_main_v0_apply, val_main_c_apply]
  have hc : IntOp.cmpi .slt (x2 (ix1 e)) 0#32 = 0#1 := by
    simp [IntOp.cmpi, BitVec.slt, not_lt.mpr h]
  rw [hc, select_zero]

/-- The gathered element `(e, k)`: the feature `k` of the node the source id of edge `e` names. -/
theorem gathered_apply (x0 : (⟨S100000x64, .f32⟩ : BufTy).Contents (Elt Ideal))
    (x2 : (⟨S1250000, .i32⟩ : BufTy).Contents (Elt Ideal)) (e : Fin 1250000) (k : Fin 64)
    (h : 0 ≤ (x2 (ix1 e)).toInt) :
    val_main_v6 (F := Ideal) x0 x2 (ix2 e k) = x0 (ix2 (Cert.Spec.node (x2 (ix1 e))) k) := by
  unfold val_main_v6
  have hd : gather_S100000x64_S1250000x1_S1250000x64_1_0_n_n_0_1_164
      = GatherRows2.rowsDims 100000 1250000 64 gather_S100000x64_S1250000x1_S1250000x64_1_0_n_n_0_1_164_wf := rfl
  rw [hd, GatherRows2.gather_rows_apply (by decide)]
  have hrow : (⟨min (val_main_v5 (F := Ideal) x2 (ix2 e (0 : Fin 1))).toInt.toNat (100000 - 1), by omega⟩ : Fin 100000)
      = Cert.Spec.node (x2 (ix1 e)) := by
    refine Fin.ext ?_
    show min _ (100000 - 1) = min _ 99999
    rw [start_apply x2 e h]
  exact congrArg (fun r => x0 (ix2 r k)) hrow

/-- The message of edge `e` at feature `k`, as the program forms it. -/
theorem msg_apply (x0 : (⟨S100000x64, .f32⟩ : BufTy).Contents (Elt Ideal))
    (x1 : (⟨S1250000x1, .f32⟩ : BufTy).Contents (Elt Ideal)) (x2 : (⟨S1250000, .i32⟩ : BufTy).Contents (Elt Ideal))
    (e : Fin 1250000) (k : Fin 64) (h : 0 ≤ (x2 (ix1 e)).toInt) :
    val_main_v8 (F := Ideal) x0 x1 x2 (ix2 e k) = Cert.Spec.msgS x0 x1 x2 e k := by
  have hi : idx_main_v7 (ix2 e k) = ix2 e (0 : Fin 1) := by
    funext a; match a with | ⟨0, _⟩ => rfl | ⟨1, _⟩ => rfl
  rw [val_main_v8_apply, Ideal.mulf_def, gathered_apply x0 x2 e k h, val_main_v7_apply, hi]
  rfl

/-! ## The scattered sums -/

/-- The accumulated element `(n, k)`: the messages of the edges whose destination id, read signed, is `n`. An edge
    whose destination id names no node lands nowhere. -/
theorem agg_apply (x0 : (⟨S100000x64, .f32⟩ : BufTy).Contents (Elt Ideal))
    (x1 : (⟨S1250000x1, .f32⟩ : BufTy).Contents (Elt Ideal)) (x2 x3 : (⟨S1250000, .i32⟩ : BufTy).Contents (Elt Ideal))
    (hsrc : ∀ e, 0 ≤ (x2 e).toInt ∧ (x2 e).toInt < 100000) (n : Fin 100000) (k : Fin 64) :
    val_main_v11 (F := Ideal) x0 x1 x2 x3 (ix2 n k) = Cert.Spec.aggS x0 x1 x2 x3 n k := by
  unfold val_main_v11
  have hd : scatter_S100000x64_S1250000x1_S1250000x64_1_0_0_1
      = ScatterRows2.rowsDims 100000 1250000 64 scatter_S100000x64_S1250000x1_S1250000x64_1_0_0_1_wf := rfl
  rw [hd, ScatterRows2.scatterAdd_rows_apply, val_main_v9_apply, val_main_cst_apply, Ideal.ofBits_def,
    Ideal.ofBits_zero_f32, zero_add]
  unfold Cert.Spec.aggS
  refine Finset.sum_congr rfl fun e _ => ?_
  have hdst : val_main_v10 (F := Ideal) x3 (ix2 e (0 : Fin 1)) = x3 (ix1 e) := by
    rw [val_main_v10_apply]; congr 1; funext a; match a with | ⟨0, _⟩ => rfl
  rw [hdst, msg_apply x0 x1 x2 e k (hsrc (ix1 e)).1]

/-! ## The result -/

/-- THE REFERENCE'S RESULT IS THE SPECIFICATION: element `(n, d)` is the sum over `k` of the accumulated `(n, k)` times
    `W (d, k)`, plus the bias at `d`. -/
theorem result_eq
    (x0 : (⟨S100000x64, .f32⟩ : BufTy).Contents (Elt Ideal)) (x1 : (⟨S1250000x1, .f32⟩ : BufTy).Contents (Elt Ideal))
    (x2 x3 : (⟨S1250000, .i32⟩ : BufTy).Contents (Elt Ideal)) (x4 : (⟨S64x64, .f32⟩ : BufTy).Contents (Elt Ideal)) (x5 : (⟨S64, .f32⟩ : BufTy).Contents (Elt Ideal))
    (hsrc : ∀ e, 0 ≤ (x2 e).toInt ∧ (x2 e).toInt < 100000) :
    Cert.ReferenceIdeal.Read.val_main_v16 (F := Ideal) x0 x1 x2 x3 x4 x5 = Cert.Spec.outS x0 x1 x2 x3 x4 x5 := by
  funext i
  obtain ⟨n, d, rfl⟩ : ∃ (n : Fin 100000) (d : Fin 64), i = ix2 n d := ⟨i 0, i 1, eq_ix2 i⟩
  have hb : idx_main_v14 (idx_main_v15 (ix2 n d)) = ix1 d := by
    funext a; match a with | ⟨0, _⟩ => rfl
  rw [val_main_v16_apply, Ideal.addf_def, val_main_v13_apply, val_main_v15_apply, val_main_v14_apply, hb]
  show _ = (∑ k : Fin 64, Cert.Spec.aggS x0 x1 x2 x3 n k * x4 (ix2 d k)) + x5 (ix1 d)
  refine congrArg (· + x5 (ix1 d)) (Finset.sum_congr rfl fun k _ => ?_)
  have hl : lidx_main_v13 (ix2 n d) k = ix2 n k := by
    funext a; match a with | ⟨0, _⟩ => rfl | ⟨1, _⟩ => rfl
  have hr : idx_main_v12 (ridx_main_v13 (ix2 n d) k) = ix2 d k := by
    funext a; match a with | ⟨0, _⟩ => rfl | ⟨1, _⟩ => rfl
  rw [hl, val_main_v12_apply, hr, agg_apply x0 x1 x2 x3 hsrc n k]

/-- The reference program run: every weakly fair execution ends with the result buffer at the specification of the
    arguments' launch contents and the arguments unchanged, when every source id names a node. -/
theorem run_spec (m : (ℓ : Loc nD τ sig) → Buf (Elt Ideal) ℓ) (ρ : Dev nD → PrngReg)
    (hsrc : ∀ (c : Dev nD) e, 0 ≤ (m ((c.tc : Thread nD τ).loc main_arg2) e).toInt ∧ (m ((c.tc : Thread nD τ).loc main_arg2) e).toInt < 100000) :
    θ_run defs (onTc (τ := τ) (main (F := Ideal))) ⟨m, fun _ => 0, ρ⟩ fun r => ∀ c : Dev nD,
      r.2.mem ((c.tc : Thread nD τ).loc main_v16) = Cert.Spec.outS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v16_eq (F := Ideal) _ _ _ _ _ _).trans
      (result_eq _ _ _ _ _ _ (hsrc c))), (h c).2⟩)
    (Cert.ReferenceIdeal.Value.run (F := Ideal) m ρ)

end Cert.ReferenceIdeal.RefValue

end
-- ==== Proof.PreFacts.lean ====
/-
  The precondition, decoded.

  The precondition is a conjunction of five statements about the argument arrays, each an "all elements satisfy" reduced
  by conjunction to a single truth value: |h| < +∞, |w| < +∞, |W| < +∞, |b| < +∞ elementwise, and 0 ≤ src < 100000
  elementwise (signed).  When the whole is true, each conjunct is true, and each element satisfies its test.
  A 32-bit word w with 0 ≤ w and w < 100000 as signed words has its signed value in [0, 100000).

  Only the fact about src is kept.
-/
import proofs.«406658_j68066641707589_1_alg».proof.Pre_finite_inputs
import proofs.«406658_j68066641707589_1_alg».proof.Proof.Gen.Pre_finite_inputs
import Idealize.ShloMosaic.Lib.ReduceAll
import Idealize.ShloMosaic.Lib.ValueIdx
import Idealize.ShloMosaic.PureOps.Ideal

set_option maxRecDepth 16384

noncomputable section

namespace Cert.PreFacts

open Idealize.ShloMosaic Idealize.ShloMosaic.ValueIdx Cert.Pre_finite_inputs

/-- The rank-0 shape has exactly one index. -/
instance : Subsingleton S_.Idx := ⟨fun a b => funext fun d => d.elim0⟩

/-- THE PRECONDITION DECODED: every source id lies in [0, 100000) as a signed word. -/
theorem of_pre
    (a0 : FVec Ideal Cert.Pre_finite_inputs.S100000x64 .f32) (a1 : FVec Ideal Cert.Pre_finite_inputs.S1250000x1 .f32)
    (a2 a3 : IVec Cert.Pre_finite_inputs.S1250000 32) (a4 : FVec Ideal Cert.Pre_finite_inputs.S64x64 .f32) (a5 : FVec Ideal Cert.Pre_finite_inputs.S64 .f32)
    (hp : Cert.Pre_finite_inputs.fn (F := Ideal) a0 a1 a2 a3 a4 a5 = fun _ => 1#1) :
    ∀ e, 0 ≤ (a2 e).toInt ∧ (a2 e).toInt < 100000 := by
  -- the one truth value of the precondition; its last conjunct (a conjunction of 1-bit words is 1 iff both are)
  have e := congrFun hp ix0
  unfold Cert.Pre_finite_inputs.fn Cert.Pre_finite_inputs.fn_part1 at e
  obtain ⟨-, h24⟩ := IntOp.andi_eq_one.1 e
  clear e
  intro i
  -- 0 ≤ src i and src i < 100000, signed
  have h := Host.reduce_andi_all _ _ _ _ _ h24 i
  obtain ⟨hge, hlt⟩ := IntOp.andi_eq_one.1 h
  have h0 : (0#32 : BitVec 32).toInt ≤ (a2 i).toInt := IntOp.cmpi_sge.1 hge
  have h1 : (a2 i).toInt < (100000#32 : BitVec 32).toInt := IntOp.cmpi_slt.1 hlt
  rw [show (0#32 : BitVec 32).toInt = 0 from by decide] at h0
  rw [show (100000#32 : BitVec 32).toInt = 100000 from by decide] at h1
  exact ⟨h0, h1⟩

end Cert.PreFacts

end
-- ==== Proof.lean ====
/-
  One round of message passing on a graph — gather each edge's source-node features, scale by the edge weight, sum the
  messages at each destination node, apply a linear layer — computed by a kernel of two grid calls against the plain
  indexing reference.

  The kernel never indexes.  Its first call compares every edge's source id with a running lane number, block of 4096
  node ids by block, and multiplies the resulting 0/1 matrix into the (zero-padded) node table, accumulating over the
  25 node blocks; at the last block it scales the accumulated rows by the edge weights.  Its second call does the
  transpose for the destinations: per block of 4096 nodes it accumulates, over the 625 blocks of 2000 edges, the 0/1
  matrix of "this edge points at this node" times the messages, and at the last edge block multiplies by the weight
  matrix transposed and adds the bias.  Over the extended reals a 0/1 row with a single 1 picks one row of a table
  (0 times anything is 0), so the first call's sum is the source's feature row when the source id is a node number, and
  the second call's sum is the sum of the messages over the edges with that destination; ids outside the node range
  contribute nothing on either side there.  The reference's gather clamps an out-of-range source id to a valid row
  where the kernel's comparison finds no match, so the two agree exactly where every source id is a node number: that
  range is the precondition's one conjunct this proof uses.

  The frames: each program is run through its two calls with the accumulator's contents tracked from point to point;
  the reference is a straight line of host operations.  Nothing was rewritten by the idealization, so `preserves`
  is trivial.
-/
import proofs.«406658_j68066641707589_1_alg».proof.Defs
import proofs.«406658_j68066641707589_1_alg».proof.Proof.Gen.Kernel
import proofs.«406658_j68066641707589_1_alg».proof.Proof.Gen.KernelIdeal
import proofs.«406658_j68066641707589_1_alg».proof.Proof.Gen.ReferenceIdeal
import proofs.«406658_j68066641707589_1_alg».proof.Proof.Gen.Pre_finite_inputs
import proofs.«406658_j68066641707589_1_alg».proof.Proof.K.Run
import proofs.«406658_j68066641707589_1_alg».proof.Proof.KI.Value
import proofs.«406658_j68066641707589_1_alg».proof.Proof.RefValue
import proofs.«406658_j68066641707589_1_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The reference is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the layer's specification of arguments that agree, the source ids being node numbers by the
    precondition. -/
theorem algebraic : Cert.algebraic_KernelIdeal_ReferenceIdeal := by
  intro m ρ m' ρ' hpre hagree
  have hsrc : ∀ (c : Dev Cert.KernelIdeal.nD) e, 0 ≤ ((m ((c.tc : Thread Cert.KernelIdeal.nD Cert.KernelIdeal.τ).loc Cert.KernelIdeal.main_arg2)) e).toInt ∧ ((m ((c.tc : Thread Cert.KernelIdeal.nD Cert.KernelIdeal.τ).loc Cert.KernelIdeal.main_arg2)) e).toInt < 100000 :=
    fun c => Cert.PreFacts.of_pre _ _ _ _ _ _ (hpre c)
  have hsrc' : ∀ (c : Dev Cert.ReferenceIdeal.nD) e, 0 ≤ ((m' ((c.tc : Thread Cert.ReferenceIdeal.nD Cert.ReferenceIdeal.τ).loc Cert.ReferenceIdeal.main_arg2)) e).toInt ∧ ((m' ((c.tc : Thread Cert.ReferenceIdeal.nD Cert.ReferenceIdeal.τ).loc Cert.ReferenceIdeal.main_arg2)) e).toInt < 100000 :=
    fun c e => by rw [(hagree c).2.2.1]; exact hsrc c e
  refine ⟨fun c => Cert.Spec.outS (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.run_spec m ρ hsrc, ?_⟩
  refine (θ_run Cert.ReferenceIdeal.defs _ _).mono (fun _ h c => ⟨(h c).1.trans ?_, (h c).2⟩)
    (Cert.ReferenceIdeal.RefValue.run_spec m' ρ' hsrc')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
